-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S128x1 : Shape := ⟨2, ![128, 1]⟩
abbrev S128 : Shape := ⟨1, ![128]⟩
abbrev S128x128 : Shape := ⟨2, ![128, 128]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : IVec S256x512 32) (main_arg1 : IVec S256x512 32) (main_arg2 : FVec F S128x1 .f32) (main_arg3 : FVec F S128 .f32) (main_arg4 : FVec F S128x128 .f32) (main_arg5 : FVec F S128 .f32) : IVec S_ 1 :=
  let main_v0 : FVec F S128x1 .f32 := Host.absf main_arg2
  let main_cst : FVec F S_ .f32 := constant S_ .f32 0x7F800000#32
  let main_v1 : FVec F S128x1 .f32 := broadcastInDim S128x1 ![] bcast_S_S128x1 main_cst
  let main_v2 : IVec S128x1 1 := cmpf .olt main_v0 main_v1
  let main_c : IVec S_ 1 := constantI S_ 1 1#1
  let main_v3 : IVec S_ 1 := (fun x v => Host.reduce IntOp.andi x v reducesTo_S128x1_S_d0_1 h_S_) main_v2 main_c
  let main_v4 : FVec F S128 .f32 := Host.absf main_arg3
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S256x512 : Shape := ⟨2, ![256, 512]⟩
abbrev S128x1 : Shape := ⟨2, ![128, 1]⟩
abbrev S128 : Shape := ⟨1, ![128]⟩
abbrev S128x128 : Shape := ⟨2, ![128, 128]⟩
abbrev S1x128 : Shape := ⟨2, ![1, 128]⟩
abbrev S256x512x128 : Shape := ⟨3, ![256, 512, 128]⟩
abbrev S16x128 : Shape := ⟨2, ![16, 128]⟩
abbrev S16x512 : Shape := ⟨2, ![16, 512]⟩
abbrev S16x128x128 : Shape := ⟨3, ![16, 128, 128]⟩
abbrev S16x128x1 : Shape := ⟨3, ![16, 128, 1]⟩
abbrev S16x1x512 : Shape := ⟨3, ![16, 1, 512]⟩
abbrev S16x128x512 : Shape := ⟨3, ![16, 128, 512]⟩
abbrev S1x1x128 : Shape := ⟨3, ![1, 1, 128]⟩
abbrev S2048x128 : Shape := ⟨2, ![2048, 128]⟩

abbrev nBuf : Space → Nat
  | .hbm => 9
  | .vmem => 16
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S128x1, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S256x512x128, .f32⟩
  | .hbm, ⟨8, _⟩ => ⟨S256x512x128, .f32⟩
  | .local _ .vmem, ⟨0, _⟩ => ⟨S16x128, .i32⟩
  | .local _ .vmem, ⟨1, _⟩ => ⟨S16x128, .i32⟩
  | .local _ .vmem, ⟨2, _⟩ => ⟨S16x128, .i32⟩
  | .local _ .vmem, ⟨3, _⟩ => ⟨S16x128, .i32⟩
  | .local _ .vmem, ⟨4, _⟩ => ⟨S16x512, .i32⟩
  | .local _ .vmem, ⟨5, _⟩ => ⟨S16x512, .i32⟩
  | .local _ .vmem, ⟨6, _⟩ => ⟨S16x512, .i32⟩
  | .local _ .vmem, ⟨7, _⟩ => ⟨S16x512, .i32⟩
  | .local _ .vmem, ⟨8, _⟩ => ⟨S1x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S16x128x128, .f32⟩
  | .local _ .vmem, ⟨13, _⟩ => ⟨S16x128x128, .f32⟩
  | .local _ .vmem, ⟨14, _⟩ => ⟨S16x128x128, .f32⟩
  | .local _ .vmem, ⟨15, _⟩ => ⟨S16x128x128, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S128x1_S1x128_1_0 : S128x1.Transposes [1, 0] S1x128
  inb_S16x128_S16x128_0_0 : ∀ a, (![0, 0] : Fin 2 → Nat) a + S16x128.size a ≤ S16x128.size a
  h_S16x128 : 0 < S16x128.numel
  inb_S16x512_S16x512_0_0 : ∀ a, (![0, 0] : Fin 2 → Nat) a + S16x512.size a ≤ S16x512.size a
  h_S16x512 : 0 < S16x512.numel
  shapeCasts_S16x128_S16x128x1 : S16x128.ShapeCasts S16x128x1
  shapeCasts_S16x512_S16x1x512 : S16x512.ShapeCasts S16x1x512
  broadcasts_S16x128x1_S16x128x512 : S16x128x1.Broadcasts S16x128x512
  broadcasts_S16x1x512_S16x128x512 : S16x1x512.Broadcasts S16x128x512
  natLt_1_32 : 1 < 32
  reduces_S16x128x512_S16x128 : S16x128x512.Reduces [2] S16x128
  inb_S1x128_S1x128_0_0 : ∀ a, (![0, 0] : Fin 2 → Nat) a + S1x128.size a ≤ S1x128.size a
  h_S1x128 : 0 < S1x128.numel
  shapeCasts_S1x128_S128 : S1x128.ShapeCasts S128
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bitsLt_bf16_f32 : FTy.bits .bf16 < FTy.bits .f32
  shapeCasts_S128_S1x1x128 : S128.ShapeCasts S1x1x128
  broadcasts_S16x128x1_S16x128x128 : S16x128x1.Broadcasts S16x128x128
  broadcasts_S1x1x128_S16x128x128 : S1x1x128.Broadcasts S16x128x128
  shapeCasts_S16x128x128_S2048x128 : S16x128x128.ShapeCasts S2048x128
  shapeCasts_S2048x128_S16x128x128 : S2048x128.ShapeCasts S16x128x128
  inb_S16x128x128_S16x128x128_0_0_0 : ∀ a, (![0, 0, 0] : Fin 3 → Nat) a + S16x128x128.size a ≤ S16x128x128.size a
  h_S16x128x128 : 0 < S16x128x128.numel
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S256x512.size a
  hwx0_0 : ∀ i : grid0.Coords, EltTy.bits .i32 = 32 ∨ (Rect.block (s := S256x512) S16x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S256x512.size a
  hwx0_1 : ∀ i : grid0.Coords, EltTy.bits .i32 = 32 ∨ (Rect.block (s := S256x512) S16x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S256x512.size a
  hwx0_2 : ∀ i : grid0.Coords, EltTy.bits .i32 = 32 ∨ (Rect.block (s := S256x512) S16x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S256x512.size a
  hwx0_3 : ∀ i : grid0.Coords, EltTy.bits .i32 = 32 ∨ (Rect.block (s := S256x512) S16x512.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x128x128.size a ≤ S256x512x128.size a
  hwx0_8 : ∀ i : grid0.Coords, EltTy.bits .f32 = 32 ∨ (Rect.block (s := S256x512x128) S16x128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x128x128.size a ≤ S256x512x128.size a
  hwx0_9 : ∀ i : grid0.Coords, EltTy.bits .f32 = 32 ∨ (Rect.block (s := S256x512x128) S16x128x128.size (cc0_transform_9 i) (hinb0_9 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_0) S16x128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_1) S16x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x512 : Shape := ⟨2, ![256, 512]⟩
abbrev S128x1 : Shape := ⟨2, ![128, 1]⟩
abbrev S128 : Shape := ⟨1, ![128]⟩
abbrev S128x128 : Shape := ⟨2, ![128, 128]⟩
abbrev S256x512x1 : Shape := ⟨3, ![256, 512, 1]⟩
abbrev S256x1x512 : Shape := ⟨3, ![256, 1, 512]⟩
abbrev S256x512x512 : Shape := ⟨3, ![256, 512, 512]⟩
abbrev S_ : Shape := ⟨0, ![]⟩
abbrev S256x512x2 : Shape := ⟨3, ![256, 512, 2]⟩
abbrev S256x512x2x1 : Shape := ⟨4, ![256, 512, 2, 1]⟩
abbrev S1x1x1x128 : Shape := ⟨4, ![1, 1, 1, 128]⟩
abbrev S256x512x2x128 : Shape := ⟨4, ![256, 512, 2, 128]⟩
abbrev S256x512x128 : Shape := ⟨3, ![256, 512, 128]⟩

abbrev nBuf : Space → Nat
  | .hbm => 102
  | .vmem => 0
  | .smem => 0
  | _ => 0

abbrev bufTy : (tb : Table) → Fin (tcTables nBuf tb) → BufTy
  | .hbm, ⟨0, _⟩ => ⟨S256x512, .i32⟩
  | .hbm, ⟨1, _⟩ => ⟨S256x512, .i32⟩
  | .hbm, ⟨2, _⟩ => ⟨S128x1, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x512x1, .i32⟩
  | .hbm, ⟨7, _⟩ => ⟨S256x1x512, .i32⟩
  | .hbm, ⟨8, _⟩ => ⟨S256x512x512, .i32⟩
  | .hbm, ⟨9, _⟩ => ⟨S256x512x512, .i32⟩
  | .hbm, ⟨10, _⟩ => ⟨S256x512x512, .i1⟩
  | .hbm, ⟨11, _⟩ => ⟨S256x512x512, .i32⟩
  | .hbm, ⟨12, _⟩ => ⟨S_, .i32⟩
  | .hbm, ⟨13, _⟩ => ⟨S256x512, .i32⟩
  | .hbm, ⟨14, _⟩ => ⟨S256x512, .f32⟩
  | .hbm, ⟨15, _⟩ => ⟨S256x512x1, .i32⟩
  | .hbm, ⟨16, _⟩ => ⟨S256x1x512, .i32⟩
  | .hbm, ⟨17, _⟩ => ⟨S256x512x512, .i32⟩
  | .hbm, ⟨18, _⟩ => ⟨S256x512x512, .i32⟩
  | .hbm, ⟨19, _⟩ => ⟨S256x512x512, .i1⟩
  | .hbm, ⟨20, _⟩ => ⟨S256x512x512, .i32⟩
  | .hbm, ⟨21, _⟩ => ⟨S_, .i32⟩
  | .hbm, ⟨22, _⟩ => ⟨S256x512, .i32⟩
  | .hbm, ⟨23, _⟩ => ⟨S256x512, .f32⟩
  | .hbm, ⟨24, _⟩ => ⟨S256x512x1, .f32⟩
  | .hbm, ⟨25, _⟩ => ⟨S256x512x1, .f32⟩
  | .hbm, ⟨26, _⟩ => ⟨S256x512x2, .f32⟩
  | .hbm, ⟨27, _⟩ => ⟨S256x512x1, .i32⟩
  | .hbm, ⟨28, _⟩ => ⟨S256x1x512, .i32⟩
  | .hbm, ⟨29, _⟩ => ⟨S256x512x512, .i32⟩
  | .hbm, ⟨30, _⟩ => ⟨S256x512x512, .i32⟩
  | .hbm, ⟨31, _⟩ => ⟨S256x512x512, .i1⟩
  | .hbm, ⟨32, _⟩ => ⟨S256x512x512, .i32⟩
  | .hbm, ⟨33, _⟩ => ⟨S_, .i32⟩
  | .hbm, ⟨34, _⟩ => ⟨S256x512, .i32⟩
  | .hbm, ⟨35, _⟩ => ⟨S256x512, .f32⟩
  | .hbm, ⟨36, _⟩ => ⟨S256x512x1, .i32⟩
  | .hbm, ⟨37, _⟩ => ⟨S256x1x512, .i32⟩
  | .hbm, ⟨38, _⟩ => ⟨S256x512x512, .i32⟩
  | .hbm, ⟨39, _⟩ => ⟨S256x512x512, .i32⟩
  | .hbm, ⟨40, _⟩ => ⟨S256x512x512, .i1⟩
  | .hbm, ⟨41, _⟩ => ⟨S256x512x512, .i32⟩
  | .hbm, ⟨42, _⟩ => ⟨S_, .i32⟩
  | .hbm, ⟨43, _⟩ => ⟨S256x512, .i32⟩
  | .hbm, ⟨44, _⟩ => ⟨S256x512, .f32⟩
  | .hbm, ⟨45, _⟩ => ⟨S256x512x1, .f32⟩
  | .hbm, ⟨46, _⟩ => ⟨S256x512x1, .f32⟩
  | .hbm, ⟨47, _⟩ => ⟨S256x512x2, .f32⟩
  | .hbm, ⟨48, _⟩ => ⟨S_, .i32⟩
  | .hbm, ⟨49, _⟩ => ⟨S256x512, .i32⟩
  | .hbm, ⟨50, _⟩ => ⟨S256x512, .i1⟩
  | .hbm, ⟨51, _⟩ => ⟨S256x512x1, .i1⟩
  | .hbm, ⟨52, _⟩ => ⟨S_, .f32⟩
  | .hbm, ⟨53, _⟩ => ⟨S_, .f32⟩
  | .hbm, ⟨54, _⟩ => ⟨S256x512x2, .i1⟩
  | .hbm, ⟨55, _⟩ => ⟨S256x512x2, .f32⟩
  | .hbm, ⟨56, _⟩ => ⟨S256x512x2, .f32⟩
  | .hbm, ⟨57, _⟩ => ⟨S_, .i32⟩
  | .hbm, ⟨58, _⟩ => ⟨S256x512, .i32⟩
  | .hbm, ⟨59, _⟩ => ⟨S256x512, .i1⟩
  | .hbm, ⟨60, _⟩ => ⟨S256x512x1, .i1⟩
  | .hbm, ⟨61, _⟩ => ⟨S_, .f32⟩
  | .hbm, ⟨62, _⟩ => ⟨S_, .f32⟩
  | .hbm, ⟨63, _⟩ => ⟨S256x512x2, .i1⟩
  | .hbm, ⟨64, _⟩ => ⟨S256x512x2, .f32⟩
  | .hbm, ⟨65, _⟩ => ⟨S256x512x2, .f32⟩
  | .hbm, ⟨66, _⟩ => ⟨S256x512x2x1, .f32⟩
  | .hbm, ⟨67, _⟩ => ⟨S128, .f32⟩
  | .hbm, ⟨68, _⟩ => ⟨S1x1x1x128, .f32⟩
  | .hbm, ⟨69, _⟩ => ⟨S256x512x2x128, .f32⟩
  | .hbm, ⟨70, _⟩ => ⟨S256x512x2x128, .f32⟩
  | .hbm, ⟨71, _⟩ => ⟨S256x512x2x128, .f32⟩
  | .hbm, ⟨72, _⟩ => ⟨S1x1x1x128, .f32⟩
  | .hbm, ⟨73, _⟩ => ⟨S256x512x2x128, .f32⟩
  | .hbm, ⟨74, _⟩ => ⟨S256x512x2x128, .f32⟩
  | .hbm, ⟨75, _⟩ => ⟨S_, .f32⟩
  | .hbm, ⟨76, _⟩ => ⟨S256x512x2x128, .f32⟩
  | .hbm, ⟨77, _⟩ => ⟨S256x512x2x128, .f32⟩
  | .hbm, ⟨78, _⟩ => ⟨S256x512x2x128, .f32⟩
  | .hbm, ⟨79, _⟩ => ⟨S1x1x1x128, .f32⟩
  | .hbm, ⟨80, _⟩ => ⟨S256x512x2x128, .f32⟩
  | .hbm, ⟨81, _⟩ => ⟨S256x512x2x128, .f32⟩
  | .hbm, ⟨82, _⟩ => ⟨S_, .f32⟩
  | .hbm, ⟨83, _⟩ => ⟨S256x512x128, .f32⟩
  | .hbm, ⟨84, _⟩ => ⟨S256x512x2x1, .f32⟩
  | .hbm, ⟨85, _⟩ => ⟨S128, .f32⟩
  | .hbm, ⟨86, _⟩ => ⟨S1x1x1x128, .f32⟩
  | .hbm, ⟨87, _⟩ => ⟨S256x512x2x128, .f32⟩
  | .hbm, ⟨88, _⟩ => ⟨S256x512x2x128, .f32⟩
  | .hbm, ⟨89, _⟩ => ⟨S256x512x2x128, .f32⟩
  | .hbm, ⟨90, _⟩ => ⟨S1x1x1x128, .f32⟩
  | .hbm, ⟨91, _⟩ => ⟨S256x512x2x128, .f32⟩
  | .hbm, ⟨92, _⟩ => ⟨S256x512x2x128, .f32⟩
  | .hbm, ⟨93, _⟩ => ⟨S_, .f32⟩
  | .hbm, ⟨94, _⟩ => ⟨S256x512x2x128, .f32⟩
  | .hbm, ⟨95, _⟩ => ⟨S256x512x2x128, .f32⟩
  | .hbm, ⟨96, _⟩ => ⟨S256x512x2x128, .f32⟩
  | .hbm, ⟨97, _⟩ => ⟨S1x1x1x128, .f32⟩
  | .hbm, ⟨98, _⟩ => ⟨S256x512x2x128, .f32⟩
  | .hbm, ⟨99, _⟩ => ⟨S256x512x2x128, .f32⟩
  | .hbm, ⟨100, _⟩ => ⟨S_, .f32⟩
  | .hbm, ⟨101, _⟩ => ⟨S256x512x128, .f32⟩
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call2_cst : Ref sig .tc := ⟨.hbm, 75, rfl⟩
abbrev main_call2_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call3_cst : Ref sig .tc := ⟨.hbm, 93, rfl⟩
abbrev main_call3_v0 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_7 : Ref sig .tc := ⟨.hbm, 100, rfl⟩
abbrev main_v75 : Ref sig .tc := ⟨.hbm, 101, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  natLt_1_32 : 1 < 32
  reducesTo_S256x512x512_S256x512_d2 : S256x512x512.ReducesTo [2] S256x512
  h_S_ : 0 < S_.numel
  concatenates_S256x512x1_S256x512x1_S256x512x2_d2 : Shape.Concatenates [S256x512x1, S256x512x1] S256x512x2 2
  bcast_S_S256x512 : S_.BroadcastsInDim S256x512 (![] : Fin 0 → Fin S256x512.rank)
  bcast_S256x512x1_S256x512x2_0_1_2 : S256x512x1.BroadcastsInDim S256x512x2 (![0, 1, 2] : Fin 3 → Fin S256x512x2.rank)
  bcast_S_S256x512x2 : S_.BroadcastsInDim S256x512x2 (![] : Fin 0 → Fin S256x512x2.rank)
  bcast_S256x512x2_S256x512x2x1_0_1_2 : S256x512x2.BroadcastsInDim S256x512x2x1 (![0, 1, 2] : Fin 3 → Fin S256x512x2x1.rank)
  shapeCasts_S128x1_S128 : S128x1.ShapeCasts S128
  bcast_S128_S1x1x1x128_3 : S128.BroadcastsInDim S1x1x1x128 (![3] : Fin 1 → Fin S1x1x1x128.rank)
  bcast_S256x512x2x1_S256x512x2x128_0_1_2_3 : S256x512x2x1.BroadcastsInDim S256x512x2x128 (![0, 1, 2, 3] : Fin 4 → Fin S256x512x2x128.rank)
  bcast_S1x1x1x128_S256x512x2x128_0_1_2_3 : S1x1x1x128.BroadcastsInDim S256x512x2x128 (![0, 1, 2, 3] : Fin 4 → Fin S256x512x2x128.rank)
  bcast_S_S256x512x2x128 : S_.BroadcastsInDim S256x512x2x128 (![] : Fin 0 → Fin S256x512x2x128.rank)
  reducesTo_S256x512x2x128_S256x512x128_d2 : S256x512x2x128.ReducesTo [2] S256x512x128
  dot_S256x512x2x128_S128x128_S256x512x2x128_3_1_012_0_n_n_wf : DotDims.WF S256x512x2x128 S128x128 S256x512x2x128 [3] [1] [0, 1, 2] [0] [] []

variable [Facts₀]

def dot_S256x512x2x128_S128x128_S256x512x2x128_3_1_012_0_n_n : DotDims S256x512x2x128 S128x128 S256x512x2x128 where
  lhsContracting := [3]
  rhsContracting := [1]
  lhsNonContracting := [0, 1, 2]
  rhsNonContracting := [0]
  lhsBatch := []
  rhsBatch := []
  wf := dot_S256x512x2x128_S128x128_S256x512x2x128_3_1_012_0_n_n_wf

class Facts : Prop extends Facts₀ where

variable [Facts]
-- ==== Proof.LaunchWord.lean ====
/-
  The kernel's launch, read by hand: ten windows over eight arrays. The two id arrays are each handed to the
  kernel twice — once in (16, 128) query blocks that move with both grid coordinates, once in (16, 512) row blocks that
  move with the first only — so the launch splits each id array's ownership in two halves, one per window, and joins
  nothing back (both windows only read). The four weight windows are fetched once; the two result windows are written
  back at every one of the 64 points.

  Here: @main up to the region (one host transpose of the first-layer weights into a row), the blocks each window
  shows the body at a point, what the body leaves in the two result buffers as a function of those blocks
  (`srcFeatBlk`, `dstFeatBlk`: the skeleton's payloads), the body's triple, the proof data, the split of the
  id arrays between their two windows, and the run: every weakly fair execution of @main terminates with each window's
  array at what the write-backs compose to and the first-layer weights (which no window stages) unchanged.
-/
import proofs.«425663_j45260365365904_3_alg».proof.Proof.Gen.Kernel.Launch
import proofs.«425663_j45260365365904_3_alg».proof.Proof.Gen.Kernel.Skeleton
import proofs.«425663_j45260365365904_3_alg».proof.Proof.Gen.Kernel.Points
import Idealize.ShloMosaic.Lib.Pipeline.FrameBody
import Idealize.ShloMosaic.Lib.Tactic

set_option maxRecDepth 16384

noncomputable section

namespace Cert.Kernel.Launch10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes only the row buffer: every other buffer is as launched. -/
theorem V_of_ne (c : Dev nD) (b : Ref sig .tc) (hb : (Proc.devRef .tc b : DevRef τ sig) ≠ Proc.devRef .tc main_v0) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact hb))

theorem V_main_arg0 (c : Dev nD) : V m c main_arg0 = m ((c : Thread nD τ).loc main_arg0) := V_of_ne m c _ (StableHlo.devRef_ne_of_ne (by decide))
theorem V_main_arg1 (c : Dev nD) : V m c main_arg1 = m ((c : Thread nD τ).loc main_arg1) := V_of_ne m c _ (StableHlo.devRef_ne_of_ne (by decide))
theorem V_main_arg2 (c : Dev nD) : V m c main_arg2 = m ((c : Thread nD τ).loc main_arg2) := V_of_ne m c _ (StableHlo.devRef_ne_of_ne (by decide))
theorem V_main_arg3 (c : Dev nD) : V m c main_arg3 = m ((c : Thread nD τ).loc main_arg3) := V_of_ne m c _ (StableHlo.devRef_ne_of_ne (by decide))
theorem V_main_arg4 (c : Dev nD) : V m c main_arg4 = m ((c : Thread nD τ).loc main_arg4) := V_of_ne m c _ (StableHlo.devRef_ne_of_ne (by decide))
theorem V_main_arg5 (c : Dev nD) : V m c main_arg5 = m ((c : Thread nD τ).loc main_arg5) := V_of_ne m c _ (StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the pipeline fetched it there or its block index
    stood still (the row blocks at three points in four, the weights at all but the first): for any proof data over `V`
    whose body leaves the input blocks in place. One statement per input window, at the window's literal number. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rQ : Rect S16x128 := Rect.unit (s := S16x128) ![0, 0] S16x128.size inb_S16x128_S16x128_0_0
abbrev rRow : Rect S16x512 := Rect.unit (s := S16x512) ![0, 0] S16x512.size inb_S16x512_S16x512_0_0
abbrev rW1 : Rect S1x128 := Rect.unit (s := S1x128) ![0, 0] S1x128.size inb_S1x128_S1x128_0_0
abbrev rVec : Rect S128 := Rect.unit (s := S128) ![0] S128.size inb_S128_S128_0
abbrev rW2 : Rect S128x128 := Rect.unit (s := S128x128) ![0, 0] S128x128.size inb_S128x128_S128x128_0_0
abbrev rOut : Rect S16x128x128 := Rect.unit (s := S16x128x128) ![0, 0, 0] S16x128x128.size inb_S16x128x128_S16x128x128_0_0_0

/-! ## What the body leaves in the two result buffers -/

/-- The first result's buffer after the body: one whole store of the features of the FIRST id array's queries — the
    query block `xq` counted in the first array's rows `xs` and in the second's `xd`, masked, encoded with the row of
    first-layer weights `w1`, the biases `b1`, `b2` and the second-layer weights `w2`. -/
def srcFeatBlk (xq : Vec F S16x128 .i32) (xs xd : Vec F S16x512 .i32) (w1 : Vec F S1x128 .f32) (b1 : Vec F S128 .f32)
    (w2 : Vec F S128x128 .f32) (b2 : Vec F S128 .f32) : Vec F S16x128x128 .f32 :=
  View.canon [⟨rOut, k0_pay12 (k0_pay2 (View.ld xq rQ) (View.ld xd rRow)) (k0_pay5 (View.ld xq rQ)) (k0_pay7 (View.ld xq rQ) (View.ld xs rRow))
    (Scalar.ofBits .f32 0x00000000#32) (View.ld w1 rW1) (View.ld b1 rVec) (View.ld b2 rVec) (View.ld w2 rW2)⟩]

/-- The second result's buffer after the body: the same for the SECOND id array's query block `xq`. -/
def dstFeatBlk (xq : Vec F S16x128 .i32) (xs xd : Vec F S16x512 .i32) (w1 : Vec F S1x128 .f32) (b1 : Vec F S128 .f32)
    (w2 : Vec F S128x128 .f32) (b2 : Vec F S128 .f32) : Vec F S16x128x128 .f32 :=
  View.canon [⟨rOut, k0_pay1 (k0_pay8 (k0_pay3 (View.ld xq rQ) (View.ld xs rRow)) (k0_pay6 (View.ld xq rQ)))
    (k0_pay9 (k0_pay4 (View.ld xq rQ) (View.ld xd rRow)) (k0_pay6 (View.ld xq rQ))) (k0_pay10 (View.ld w1 rW1)) (View.ld b1 rVec) (View.ld b2 rVec)
    (k0_pay11 (View.ld w2 rW2))⟩]

/-- One whole store covers the buffer. -/
theorem cover_out (p0 : Vec F S16x128x128 .f32) (y : S16x128x128.Idx) :
    ∃ pc ∈ ([⟨rOut, p0⟩] : List (View.Piece (Elt F) S16x128x128 .f32)), y ∈ pc.1.set :=
  View.cover_of_tiled [⟨rOut, p0⟩] S16x128x128.size (by rfl) y

/-! ## The body's triple -/

set_option maxHeartbeats 4000000 in
/-- The kernel body on whole buffers, the eight inputs' at read contents and the two results' at anything (the body
    loads them once before it overwrites them, and drops what it loaded): it runs to the continuation holding the inputs'
    as they were and the results' at `srcFeatBlk` and `dstFeatBlk` of the inputs'. -/
theorem sound_kernel (c : Dev nD) (E : Set ℕ) (i : grid0.Coords)
    (arg2 : Memref sig .tc .vmem S16x128 .i32) (harg2 : arg2.IsWhole) (arg3 : Memref sig .tc .vmem S16x128 .i32) (harg3 : arg3.IsWhole)
    (arg4 : Memref sig .tc .vmem S16x512 .i32) (harg4 : arg4.IsWhole) (arg5 : Memref sig .tc .vmem S16x512 .i32) (harg5 : arg5.IsWhole)
    (arg6 : Memref sig .tc .vmem S1x128 .f32) (harg6 : arg6.IsWhole) (arg7 : Memref sig .tc .vmem S128 .f32) (harg7 : arg7.IsWhole)
    (arg8 : Memref sig .tc .vmem S128x128 .f32) (harg8 : arg8.IsWhole) (arg9 : Memref sig .tc .vmem S128 .f32) (harg9 : arg9.IsWhole)
    (arg10 : Memref sig .tc .vmem S16x128x128 .f32) (harg10 : arg10.IsWhole) (arg11 : Memref sig .tc .vmem S16x128x128 .f32) (harg11 : arg11.IsWhole)
    (x0 x1 : Vec F S16x128 .i32) (x2 x3 : Vec F S16x512 .i32) (x4 : Vec F S1x128 .f32) (x5 : Vec F S128 .f32) (x6 : Vec F S128x128 .f32) (x7 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (srcFeatBlk x0 x2 x3 x4 x5 x6 x7)
            ∗ owns (c : Thread nD τ) arg11 fullShare (dstFeatBlk x1 x2 x3 x4 x5 x6 x7)) -∗ K ⟨⟩))
      ⊢ wp frame (wpE (defs₀ (F := F)) Variants.none c none) E
          (cc0__dygformer_kernel i arg2 harg2 arg3 harg3 arg4 harg4 arg5 harg5 arg6 harg6 arg7 harg7 arg8 harg8 arg9 harg9 arg10 harg10 arg11 harg11) K := by
  simp only [cc0__dygformer_kernel_eq_skeleton]; unfold cc0__dygformer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_out _)
  · iexists _; isplitr
    swap; · iexact H9
    ipureintro
    exact View.read_writes_eq_canon _ _ _ (cover_out _)

/-! ## The proof data -/

/-- The proof data on core `c`: the arrays as the region finds them; after the body at point `t` each input's buffer
    at its block and each result's at the features of the point's blocks; no invariant carried, nothing owed; each id
    array's ownership cut in two halves — the left half to its query window, the right half to its row window —, every
    other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => srcFeatBlk (iblk m c 0 t) (iblk m c 2 t) (iblk m c 3 t) (iblk m c 4 t) (iblk m c 5 t) (iblk m c 6 t) (iblk m c 7 t)
    | ⟨9, _⟩ => dstFeatBlk (iblk m c 1 t) (iblk m c 2 t) (iblk m c 3 t) (iblk m c 4 t) (iblk m c 5 t) (iblk m c 6 t) (iblk m c 7 t)
  Φ _ := iprop(emp)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = srcFeatBlk (iblk m c 0 t) (iblk m c 2 t) (iblk m c 3 t) (iblk m c 4 t) (iblk m c 5 t) (iblk m c 6 t) (iblk m c 7 t) := by dsimp only [dats]
theorem after9 (c : Dev nD) (t : Fin cfg0.N) : (dats m 0 c).after 9 t
    = dstFeatBlk (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the core's `owes`
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The id arrays dealt between their two windows -/

/-- The buffers behind the windows' arrays, one by one: eight, for ten windows. -/
theorem bigSep_arrRefs {M : Type} [URA M] (Φ : Ref sig .tc → sProp M) :
    bigSep (Finset.univ.image (Pipeline.arrRef spec0)) Φ
      = iprop(Φ main_arg0 ∗ Φ main_arg1 ∗ Φ main_v0 ∗ Φ main_arg3 ∗ Φ main_arg4 ∗ Φ main_arg5 ∗ Φ main_v1_0 ∗ Φ main_v1_1) :=
  bigSep_eq_bigSepL_of_eq [main_arg0, main_arg1, main_v0, main_arg3, main_arg4, main_arg5, main_v1_0, main_v1_1] (by decide) (by decide) Φ

/-- The shares the proof data holds the windows' arrays at. -/
theorem share0 (c : Dev nD) : (dats m 0 c).share 0 = fullShare.left :=
  (if_neg (by decide : ¬ ((cfg0.win 0).isOut = true))).trans (by dsimp only [dats])
theorem share1 (c : Dev nD) : (dats m 0 c).share 1 = fullShare.left :=
  (if_neg (by decide : ¬ ((cfg0.win 1).isOut = true))).trans (by dsimp only [dats])
theorem share2 (c : Dev nD) : (dats m 0 c).share 2 = fullShare.right :=
  (if_neg (by decide : ¬ ((cfg0.win 2).isOut = true))).trans (by dsimp only [dats])
theorem share3 (c : Dev nD) : (dats m 0 c).share 3 = fullShare.right :=
  (if_neg (by decide : ¬ ((cfg0.win 3).isOut = true))).trans (by dsimp only [dats])
theorem share4 (c : Dev nD) : (dats m 0 c).share 4 = fullShare :=
  (if_neg (by decide : ¬ ((cfg0.win 4).isOut = true))).trans (by dsimp only [dats])
theorem share5 (c : Dev nD) : (dats m 0 c).share 5 = fullShare :=
  (if_neg (by decide : ¬ ((cfg0.win 5).isOut = true))).trans (by dsimp only [dats])
theorem share6 (c : Dev nD) : (dats m 0 c).share 6 = fullShare :=
  (if_neg (by decide : ¬ ((cfg0.win 6).isOut = true))).trans (by dsimp only [dats])
theorem share7 (c : Dev nD) : (dats m 0 c).share 7 = fullShare :=
  (if_neg (by decide : ¬ ((cfg0.win 7).isOut = true))).trans (by dsimp only [dats])
theorem share8 (c : Dev nD) : (dats m 0 c).share 8 = fullShare :=
  if_pos (by decide : (cfg0.win 8).isOut = true)
theorem share9 (c : Dev nD) : (dats m 0 c).share 9 = fullShare :=
  if_pos (by decide : (cfg0.win 9).isOut = true)

/-- Before any write-back an array holds its region-entry contents. -/
theorem arrAt_zero (c : Dev nD) (w : Fin cfg0.W) : (dats m 0 c).arrAt w 0 = V m c (Pipeline.arrRef spec0 w) := A_eq m c w

/-- A buffer held whole is held by its two halves. -/
theorem halves (c : Dev nD) (b : Ref sig .tc) (f : Buf (Elt F) ((c.tc : Thread nD τ).loc b)) :
    ((((c.tc : Thread nD τ).loc b) ↦{fullShare} f) : sProp 𝕄)
      ⊢ iprop((((c.tc : Thread nD τ).loc b) ↦{fullShare.left} f) ∗ (((c.tc : Thread nD τ).loc b) ↦{fullShare.right} f)) :=
  (pointsTo_share (PosShare.mem_left_op_right fullShare)).1

/-- The eight buffers behind the ten windows, each whole at the region-entry contents, are the pipeline's arrays at
    entry: each id array's points-to is cut along its share into a left half for the query window and a right half
    for the row window; the other six go to their one window whole. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_W0, bigSep_arrRefs]
  simp only [View.set_whole, arrAt_zero, share0, share1, share2, share3, share4, share5, share6, share7, share8, share9]
  iintro ⟨Hs, Hd, Hw1, Hb1, Hw2, Hb2, Ho0, Ho1⟩
  ihave Hs2 := (halves c main_arg0 (V m c main_arg0)) $$ Hs
  icases Hs2 with ⟨HsL, HsR⟩
  ihave Hd2 := (halves c main_arg1 (V m c main_arg1)) $$ Hd
  icases Hd2 with ⟨HdL, HdR⟩
  isplitl [HsL]; · iexact HsL
  isplitl [HdL]; · iexact HdL
  isplitl [HsR]; · iexact HsR
  isplitl [HdR]; · iexact HdR
  isplitl [Hw1]; · iexact Hw1
  isplitl [Hb1]; · iexact Hb1
  isplitl [Hw2]; · iexact Hw2
  isplitl [Hb2]; · iexact Hb2
  isplitl [Ho0]; · iexact Ho0
  iexact Ho1

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every window's array at what the write-backs of the 64
    points compose to — an input array its region-entry contents — and every other unscoped buffer (the first-layer
    weights as passed) as the region found it. The kernel names no semaphore and no scratch of its own. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp)) (Z := fun c => Pipeline.unscopedRest spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run with the two results named and the six arguments read back: the results end at what the library composes
    from the 64 write-backs; an argument a window stages ends at its entry contents, which no host operation before
    the region wrote; the first-layer weights bypass the region. -/
theorem run_results : θ_run defs (onTc (τ := τ) (main (F := F))) ⟨m, fun _ => 0, ρ⟩ (fun r => ∀ c : Dev nD,
      r.2.mem ((c.tc : Thread nD τ).loc main_v1_0) = (dats m 0 c).arrAt 8 cfg0.N
      ∧ r.2.mem ((c.tc : Thread nD τ).loc main_v1_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c)))⟩) (run_main m ρ)

/-- The frame: the program runs to the end, faults nowhere, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_results m ρ)

end Cert.Kernel.Launch10

end
-- ==== Proof.LaunchIdeal.lean ====
/-
  The kernel's launch, read by hand: ten windows over eight arrays. The two id arrays are each handed to the
  kernel twice — once in (16, 128) query blocks that move with both grid coordinates, once in (16, 512) row blocks that
  move with the first only — so the launch splits each id array's ownership in two halves, one per window, and joins
  nothing back (both windows only read). The four weight windows are fetched once; the two result windows are written
  back at every one of the 64 points.

  Here: @main up to the region (one host transpose of the first-layer weights into a row), the blocks each window
  shows the body at a point, what the body leaves in the two result buffers as a function of those blocks
  (`srcFeatBlk`, `dstFeatBlk`: the skeleton's payloads), the body's triple, the proof data, the split of the
  id arrays between their two windows, and the run: every weakly fair execution of @main terminates with each window's
  array at what the write-backs compose to and the first-layer weights (which no window stages) unchanged.
-/
import proofs.«425663_j45260365365904_3_alg».proof.Proof.Gen.KernelIdeal.Launch
import proofs.«425663_j45260365365904_3_alg».proof.Proof.Gen.KernelIdeal.Skeleton
import proofs.«425663_j45260365365904_3_alg».proof.Proof.Gen.KernelIdeal.Points
import Idealize.ShloMosaic.Lib.Pipeline.FrameBody
import Idealize.ShloMosaic.Lib.Tactic

set_option maxRecDepth 16384

noncomputable section

namespace Cert.KernelIdeal.Launch10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes only the row buffer: every other buffer is as launched. -/
theorem V_of_ne (c : Dev nD) (b : Ref sig .tc) (hb : (Proc.devRef .tc b : DevRef τ sig) ≠ Proc.devRef .tc main_v0) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact hb))

theorem V_main_arg0 (c : Dev nD) : V m c main_arg0 = m ((c : Thread nD τ).loc main_arg0) := V_of_ne m c _ (StableHlo.devRef_ne_of_ne (by decide))
theorem V_main_arg1 (c : Dev nD) : V m c main_arg1 = m ((c : Thread nD τ).loc main_arg1) := V_of_ne m c _ (StableHlo.devRef_ne_of_ne (by decide))
theorem V_main_arg2 (c : Dev nD) : V m c main_arg2 = m ((c : Thread nD τ).loc main_arg2) := V_of_ne m c _ (StableHlo.devRef_ne_of_ne (by decide))
theorem V_main_arg3 (c : Dev nD) : V m c main_arg3 = m ((c : Thread nD τ).loc main_arg3) := V_of_ne m c _ (StableHlo.devRef_ne_of_ne (by decide))
theorem V_main_arg4 (c : Dev nD) : V m c main_arg4 = m ((c : Thread nD τ).loc main_arg4) := V_of_ne m c _ (StableHlo.devRef_ne_of_ne (by decide))
theorem V_main_arg5 (c : Dev nD) : V m c main_arg5 = m ((c : Thread nD τ).loc main_arg5) := V_of_ne m c _ (StableHlo.devRef_ne_of_ne (by decide))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, whether the pipeline fetched it there or its block index
    stood still (the row blocks at three points in four, the weights at all but the first): for any proof data over `V`
    whose body leaves the input blocks in place. One statement per input window, at the window's literal number. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rQ : Rect S16x128 := Rect.unit (s := S16x128) ![0, 0] S16x128.size inb_S16x128_S16x128_0_0
abbrev rRow : Rect S16x512 := Rect.unit (s := S16x512) ![0, 0] S16x512.size inb_S16x512_S16x512_0_0
abbrev rW1 : Rect S1x128 := Rect.unit (s := S1x128) ![0, 0] S1x128.size inb_S1x128_S1x128_0_0
abbrev rVec : Rect S128 := Rect.unit (s := S128) ![0] S128.size inb_S128_S128_0
abbrev rW2 : Rect S128x128 := Rect.unit (s := S128x128) ![0, 0] S128x128.size inb_S128x128_S128x128_0_0
abbrev rOut : Rect S16x128x128 := Rect.unit (s := S16x128x128) ![0, 0, 0] S16x128x128.size inb_S16x128x128_S16x128x128_0_0_0

/-! ## What the body leaves in the two result buffers -/

/-- The first result's buffer after the body: one whole store of the features of the FIRST id array's queries — the
    query block `xq` counted in the first array's rows `xs` and in the second's `xd`, masked, encoded with the row of
    first-layer weights `w1`, the biases `b1`, `b2` and the second-layer weights `w2`. -/
def srcFeatBlk (xq : Vec F S16x128 .i32) (xs xd : Vec F S16x512 .i32) (w1 : Vec F S1x128 .f32) (b1 : Vec F S128 .f32)
    (w2 : Vec F S128x128 .f32) (b2 : Vec F S128 .f32) : Vec F S16x128x128 .f32 :=
  View.canon [⟨rOut, k0_pay12 (k0_pay2 (View.ld xq rQ) (View.ld xd rRow)) (k0_pay5 (View.ld xq rQ)) (k0_pay7 (View.ld xq rQ) (View.ld xs rRow))
    (Scalar.ofBits .f32 0x00000000#32) (View.ld w1 rW1) (View.ld b1 rVec) (View.ld b2 rVec) (View.ld w2 rW2)⟩]

/-- The second result's buffer after the body: the same for the SECOND id array's query block `xq`. -/
def dstFeatBlk (xq : Vec F S16x128 .i32) (xs xd : Vec F S16x512 .i32) (w1 : Vec F S1x128 .f32) (b1 : Vec F S128 .f32)
    (w2 : Vec F S128x128 .f32) (b2 : Vec F S128 .f32) : Vec F S16x128x128 .f32 :=
  View.canon [⟨rOut, k0_pay1 (k0_pay8 (k0_pay3 (View.ld xq rQ) (View.ld xs rRow)) (k0_pay6 (View.ld xq rQ)))
    (k0_pay9 (k0_pay4 (View.ld xq rQ) (View.ld xd rRow)) (k0_pay6 (View.ld xq rQ))) (k0_pay10 (View.ld w1 rW1)) (View.ld b1 rVec) (View.ld b2 rVec)
    (k0_pay11 (View.ld w2 rW2))⟩]

/-- One whole store covers the buffer. -/
theorem cover_out (p0 : Vec F S16x128x128 .f32) (y : S16x128x128.Idx) :
    ∃ pc ∈ ([⟨rOut, p0⟩] : List (View.Piece (Elt F) S16x128x128 .f32)), y ∈ pc.1.set :=
  View.cover_of_tiled [⟨rOut, p0⟩] S16x128x128.size (by rfl) y

/-! ## The body's triple -/

set_option maxHeartbeats 4000000 in
/-- The kernel body on whole buffers, the eight inputs' at read contents and the two results' at anything (the body
    loads them once before it overwrites them, and drops what it loaded): it runs to the continuation holding the inputs'
    as they were and the results' at `srcFeatBlk` and `dstFeatBlk` of the inputs'. -/
theorem sound_kernel (c : Dev nD) (E : Set ℕ) (i : grid0.Coords)
    (arg2 : Memref sig .tc .vmem S16x128 .i32) (harg2 : arg2.IsWhole) (arg3 : Memref sig .tc .vmem S16x128 .i32) (harg3 : arg3.IsWhole)
    (arg4 : Memref sig .tc .vmem S16x512 .i32) (harg4 : arg4.IsWhole) (arg5 : Memref sig .tc .vmem S16x512 .i32) (harg5 : arg5.IsWhole)
    (arg6 : Memref sig .tc .vmem S1x128 .f32) (harg6 : arg6.IsWhole) (arg7 : Memref sig .tc .vmem S128 .f32) (harg7 : arg7.IsWhole)
    (arg8 : Memref sig .tc .vmem S128x128 .f32) (harg8 : arg8.IsWhole) (arg9 : Memref sig .tc .vmem S128 .f32) (harg9 : arg9.IsWhole)
    (arg10 : Memref sig .tc .vmem S16x128x128 .f32) (harg10 : arg10.IsWhole) (arg11 : Memref sig .tc .vmem S16x128x128 .f32) (harg11 : arg11.IsWhole)
    (x0 x1 : Vec F S16x128 .i32) (x2 x3 : Vec F S16x512 .i32) (x4 : Vec F S1x128 .f32) (x5 : Vec F S128 .f32) (x6 : Vec F S128x128 .f32) (x7 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7
        ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (srcFeatBlk x0 x2 x3 x4 x5 x6 x7)
            ∗ owns (c : Thread nD τ) arg11 fullShare (dstFeatBlk x1 x2 x3 x4 x5 x6 x7)) -∗ K ⟨⟩))
      ⊢ wp frame (wpE (defs₀ (F := F)) Variants.none c none) E
          (cc0__dygformer_kernel i arg2 harg2 arg3 harg3 arg4 harg4 arg5 harg5 arg6 harg6 arg7 harg7 arg8 harg8 arg9 harg9 arg10 harg10 arg11 harg11) K := by
  simp only [cc0__dygformer_kernel_eq_skeleton]; unfold cc0__dygformer_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover_out _)
  · iexists _; isplitr
    swap; · iexact H9
    ipureintro
    exact View.read_writes_eq_canon _ _ _ (cover_out _)

/-! ## The proof data -/

/-- The proof data on core `c`: the arrays as the region finds them; after the body at point `t` each input's buffer
    at its block and each result's at the features of the point's blocks; no invariant carried, nothing owed; each id
    array's ownership cut in two halves — the left half to its query window, the right half to its row window —, every
    other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => srcFeatBlk (iblk m c 0 t) (iblk m c 2 t) (iblk m c 3 t) (iblk m c 4 t) (iblk m c 5 t) (iblk m c 6 t) (iblk m c 7 t)
    | ⟨9, _⟩ => dstFeatBlk (iblk m c 1 t) (iblk m c 2 t) (iblk m c 3 t) (iblk m c 4 t) (iblk m c 5 t) (iblk m c 6 t) (iblk m c 7 t)
  Φ _ := iprop(emp)
  q w := match w with
    | ⟨0, _⟩ => fullShare.left
    | ⟨1, _⟩ => fullShare.left
    | ⟨2, _⟩ => fullShare.right
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t
    = srcFeatBlk (iblk m c 0 t) (iblk m c 2 t) (iblk m c 3 t) (iblk m c 4 t) (iblk m c 5 t) (iblk m c 6 t) (iblk m c 7 t) := by dsimp only [dats]
theorem after9 (c : Dev nD) (t : Fin cfg0.N) : (dats m 0 c).after 9 t
    = dstFeatBlk (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the core's `owes`
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The id arrays dealt between their two windows -/

/-- The buffers behind the windows' arrays, one by one: eight, for ten windows. -/
theorem bigSep_arrRefs {M : Type} [URA M] (Φ : Ref sig .tc → sProp M) :
    bigSep (Finset.univ.image (Pipeline.arrRef spec0)) Φ
      = iprop(Φ main_arg0 ∗ Φ main_arg1 ∗ Φ main_v0 ∗ Φ main_arg3 ∗ Φ main_arg4 ∗ Φ main_arg5 ∗ Φ main_v1_0 ∗ Φ main_v1_1) :=
  bigSep_eq_bigSepL_of_eq [main_arg0, main_arg1, main_v0, main_arg3, main_arg4, main_arg5, main_v1_0, main_v1_1] (by decide) (by decide) Φ

/-- The shares the proof data holds the windows' arrays at. -/
theorem share0 (c : Dev nD) : (dats m 0 c).share 0 = fullShare.left :=
  (if_neg (by decide : ¬ ((cfg0.win 0).isOut = true))).trans (by dsimp only [dats])
theorem share1 (c : Dev nD) : (dats m 0 c).share 1 = fullShare.left :=
  (if_neg (by decide : ¬ ((cfg0.win 1).isOut = true))).trans (by dsimp only [dats])
theorem share2 (c : Dev nD) : (dats m 0 c).share 2 = fullShare.right :=
  (if_neg (by decide : ¬ ((cfg0.win 2).isOut = true))).trans (by dsimp only [dats])
theorem share3 (c : Dev nD) : (dats m 0 c).share 3 = fullShare.right :=
  (if_neg (by decide : ¬ ((cfg0.win 3).isOut = true))).trans (by dsimp only [dats])
theorem share4 (c : Dev nD) : (dats m 0 c).share 4 = fullShare :=
  (if_neg (by decide : ¬ ((cfg0.win 4).isOut = true))).trans (by dsimp only [dats])
theorem share5 (c : Dev nD) : (dats m 0 c).share 5 = fullShare :=
  (if_neg (by decide : ¬ ((cfg0.win 5).isOut = true))).trans (by dsimp only [dats])
theorem share6 (c : Dev nD) : (dats m 0 c).share 6 = fullShare :=
  (if_neg (by decide : ¬ ((cfg0.win 6).isOut = true))).trans (by dsimp only [dats])
theorem share7 (c : Dev nD) : (dats m 0 c).share 7 = fullShare :=
  (if_neg (by decide : ¬ ((cfg0.win 7).isOut = true))).trans (by dsimp only [dats])
theorem share8 (c : Dev nD) : (dats m 0 c).share 8 = fullShare :=
  if_pos (by decide : (cfg0.win 8).isOut = true)
theorem share9 (c : Dev nD) : (dats m 0 c).share 9 = fullShare :=
  if_pos (by decide : (cfg0.win 9).isOut = true)

/-- Before any write-back an array holds its region-entry contents. -/
theorem arrAt_zero (c : Dev nD) (w : Fin cfg0.W) : (dats m 0 c).arrAt w 0 = V m c (Pipeline.arrRef spec0 w) := A_eq m c w

/-- A buffer held whole is held by its two halves. -/
theorem halves (c : Dev nD) (b : Ref sig .tc) (f : Buf (Elt F) ((c.tc : Thread nD τ).loc b)) :
    ((((c.tc : Thread nD τ).loc b) ↦{fullShare} f) : sProp 𝕄)
      ⊢ iprop((((c.tc : Thread nD τ).loc b) ↦{fullShare.left} f) ∗ (((c.tc : Thread nD τ).loc b) ↦{fullShare.right} f)) :=
  (pointsTo_share (PosShare.mem_left_op_right fullShare)).1

/-- The eight buffers behind the ten windows, each whole at the region-entry contents, are the pipeline's arrays at
    entry: each id array's points-to is cut along its share into a left half for the query window and a right half
    for the row window; the other six go to their one window whole. -/
theorem arrays_of_bufs (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_W0, bigSep_arrRefs]
  simp only [View.set_whole, arrAt_zero, share0, share1, share2, share3, share4, share5, share6, share7, share8, share9]
  iintro ⟨Hs, Hd, Hw1, Hb1, Hw2, Hb2, Ho0, Ho1⟩
  ihave Hs2 := (halves c main_arg0 (V m c main_arg0)) $$ Hs
  icases Hs2 with ⟨HsL, HsR⟩
  ihave Hd2 := (halves c main_arg1 (V m c main_arg1)) $$ Hd
  icases Hd2 with ⟨HdL, HdR⟩
  isplitl [HsL]; · iexact HsL
  isplitl [HdL]; · iexact HdL
  isplitl [HsR]; · iexact HsR
  isplitl [HdR]; · iexact HdR
  isplitl [Hw1]; · iexact Hw1
  isplitl [Hb1]; · iexact Hb1
  isplitl [Hw2]; · iexact Hw2
  isplitl [Hb2]; · iexact Hb2
  isplitl [Ho0]; · iexact Ho0
  iexact Ho1

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every window's array at what the write-backs of the 64
    points compose to — an input array its region-entry contents — and every other unscoped buffer (the first-layer
    weights as passed) as the region found it. The kernel names no semaphore and no scratch of its own. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m) (hmain := hmain m Variants.none)
    (hsplit := arrays_of_bufs m)
    (X := fun _ => iprop(emp)) (Y := fun _ => iprop(emp)) (Z := fun c => Pipeline.unscopedRest spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run with the two results named and the six arguments read back: the results end at what the library composes
    from the 64 write-backs; an argument a window stages ends at its entry contents, which no host operation before
    the region wrote; the first-layer weights bypass the region. -/
theorem run_results : θ_run defs (onTc (τ := τ) (main (F := F))) ⟨m, fun _ => 0, ρ⟩ (fun r => ∀ c : Dev nD,
      r.2.mem ((c.tc : Thread nD τ).loc main_v1_0) = (dats m 0 c).arrAt 8 cfg0.N
      ∧ r.2.mem ((c.tc : Thread nD τ).loc main_v1_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c),
      ((h c).1 5).trans (((dats m 0 c).arrAt_in 5 rfl _).trans ((A_eq m c 5).trans (V_main_arg3 m c))),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c)))⟩) (run_main m ρ)

/-- The frame: the program runs to the end, faults nowhere, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2.2) (run_results m ρ)

end Cert.KernelIdeal.Launch10

end
-- ==== Proof.Spec.lean ====
/-
  What both programs compute, one entry at a time, on the extended reals.

  For a query id `q` and a row of 512 ids, `occ q row` is the number of positions of the row holding `q`;
  `maskedOcc` is that number, or 0 for the padding id 0. A count `x` is encoded into 128 features by the
  two-layer map  `g ↦ (∑ f, max (x · w1 f + b1 f) 0 · w2 g f) + b2 g`  (`encode`), and the feature of a
  query is the sum of the encodings of its count in the first row and of its count in the second (`feature`).
  `featureArr` lays this out over the arrays: entry (b, l, g) uses query `qa[b, l]`, rows `sa[b, ·]` and
  `da[b, ·]`, the first-layer weights `W1[·, 0]` and the second-layer weights `W2[g, ·]`.
-/
import Idealize.ShloMosaic.PureOps.Ideal
import Idealize.ShloMosaic.Lib.ValueIdx

noncomputable section

namespace Cert.Appear

open Idealize.ShloMosaic Idealize.ShloMosaic.ValueIdx

/-- The number of positions of `row` that hold the id `q`, as an extended real. -/
def occ (q : BitVec 32) (row : Fin 512 → BitVec 32) : EReal :=
  (((Finset.univ.filter fun k : Fin 512 => row k = q).card : ℝ) : EReal)

/-- The same, with the padding id 0 counted as never appearing. -/
def maskedOcc (q : BitVec 32) (row : Fin 512 → BitVec 32) : EReal :=
  if q = 0#32 then 0 else occ q row

/-- The two-layer encoding of one count `x`, at output feature `g`. -/
def encode (x : EReal) (w1 b1 : Fin 128 → EReal) (w2 : Fin 128 → Fin 128 → EReal) (b2 : Fin 128 → EReal) (g : Fin 128) : EReal :=
  (∑ f : Fin 128, max (x * w1 f + b1 f) 0 * w2 g f) + b2 g

/-- The feature of a query id: its count in the first row and its count in the second, each encoded, added. -/
def feature (q : BitVec 32) (srow drow : Fin 512 → BitVec 32) (w1 b1 : Fin 128 → EReal) (w2 : Fin 128 → Fin 128 → EReal)
    (b2 : Fin 128 → EReal) (g : Fin 128) : EReal :=
  encode (maskedOcc q srow) w1 b1 w2 b2 g + encode (maskedOcc q drow) w1 b1 w2 b2 g

/-- The feature at batch `b`, position `l`, output feature `g`, read off the arrays. -/
def featureAt (qa sa da : (⟨2, ![256, 512]⟩ : Shape).Idx → BitVec 32) (W1 : (⟨2, ![128, 1]⟩ : Shape).Idx → EReal)
    (b1 : (⟨1, ![128]⟩ : Shape).Idx → EReal) (W2 : (⟨2, ![128, 128]⟩ : Shape).Idx → EReal) (b2 : (⟨1, ![128]⟩ : Shape).Idx → EReal)
    (b : Fin 256) (l : Fin 512) (g : Fin 128) : EReal :=
  feature (qa (ix2 b l)) (fun k => sa (ix2 b k)) (fun k => da (ix2 b k)) (fun f => W1 (ix2 f (0 : Fin 1))) (fun f => b1 (ix1 f))
    (fun g' f => W2 (ix2 g' f)) (fun g' => b2 (ix1 g')) g

/-- The whole result array [256, 512, 128]. -/
def featureArr (qa sa da : (⟨2, ![256, 512]⟩ : Shape).Idx → BitVec 32) (W1 : (⟨2, ![128, 1]⟩ : Shape).Idx → EReal)
    (b1 : (⟨1, ![128]⟩ : Shape).Idx → EReal) (W2 : (⟨2, ![128, 128]⟩ : Shape).Idx → EReal) (b2 : (⟨1, ![128]⟩ : Shape).Idx → EReal) :
    (⟨3, ![256, 512, 128]⟩ : Shape).Idx → EReal :=
  fun i => featureAt qa sa da W1 b1 W2 b2 (i 0) (i 1) (i 2)

theorem featureArr_apply (qa sa da : (⟨2, ![256, 512]⟩ : Shape).Idx → BitVec 32) (W1 : (⟨2, ![128, 1]⟩ : Shape).Idx → EReal)
    (b1 : (⟨1, ![128]⟩ : Shape).Idx → EReal) (W2 : (⟨2, ![128, 128]⟩ : Shape).Idx → EReal) (b2 : (⟨1, ![128]⟩ : Shape).Idx → EReal)
    (b : Fin 256) (l : Fin 512) (g : Fin 128) :
    featureArr qa sa da W1 b1 W2 b2 (ix3 b l g) = featureAt qa sa da W1 b1 W2 b2 b l g := rfl

end Cert.Appear

end
-- ==== Proof.PayloadCount.lean ====
/-
  Counting by a sum of indicators.

  For a query id q and a row of 512 ids, the sum over the row's positions k of the signed-integer-to-float conversion
  of the one-bit comparison "q equals row k", widened to 32 bits, is the number of positions holding q: each term is
  the real 1 where the ids agree and the real 0 where they do not, the sum of those reals is the cardinality of the
  set of agreeing positions, and the coercion of reals into the extended reals commutes with a finite sum.
-/
import Idealize.ShloMosaic.PureOps.Ideal
import Idealize.ShloMosaic.Lib.ValueIdx
import proofs.«425663_j45260365365904_3_alg».proof.Proof.Spec

namespace Cert.KernelIdeal.Block

open Idealize.ShloMosaic Idealize.ShloMosaic.ValueIdx

/-- The coercion of the reals into the extended reals commutes with a finite sum. -/
theorem coe_finset_sum {ι : Type} (s : Finset ι) (f : ι → ℝ) :
    (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- The comparison bit of two ids, widened to 32 bits and read as a signed integer, is 1 where they agree, else 0. -/
theorem eq_bit_toInt (q r : BitVec 32) :
    ((IntOp.cmpi .eq q r).setWidth 32).toInt = if r = q then 1 else 0 := by
  by_cases h : r = q
  · subst h
    rw [if_pos rfl]
    have e : IntOp.cmpi .eq r r = 1#1 := by simp [IntOp.cmpi]
    rw [e]; decide
  · rw [if_neg h]
    have hne : ¬q = r := fun h' => h h'.symm
    have hb : (q == r) = false := beq_eq_false_iff_ne.mpr hne
    have e : IntOp.cmpi .eq q r = 0#1 := by
      show BitVec.ofBool (q == r) = 0#1
      rw [hb]; rfl
    rw [e]; decide

/-- One term of the count: the float of the widened comparison bit is the real indicator of agreement. -/
theorem eq_bit_float (q r : BitVec 32) :
    FloatOps.sitofp (F := Ideal) .f32 ((IntOp.cmpi .eq q r).setWidth 32) = (((if r = q then 1 else 0 : ℝ)) : EReal) := by
  show (((((IntOp.cmpi .eq q r).setWidth 32).toInt : ℝ)) : EReal) = _
  rw [eq_bit_toInt]
  split <;> simp

/-- The sum of the indicator terms over a row is the number of positions of the row that hold the query id. -/
theorem sum_eq_bits (q : BitVec 32) (row : Fin 512 → BitVec 32) :
    ∑ k : Fin 512, FloatOps.sitofp (F := Ideal) .f32 ((IntOp.cmpi .eq q (row k)).setWidth 32) = Cert.Appear.occ q row := by
  unfold Cert.Appear.occ
  rw [Finset.card_filter, Nat.cast_sum, coe_finset_sum]
  refine Finset.sum_congr rfl fun k _ => ?_
  rw [eq_bit_float]
  split <;> simp

end Cert.KernelIdeal.Block
-- ==== Proof.LibRank3Layout.lean ====
/-
  Layout operations on arrays of rank two and three, read at an index, at any extents and any element type.

  A shape cast keeps the row-major position: adding a unit axis at the end of [a, b], in the middle of [a, c] or twice
  in front of [c] does not move an entry, and merging the two leading axes of [a, b, c] into one axis of extent a · b
  sends (i, j, f) to (i · b + j, f). A broadcast reads coordinate 0 on an operand axis of extent one and keeps the
  coordinate on an axis of full extent. Inserting coordinate k on the last axis of an index (i, j) of [a, b] gives
  (i, j, k) — the index a sum over the last axis of [a, b, c] runs through, so that on the extended reals the sum
  reduction of [a, b, c] over its last axis is, at (i, j), the sum over k of the entries (i, j, k).
-/
import Idealize.ShloMosaic.Lib.Pipeline.Value
import Idealize.ShloMosaic.Lib.ValueIdx
import Idealize.ShloMosaic.PureOps.Reduce
import Idealize.ShloMosaic.PureOps.Ideal.Laws

namespace Cert.KernelIdeal.Block

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, c] array cast to [a, 1, c] reads, at (i, u, k), the operand at (i, k). -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A [c] array cast to [1, 1, c] reads, at (u, u', f), the operand at f. -/
theorem shapeCast_c_11c_apply {c : ℕ} (x : (⟨1, ![c]⟩ : Shape).Idx → α)
    (h : (⟨1, ![c]⟩ : Shape).ShapeCasts ⟨3, ![1, 1, c]⟩) (u u' : Fin 1) (f : Fin c) :
    shapeCast ⟨3, ![1, 1, c]⟩ x h (ix3 u u' f) = x (ix1 f) :=
  shapeCast_apply x h _ _ (by
    have hu : u.val = 0 := by omega
    have hu' : u'.val = 0 := by omega
    rw [Shape.rowMajor_val_three, Shape.rowMajor_val_one]
    show f.val = (u.val * 1 + u'.val) * c + f.val
    rw [hu, hu']; simp)

/-- An [a, b, c] array cast to [m, c] with m = a · b reads, at (i · b + j, f), the operand at (i, j, f). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (f : Fin c) (r : Fin m)
    (hr : r.val = i.val * b + j.val) :
    shapeCast ⟨2, ![m, c]⟩ x h (ix2 r f) = x (ix3 i j f) :=
  shapeCast_apply x h _ _ (by
    rw [Shape.rowMajor_val_three, Shape.rowMajor_val_two]
    show (i.val * b + j.val) * c + f.val = r.val * c + f.val
    rw [hr])

/-- An [m, c] array with m = a · b cast to [a, b, c] reads, at (i, j, f), the operand at (i · b + j, f). -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (f : Fin c) (r : Fin m)
    (hr : r.val = i.val * b + j.val) :
    shapeCast ⟨3, ![a, b, c]⟩ x h (ix3 i j f) = x (ix2 r f) :=
  shapeCast_apply x h _ _ (by
    rw [Shape.rowMajor_val_three, Shape.rowMajor_val_two]
    show r.val * c + f.val = (i.val * b + j.val) * c + f.val
    rw [hr])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A [1, 1, c] array broadcast to [a, b, c] reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- The index of [a, b, c] over (i, j) of [a, b] with coordinate k on the last axis is (i, j, k). -/
theorem lift_last_ix2 {a b c : ℕ} (h : (⟨3, ![a, b, c]⟩ : Shape).Reduces [2] ⟨2, ![a, b]⟩) (i : Fin a) (j : Fin b) (k : Fin c) :
    h.lift (ix2 i j) k = ix3 i j k := by
  funext ax
  match ax with
  | ⟨0, _⟩ => exact Fin.ext rfl
  | ⟨1, _⟩ => exact Fin.ext rfl
  | ⟨2, _⟩ => exact Fin.ext rfl

/-- On the extended reals the sum reduction of an [a, b, c] array over its last axis reads, at (i, j), the sum over k
    of the entries (i, j, k). -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction (F := Ideal) .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last_ix2 h i j k)

end Cert.KernelIdeal.Block
-- ==== Proof.LibPlainMatmul.lean ====
/-
  A plain matrix product read at an entry.

  For an M × K matrix a and a K × N matrix b, the product accumulated into the zero matrix has, at (i, j), the sum over
  the contraction coordinate k of a (i, k) · b (k, j), at any extents and operand formats, on the extended reals.

  The product's definition sums over the one-axis contraction index set and reads the operands at index maps built from
  the dimension numbers. The contraction index set is in bijection with Fin K (its single coordinate), and under that
  bijection the two operand index maps are (i, k) and (k, j): each of their four coordinates is read off directly.
-/
import Idealize.ShloMosaic.PureOps.Ideal.Laws
import Idealize.ShloMosaic.Lib.ValueIdx

namespace Idealize.ShloMosaic.PlainMatmul

open Idealize.ShloMosaic Idealize.ShloMosaic.ValueIdx

/-- The contraction index set of a plain product has one axis. -/
theorem plain_contr_rank (M K N : ℕ) : (DotDims.plain M K N).contr.rank = 1 := rfl

/-- Left operand, row coordinate: the output's row. -/
theorem lhs_plain_0 {M K N : ℕ} (j : (⟨2, ![M, N]⟩ : Shape).Idx) (k : (DotDims.plain M K N).contr.Idx) :
    ((DotDims.plain M K N).lhsIdx j k 0).val = (j 0).val := rfl

/-- Left operand, column coordinate: the contraction coordinate. -/
theorem lhs_plain_1 {M K N : ℕ} (j : (⟨2, ![M, N]⟩ : Shape).Idx) (k : (DotDims.plain M K N).contr.Idx) :
    ((DotDims.plain M K N).lhsIdx j k 1).val = (k ⟨0, by rw [plain_contr_rank]; exact Nat.one_pos⟩).val := rfl

/-- Right operand, row coordinate: the contraction coordinate. -/
theorem rhs_plain_0 {M K N : ℕ} (j : (⟨2, ![M, N]⟩ : Shape).Idx) (k : (DotDims.plain M K N).contr.Idx) :
    ((DotDims.plain M K N).rhsIdx j k 0).val = (k ⟨0, by rw [plain_contr_rank]; exact Nat.one_pos⟩).val := rfl

/-- Right operand, column coordinate: the output's column. -/
theorem rhs_plain_1 {M K N : ℕ} (j : (⟨2, ![M, N]⟩ : Shape).Idx) (k : (DotDims.plain M K N).contr.Idx) :
    ((DotDims.plain M K N).rhsIdx j k 1).val = (j 1).val := rfl

/-- Under the bijection of the contraction index set with Fin K the left operand is read at (i, k). -/
theorem lhs_plain_ix2 {M K N : ℕ} (i : Fin M) (j : Fin N) (k : Fin K) :
    (DotDims.plain M K N).lhsIdx (ix2 i j) ((contrEquiv1 (DotDims.plain M K N) K rfl rfl).symm k) = ix2 i k := by
  funext a
  match a with
  | ⟨0, _⟩ => exact Fin.ext (lhs_plain_0 _ _)
  | ⟨1, _⟩ => exact Fin.ext ((lhs_plain_1 _ _).trans (contrEquiv1_symm_val (DotDims.plain M K N) K rfl rfl k))

/-- Under the same bijection the right operand is read at (k, j). -/
theorem rhs_plain_ix2 {M K N : ℕ} (i : Fin M) (j : Fin N) (k : Fin K) :
    (DotDims.plain M K N).rhsIdx (ix2 i j) ((contrEquiv1 (DotDims.plain M K N) K rfl rfl).symm k) = ix2 k j := by
  funext a
  match a with
  | ⟨0, _⟩ => exact Fin.ext ((rhs_plain_0 _ _).trans (contrEquiv1_symm_val (DotDims.plain M K N) K rfl rfl k))
  | ⟨1, _⟩ => exact Fin.ext (rhs_plain_1 _ _)

/-- The product of an M × K by a K × N matrix into the zero accumulator, at (i, j): the sum over k of the products. -/
theorem matmul_plain_zero_apply {M K N : ℕ} {φ₁ φ₂ : FTy} (prec : Option ContractPrecision)
    (a : FVec Ideal ⟨2, ![M, K]⟩ φ₁) (b : FVec Ideal ⟨2, ![K, N]⟩ φ₂) (i : Fin M) (j : Fin N) :
    matmul (DotDims.plain M K N) prec a b (constant (F := Ideal) ⟨2, ![M, N]⟩ .f32 0x00000000#32) (ix2 i j)
      = ∑ k : Fin K, a (ix2 i k) * b (ix2 k j) := by
  simp only [matmul]
  rw [Ideal.matmul_constant_zero_apply,
    ← Equiv.sum_comp (contrEquiv1 (DotDims.plain M K N) K rfl rfl).symm]
  refine Finset.sum_congr rfl fun k _ => ?_
  rw [lhs_plain_ix2, rhs_plain_ix2]

end Idealize.ShloMosaic.PlainMatmul
-- ==== Proof.PayloadParts.lean ====
/-
  The pieces of the kernel's arithmetic, each read at an index.

  The count array: entry (p, l) is the number of positions k of row p of the id block that hold the query id (p, l) —
  the sum over k of the float of the widened comparison bit. The masked count: the count where the query id is not 0,
  the value of the zero word (which is 0) where it is. The hidden layer of one count array c: entry (p, l, f) is
  max (c (p, l) · w1 f + b1 f) 0. The encoding of c: the hidden layer with its two leading axes merged into one of
  2048 rows, multiplied by the transposed second-layer weights (so that entry (p · 128 + l, g) is the sum over f of
  hidden (p, l, f) · W2 (g, f)), the rows split back into (p, l), and b2 g added — the two-layer encoding of c (p, l)
  at output feature g.
-/
import proofs.«425663_j45260365365904_3_alg».proof.Proof.Gen.KernelIdeal.Skeleton
import proofs.«425663_j45260365365904_3_alg».proof.Proof.Spec
import proofs.«425663_j45260365365904_3_alg».proof.Proof.PayloadCount
import proofs.«425663_j45260365365904_3_alg».proof.Proof.LibRank3Layout
import proofs.«425663_j45260365365904_3_alg».proof.Proof.LibPlainMatmul
import Idealize.ShloMosaic.PureOps.Ideal.Laws
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx

/-! ## The count -/

/-- The count array of a block of query ids against a block of rows. -/
def countArr (q : IVec S16x128 32) (r : IVec S16x512 32) : FVec Ideal S16x128 .f32 :=
  multiReduction (F := Ideal) .add [2] S16x128
    (sitofp .f32 (extui 32 (cmpi .eq
      (broadcastTo S16x128x512 (shapeCast S16x128x1 q shapeCasts_S16x128_S16x128x1) broadcasts_S16x128x1_S16x128x512)
      (broadcastTo S16x128x512 (shapeCast S16x1x512 r shapeCasts_S16x512_S16x1x512) broadcasts_S16x1x512_S16x128x512))
      natLt_1_32))
    0x00000000#32 reduces_S16x128x512_S16x128 (.inl rfl) rfl

/-- Entry (p, l) of the count array is the number of positions of row p that hold the query id (p, l). -/
theorem countArr_apply (q : IVec S16x128 32) (r : IVec S16x512 32) (p : Fin 16) (l : Fin 128) :
    countArr q r (ix2 p l) = Cert.Appear.occ (q (ix2 p l)) (fun k => r (ix2 p k)) := by
  unfold countArr
  refine (multiReduction_add_last_apply _ 0x00000000#32 reduces_S16x128x512_S16x128 (.inl rfl) rfl p l).trans ?_
  refine Eq.trans (Finset.sum_congr rfl fun k _ => ?_) (sum_eq_bits (q (ix2 p l)) (fun k => r (ix2 p k)))
  show FloatOps.sitofp (F := Ideal) .f32 ((IntOp.cmpi .eq
      (broadcastTo S16x128x512 (shapeCast S16x128x1 q shapeCasts_S16x128_S16x128x1) broadcasts_S16x128x1_S16x128x512 (ix3 p l k))
      (broadcastTo S16x128x512 (shapeCast S16x1x512 r shapeCasts_S16x512_S16x1x512) broadcasts_S16x1x512_S16x128x512 (ix3 p l k))).setWidth 32) = _
  rw [broadcastTo_ab1_abc_apply, broadcastTo_a1c_abc_apply, shapeCast_ab_ab1_apply, shapeCast_ac_a1c_apply]

/-! ## The mask -/

/-- A count array with the entries of the padding id 0 replaced by the value of the zero word. -/
def maskedArr (q : IVec S16x128 32) (cnt : FVec Ideal S16x128 .f32) : FVec Ideal S16x128 .f32 :=
  select (cmpi .ne q (broadcast S16x128 0#32)) cnt (broadcast S16x128 (FloatOps.ofBits (F := Ideal) .f32 0x00000000#32))

/-- Entry (p, l) of the masked array over a count is the masked count. -/
theorem maskedArr_apply_of (q : IVec S16x128 32) (cnt : FVec Ideal S16x128 .f32) (row : Fin 512 → BitVec 32) (p : Fin 16) (l : Fin 128)
    (hc : cnt (ix2 p l) = Cert.Appear.occ (q (ix2 p l)) row) :
    maskedArr q cnt (ix2 p l) = Cert.Appear.maskedOcc (q (ix2 p l)) row := by
  show Scalar.select (IntOp.cmpi .ne (q (ix2 p l)) 0#32) (cnt (ix2 p l)) (Ideal.ofBits .f32 0x00000000#32) = _
  unfold Cert.Appear.maskedOcc
  by_cases h : q (ix2 p l) = 0#32
  · rw [if_pos h, h]
    have e : IntOp.cmpi .ne (0#32 : BitVec 32) 0#32 = 0#1 := by decide
    rw [e, select_zero, Ideal.ofBits_zero_f32]
  · rw [if_neg h]
    have hb : (q (ix2 p l) != 0#32) = true := bne_iff_ne.mpr h
    have e : IntOp.cmpi .ne (q (ix2 p l)) 0#32 = 1#1 := by
      show BitVec.ofBool (q (ix2 p l) != 0#32) = 1#1
      rw [hb]; rfl
    rw [e, select_one, hc]

/-- The masked count array of a block of query ids against a block of rows, at (p, l). -/
theorem maskedArr_countArr_apply (q : IVec S16x128 32) (r : IVec S16x512 32) (p : Fin 16) (l : Fin 128) :
    maskedArr q (countArr q r) (ix2 p l) = Cert.Appear.maskedOcc (q (ix2 p l)) (fun k => r (ix2 p k)) :=
  maskedArr_apply_of q (countArr q r) _ p l (countArr_apply q r p l)

/-! ## The weights as the body lays them out -/

/-- The first-layer weights, a row [1, 128] read as a vector: entry f is the row's entry (0, f). -/
theorem k0_pay10_apply (x4 : FVec Ideal S1x128 .f32) (f : Fin 128) :
    k0_pay10 (F := Ideal) x4 (ix1 f) = x4 (ix2 (0 : Fin 1) f) := by
  unfold k0_pay10
  exact shapeCast_1a_a_apply x4 shapeCasts_S1x128_S128 f

/-- The second-layer weights transposed: entry (f, g) is W2 (g, f). -/
theorem k0_pay11_apply (x6 : FVec Ideal S128x128 .f32) (f g : Fin 128) :
    k0_pay11 (F := Ideal) x6 (ix2 f g) = x6 (ix2 g f) := by
  unfold k0_pay11
  show transpose S128x128 [1, 0] x6 transposes_S128x128_p1_0_S128x128 (ix2 f g) = _
  exact transpose_ix2_apply x6 transposes_S128x128_p1_0_S128x128 f g

/-! ## The hidden layer and the encoding -/

/-- The hidden layer of a count array. -/
def hiddenArr (c : FVec Ideal S16x128 .f32) (w1 b1 : FVec Ideal S128 .f32) : FVec Ideal S16x128x128 .bf16 :=
  truncf .bf16
    (maximumf
      (addf
        (mulf
          (broadcastTo S16x128x128 (shapeCast S16x128x1 c shapeCasts_S16x128_S16x128x1) broadcasts_S16x128x1_S16x128x128)
          (broadcastTo S16x128x128 (shapeCast S1x1x128 w1 shapeCasts_S128_S1x1x128) broadcasts_S1x1x128_S16x128x128))
        (broadcastTo S16x128x128 (shapeCast S1x1x128 b1 shapeCasts_S128_S1x1x128) broadcasts_S1x1x128_S16x128x128))
      (broadcast S16x128x128 (FloatOps.ofBits (F := Ideal) .f32 0x00000000#32)))
    bitsLt_bf16_f32

/-- Entry (p, l, f) of the hidden layer. -/
theorem hiddenArr_apply (c : FVec Ideal S16x128 .f32) (w1 b1 : FVec Ideal S128 .f32) (p : Fin 16) (l f : Fin 128) :
    hiddenArr c w1 b1 (ix3 p l f) = max (c (ix2 p l) * w1 (ix1 f) + b1 (ix1 f)) 0 := by
  unfold hiddenArr
  simp only [truncf_apply, maximumf_apply, addf_apply, mulf_apply, broadcast_apply]
  rw [broadcastTo_ab1_abc_apply, broadcastTo_11c_abc_apply, broadcastTo_11c_abc_apply, shapeCast_ab_ab1_apply,
    shapeCast_c_11c_apply, shapeCast_c_11c_apply, Ideal.ofBits_def, Ideal.ofBits_zero_f32]

/-- The encoding of a count array: hidden layer, product with the transposed second-layer weights, b2 added. -/
def encArr (c : FVec Ideal S16x128 .f32) (w1 b1 b2 : FVec Ideal S128 .f32) (w2t : FVec Ideal S128x128 .bf16) :
    FVec Ideal S16x128x128 .f32 :=
  addf
    (shapeCast S16x128x128
      (matmul dot_S2048x128_S128x128_S2048x128_1_0_0_1_n_n none
        (shapeCast S2048x128 (hiddenArr c w1 b1) shapeCasts_S16x128x128_S2048x128) w2t (constant S2048x128 .f32 0x00000000#32))
      shapeCasts_S2048x128_S16x128x128)
    (broadcastTo S16x128x128 (shapeCast S1x1x128 b2 shapeCasts_S128_S1x1x128) broadcasts_S1x1x128_S16x128x128)

/-- Row p · 128 + l of the merged leading axis. -/
def mrow (p : Fin 16) (l : Fin 128) : Fin 2048 := ⟨p.val * 128 + l.val, by omega⟩

/-- Entry (p, l, g) of the encoding: the sum over f of hidden (p, l, f) times the weight (f, g), plus b2 g. -/
theorem encArr_apply (c : FVec Ideal S16x128 .f32) (w1 b1 b2 : FVec Ideal S128 .f32) (w2t : FVec Ideal S128x128 .bf16)
    (p : Fin 16) (l g : Fin 128) :
    encArr c w1 b1 b2 w2t (ix3 p l g)
      = (∑ f : Fin 128, max (c (ix2 p l) * w1 (ix1 f) + b1 (ix1 f)) 0 * w2t (ix2 f g)) + b2 (ix1 g) := by
  unfold encArr
  rw [addf_apply, broadcastTo_11c_abc_apply, shapeCast_c_11c_apply,
    shapeCast_mc_abc_apply _ shapeCasts_S2048x128_S16x128x128 p l g (mrow p l) rfl]
  refine congrArg (· + b2 (ix1 g)) ?_
  refine (PlainMatmul.matmul_plain_zero_apply (M := 2048) (K := 128) (N := 128) none _ w2t (mrow p l) g).trans ?_
  refine Finset.sum_congr rfl fun f _ => ?_
  rw [shapeCast_abc_mc_apply _ shapeCasts_S16x128x128_S2048x128 p l f (mrow p l) rfl, hiddenArr_apply]

/-- With the weights as the body lays them out, the encoding at (p, l, g) is the two-layer encoding of the count. -/
theorem encArr_eq_encode (c : FVec Ideal S16x128 .f32) (x4 : FVec Ideal S1x128 .f32) (x5 : FVec Ideal S128 .f32)
    (x6 : FVec Ideal S128x128 .f32) (x7 : FVec Ideal S128 .f32) (xv : EReal) (p : Fin 16) (l g : Fin 128)
    (hc : c (ix2 p l) = xv) :
    encArr c (k0_pay10 (F := Ideal) x4) x5 x7 (k0_pay11 (F := Ideal) x6) (ix3 p l g)
      = Cert.Appear.encode xv (fun f => x4 (ix2 (0 : Fin 1) f)) (fun f => x5 (ix1 f)) (fun g' f => x6 (ix2 g' f))
          (fun g' => x7 (ix1 g')) g := by
  rw [encArr_apply, hc]
  unfold Cert.Appear.encode
  refine congrArg (· + x7 (ix1 g)) (Finset.sum_congr rfl fun f _ => ?_)
  rw [k0_pay10_apply, k0_pay11_apply]

end Cert.KernelIdeal.Block

end
-- ==== Proof.Payload.lean ====
/-
  The kernel's two stored arrays, read at an index.

  The first stored array is the sum of two encodings: of the masked count of the first query block's id (p, l) in
  row p of the first id block, and of its masked count in row p of the second id block. The second stored array is
  the same for the second query block. Each is therefore the feature of the query id at (p, l) against the two rows,
  at output feature g.
-/
import proofs.«425663_j45260365365904_3_alg».proof.Proof.Gen.KernelIdeal.Skeleton
import proofs.«425663_j45260365365904_3_alg».proof.Proof.Spec
import proofs.«425663_j45260365365904_3_alg».proof.Proof.PayloadParts
import Idealize.ShloMosaic.Lib.ValueIdx

noncomputable section

namespace Cert.KernelIdeal.Block

open Cert.KernelIdeal Cert.KernelIdeal.Gen Idealize.ShloMosaic Idealize.ShloMosaic.ValueIdx

/-- The array stored for the first query block is the sum of the encodings of its two masked count arrays. -/
theorem srcFeat_eq (x0 : Vec Ideal S16x128 .i32) (x2 x3 : Vec Ideal S16x512 .i32) (x4 : Vec Ideal S1x128 .f32)
    (x5 : Vec Ideal S128 .f32) (x6 : Vec Ideal S128x128 .f32) (x7 : Vec Ideal S128 .f32) :
    k0_pay12 (F := Ideal) (k0_pay2 x0 x3) (k0_pay5 x0) (k0_pay7 x0 x2) (Scalar.ofBits .f32 0x00000000#32) x4 x5 x7 x6
      = addf (encArr (maskedArr x0 (countArr x0 x2)) (k0_pay10 (F := Ideal) x4) x5 x7 (k0_pay11 (F := Ideal) x6))
          (encArr (maskedArr x0 (countArr x0 x3)) (k0_pay10 (F := Ideal) x4) x5 x7 (k0_pay11 (F := Ideal) x6)) := rfl

/-- The array stored for the second query block likewise. -/
theorem dstFeat_eq (x1 : Vec Ideal S16x128 .i32) (x2 x3 : Vec Ideal S16x512 .i32) (x4 : Vec Ideal S1x128 .f32)
    (x5 : Vec Ideal S128 .f32) (x6 : Vec Ideal S128x128 .f32) (x7 : Vec Ideal S128 .f32) :
    k0_pay1 (F := Ideal) (k0_pay8 (k0_pay3 x1 x2) (k0_pay6 x1)) (k0_pay9 (k0_pay4 x1 x3) (k0_pay6 x1)) (k0_pay10 x4) x5 x7 (k0_pay11 x6)
      = addf (encArr (maskedArr x1 (countArr x1 x2)) (k0_pay10 (F := Ideal) x4) x5 x7 (k0_pay11 (F := Ideal) x6))
          (encArr (maskedArr x1 (countArr x1 x3)) (k0_pay10 (F := Ideal) x4) x5 x7 (k0_pay11 (F := Ideal) x6)) := rfl

/-- The sum of the two encodings at (p, l, g) is the feature of the query id (p, l). -/
theorem feat_apply (q : Vec Ideal S16x128 .i32) (x2 x3 : Vec Ideal S16x512 .i32) (x4 : Vec Ideal S1x128 .f32)
    (x5 : Vec Ideal S128 .f32) (x6 : Vec Ideal S128x128 .f32) (x7 : Vec Ideal S128 .f32) (p : Fin 16) (l : Fin 128) (g : Fin 128) :
    addf (encArr (maskedArr q (countArr q x2)) (k0_pay10 (F := Ideal) x4) x5 x7 (k0_pay11 (F := Ideal) x6))
        (encArr (maskedArr q (countArr q x3)) (k0_pay10 (F := Ideal) x4) x5 x7 (k0_pay11 (F := Ideal) x6)) (ix3 p l g)
      = Cert.Appear.feature (q (ix2 p l)) (fun k => x2 (ix2 p k)) (fun k => x3 (ix2 p k)) (fun f => x4 (ix2 (0 : Fin 1) f))
          (fun f => x5 (ix1 f)) (fun g' f => x6 (ix2 g' f)) (fun g' => x7 (ix1 g')) g := by
  rw [addf_apply]
  unfold Cert.Appear.feature
  rw [encArr_eq_encode _ x4 x5 x6 x7 _ p l g (maskedArr_countArr_apply q x2 p l),
    encArr_eq_encode _ x4 x5 x6 x7 _ p l g (maskedArr_countArr_apply q x3 p l)]

/-- The first stored array at (p, l, g): the feature of the first query block's id (p, l). -/
theorem srcFeat_apply (x0 : Vec Ideal S16x128 .i32) (x2 x3 : Vec Ideal S16x512 .i32) (x4 : Vec Ideal S1x128 .f32)
    (x5 : Vec Ideal S128 .f32) (x6 : Vec Ideal S128x128 .f32) (x7 : Vec Ideal S128 .f32) (p : Fin 16) (l : Fin 128) (g : Fin 128) :
    k0_pay12 (F := Ideal) (k0_pay2 x0 x3) (k0_pay5 x0) (k0_pay7 x0 x2) (Scalar.ofBits .f32 0x00000000#32) x4 x5 x7 x6 (ix3 p l g)
      = Cert.Appear.feature (x0 (ix2 p l)) (fun k => x2 (ix2 p k)) (fun k => x3 (ix2 p k)) (fun f => x4 (ix2 (0 : Fin 1) f))
          (fun f => x5 (ix1 f)) (fun g' f => x6 (ix2 g' f)) (fun g' => x7 (ix1 g')) g :=
  (congrFun (srcFeat_eq x0 x2 x3 x4 x5 x6 x7) (ix3 p l g)).trans (feat_apply x0 x2 x3 x4 x5 x6 x7 p l g)

/-- The second stored array at (p, l, g): the feature of the second query block's id (p, l). -/
theorem dstFeat_apply (x1 : Vec Ideal S16x128 .i32) (x2 x3 : Vec Ideal S16x512 .i32) (x4 : Vec Ideal S1x128 .f32)
    (x5 : Vec Ideal S128 .f32) (x6 : Vec Ideal S128x128 .f32) (x7 : Vec Ideal S128 .f32) (p : Fin 16) (l : Fin 128) (g : Fin 128) :
    k0_pay1 (F := Ideal) (k0_pay8 (k0_pay3 x1 x2) (k0_pay6 x1)) (k0_pay9 (k0_pay4 x1 x3) (k0_pay6 x1)) (k0_pay10 x4) x5 x7 (k0_pay11 x6) (ix3 p l g)
      = Cert.Appear.feature (x1 (ix2 p l)) (fun k => x2 (ix2 p k)) (fun k => x3 (ix2 p k)) (fun f => x4 (ix2 (0 : Fin 1) f))
          (fun f => x5 (ix1 f)) (fun g' f => x6 (ix2 g' f)) (fun g' => x7 (ix1 g')) g :=
  (congrFun (dstFeat_eq x1 x2 x3 x4 x5 x6 x7) (ix3 p l g)).trans (feat_apply x1 x2 x3 x4 x5 x6 x7 p l g)

end Cert.KernelIdeal.Block

end
-- ==== Proof.KernelValue.lean ====
/-
  From blocks to arrays, at the extended reals. Point t of the 16 × 4 grid has coordinates (bi, qi); it shows the body
  rows 16·bi … 16·bi + 15 of both id arrays, once as the 128 query positions 128·qi … 128·qi + 127 and once whole,
  and the four weight arrays whole; it writes back rows 16·bi …, positions 128·qi …, all 128 features of each result.
  So what point t writes back is the block of the feature array (Spec) of the region-entry contents, the 64 blocks
  tile the two results, and each result array ends at the feature array of the argument arrays. The first-layer
  weights reach the body as the row the host transposed them into.
-/
import proofs.«425663_j45260365365904_3_alg».proof.Proof.LaunchIdeal
import proofs.«425663_j45260365365904_3_alg».proof.Proof.Payload
import proofs.«425663_j45260365365904_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Launch10
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The row of first-layer weights the region finds: the host's transpose of the weights as passed. -/
theorem V_row (c : Dev nD) : (V m c main_v0 : S1x128.Idx → EReal)
    = transpose S1x128 [1, 0] (m ((c : Thread nD τ).loc main_arg2)) transposes_S128x1_S1x128_1_0 := by
  dsimp only [V, hostOps0]; after_results

/-- The printed index maps, decided over the 64 points: the query windows and the result windows move together, the
    row windows follow the first coordinate and stay at column block 0, the weight windows stay at block 0. -/
theorem idx_facts : ∀ t : Fin cfg0.N,
    win0_0.index t (0 : Fin 2) = win0_8.index t (0 : Fin 3) ∧ win0_0.index t (1 : Fin 2) = win0_8.index t (1 : Fin 3)
    ∧ win0_1.index t (0 : Fin 2) = win0_8.index t (0 : Fin 3) ∧ win0_1.index t (1 : Fin 2) = win0_8.index t (1 : Fin 3)
    ∧ win0_2.index t (0 : Fin 2) = win0_8.index t (0 : Fin 3) ∧ win0_2.index t (1 : Fin 2) = 0
    ∧ win0_3.index t (0 : Fin 2) = win0_8.index t (0 : Fin 3) ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_9.index t (0 : Fin 3) = win0_8.index t (0 : Fin 3) ∧ win0_9.index t (1 : Fin 3) = win0_8.index t (1 : Fin 3)
    ∧ win0_9.index t (2 : Fin 3) = 0 ∧ win0_8.index t (2 : Fin 3) = 0
    ∧ win0_8.index t (0 : Fin 3) ≤ 15 ∧ win0_8.index t (1 : Fin 3) ≤ 3 :=
  (by decide +kernel : ∀ t : Fin grid0.N, _)

/-- Every (row block, position block) pair is some point's. -/
theorem idx_onto : ∀ (q0 : Fin 16) (q1 : Fin 4), ∃ t : Fin cfg0.N, win0_8.index t = ![q0.val, q1.val, 0] ∧ win0_9.index t = ![q0.val, q1.val, 0] :=
  (by decide +kernel : ∀ (q0 : Fin 16) (q1 : Fin 4), ∃ t : Fin grid0.N, win0_8.index t = ![q0.val, q1.val, 0] ∧ win0_9.index t = ![q0.val, q1.val, 0])

/-! ## Where a point's blocks sit in the arrays -/

/-- The array row of block row `p` at point `t`, and the array position of block position `l`. -/
def brow (t : Fin cfg0.N) (p : Fin 16) : Fin 256 := ⟨win0_8.index t (0 : Fin 3) * 16 + p.val, by
  have h := (idx_facts t).2.2.2.2.2.2.2.2.2.2.2.2.2.2.2.2.2.2.1; have := p.isLt; omega⟩
def bpos (t : Fin cfg0.N) (l : Fin 128) : Fin 512 := ⟨win0_8.index t (1 : Fin 3) * 128 + l.val, by
  have h := (idx_facts t).2.2.2.2.2.2.2.2.2.2.2.2.2.2.2.2.2.2.2; have := l.isLt; omega⟩

theorem emb_out0 (t : Fin cfg0.N) (p : Fin 16) (l g : Fin 128) :
    ((cfg0.win 8).blk t).view.emb (ix3 p l g) = ix3 (brow t p) (bpos t l) g := by
  obtain ⟨e0, e1, e2, e3, e4, e5, e6, e7, e8, e9, e10, e11, e12, e13, e14, e15, e16, e17, e18, e19⟩ := idx_facts t
  funext a; apply Fin.ext
  match a with
  | ⟨0, _⟩ => show win0_8.index t (0 : Fin 3) * 16 + 1 * p.val = win0_8.index t (0 : Fin 3) * 16 + p.val; omega
  | ⟨1, _⟩ => show win0_8.index t (1 : Fin 3) * 128 + 1 * l.val = win0_8.index t (1 : Fin 3) * 128 + l.val; omega
  | ⟨2, _⟩ => show win0_8.index t (2 : Fin 3) * 128 + 1 * g.val = g.val; omega

theorem emb_out1 (t : Fin cfg0.N) (p : Fin 16) (l g : Fin 128) :
    ((cfg0.win 9).blk t).view.emb (ix3 p l g) = ix3 (brow t p) (bpos t l) g := by
  obtain ⟨e0, e1, e2, e3, e4, e5, e6, e7, e8, e9, e10, e11, e12, e13, e14, e15, e16, e17, e18, e19⟩ := idx_facts t
  funext a; apply Fin.ext
  match a with
  | ⟨0, _⟩ => show win0_9.index t (0 : Fin 3) * 16 + 1 * p.val = win0_8.index t (0 : Fin 3) * 16 + p.val; omega
  | ⟨1, _⟩ => show win0_9.index t (1 : Fin 3) * 128 + 1 * l.val = win0_8.index t (1 : Fin 3) * 128 + l.val; omega
  | ⟨2, _⟩ => show win0_9.index t (2 : Fin 3) * 128 + 1 * g.val = g.val; omega

/-- The query blocks: rows and positions of the point. -/
theorem qblk0_apply (c : Dev nD) (t : Fin cfg0.N) (p : Fin 16) (l : Fin 128) :
    (iblk m c 0 t : S16x128.Idx → BitVec 32) (ix2 p l) = (V m c main_arg0 : S256x512.Idx → BitVec 32) (ix2 (brow t p) (bpos t l)) := by
  obtain ⟨e0, e1, e2, e3, e4, e5, e6, e7, e8, e9, e10, e11, e12, e13, e14, e15, e16, e17, e18, e19⟩ := idx_facts t
  show (V m c main_arg0 : S256x512.Idx → BitVec 32) (((cfg0.win 0).blk t).view.emb (ix2 p l)) = _
  refine congrArg _ (funext fun a => Fin.ext ?_)
  match a with
  | ⟨0, _⟩ => show win0_0.index t (0 : Fin 2) * 16 + 1 * p.val = win0_8.index t (0 : Fin 3) * 16 + p.val; omega
  | ⟨1, _⟩ => show win0_0.index t (1 : Fin 2) * 128 + 1 * l.val = win0_8.index t (1 : Fin 3) * 128 + l.val; omega

theorem qblk1_apply (c : Dev nD) (t : Fin cfg0.N) (p : Fin 16) (l : Fin 128) :
    (iblk m c 1 t : S16x128.Idx → BitVec 32) (ix2 p l) = (V m c main_arg1 : S256x512.Idx → BitVec 32) (ix2 (brow t p) (bpos t l)) := by
  obtain ⟨e0, e1, e2, e3, e4, e5, e6, e7, e8, e9, e10, e11, e12, e13, e14, e15, e16, e17, e18, e19⟩ := idx_facts t
  show (V m c main_arg1 : S256x512.Idx → BitVec 32) (((cfg0.win 1).blk t).view.emb (ix2 p l)) = _
  refine congrArg _ (funext fun a => Fin.ext ?_)
  match a with
  | ⟨0, _⟩ => show win0_1.index t (0 : Fin 2) * 16 + 1 * p.val = win0_8.index t (0 : Fin 3) * 16 + p.val; omega
  | ⟨1, _⟩ => show win0_1.index t (1 : Fin 2) * 128 + 1 * l.val = win0_8.index t (1 : Fin 3) * 128 + l.val; omega

/-- The row blocks: the point's rows, whole. -/
theorem rblk0_apply (c : Dev nD) (t : Fin cfg0.N) (p : Fin 16) (k : Fin 512) :
    (iblk m c 2 t : S16x512.Idx → BitVec 32) (ix2 p k) = (V m c main_arg0 : S256x512.Idx → BitVec 32) (ix2 (brow t p) k) := by
  obtain ⟨e0, e1, e2, e3, e4, e5, e6, e7, e8, e9, e10, e11, e12, e13, e14, e15, e16, e17, e18, e19⟩ := idx_facts t
  show (V m c main_arg0 : S256x512.Idx → BitVec 32) (((cfg0.win 2).blk t).view.emb (ix2 p k)) = _
  refine congrArg _ (funext fun a => Fin.ext ?_)
  match a with
  | ⟨0, _⟩ => show win0_2.index t (0 : Fin 2) * 16 + 1 * p.val = win0_8.index t (0 : Fin 3) * 16 + p.val; omega
  | ⟨1, _⟩ => show win0_2.index t (1 : Fin 2) * 512 + 1 * k.val = k.val; omega

theorem rblk1_apply (c : Dev nD) (t : Fin cfg0.N) (p : Fin 16) (k : Fin 512) :
    (iblk m c 3 t : S16x512.Idx → BitVec 32) (ix2 p k) = (V m c main_arg1 : S256x512.Idx → BitVec 32) (ix2 (brow t p) k) := by
  obtain ⟨e0, e1, e2, e3, e4, e5, e6, e7, e8, e9, e10, e11, e12, e13, e14, e15, e16, e17, e18, e19⟩ := idx_facts t
  show (V m c main_arg1 : S256x512.Idx → BitVec 32) (((cfg0.win 3).blk t).view.emb (ix2 p k)) = _
  refine congrArg _ (funext fun a => Fin.ext ?_)
  match a with
  | ⟨0, _⟩ => show win0_3.index t (0 : Fin 2) * 16 + 1 * p.val = win0_8.index t (0 : Fin 3) * 16 + p.val; omega
  | ⟨1, _⟩ => show win0_3.index t (1 : Fin 2) * 512 + 1 * k.val = k.val; omega

/-- The weight blocks are the weight arrays. -/
theorem w1blk_apply (c : Dev nD) (t : Fin cfg0.N) (f : Fin 128) :
    (iblk m c 4 t : S1x128.Idx → EReal) (ix2 (0 : Fin 1) f) = (m ((c : Thread nD τ).loc main_arg2) : S128x1.Idx → EReal) (ix2 f (0 : Fin 1)) := by
  obtain ⟨e0, e1, e2, e3, e4, e5, e6, e7, e8, e9, e10, e11, e12, e13, e14, e15, e16, e17, e18, e19⟩ := idx_facts t
  have h : (iblk m c 4 t : S1x128.Idx → EReal) (ix2 (0 : Fin 1) f) = (V m c main_v0 : S1x128.Idx → EReal) (ix2 (0 : Fin 1) f) := by
    show (V m c main_v0 : S1x128.Idx → EReal) (((cfg0.win 4).blk t).view.emb (ix2 (0 : Fin 1) f)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * f.val = f.val; omega
  rw [h, V_row, transpose_ix2_apply]

theorem b1blk_apply (c : Dev nD) (t : Fin cfg0.N) (f : Fin 128) :
    (iblk m c 5 t : S128.Idx → EReal) (ix1 f) = (V m c main_arg3 : S128.Idx → EReal) (ix1 f) := by
  obtain ⟨e0, e1, e2, e3, e4, e5, e6, e7, e8, e9, e10, e11, e12, e13, e14, e15, e16, e17, e18, e19⟩ := idx_facts t
  show (V m c main_arg3 : S128.Idx → EReal) (((cfg0.win 5).blk t).view.emb (ix1 f)) = _
  refine congrArg _ (funext fun a => Fin.ext ?_)
  match a with
  | ⟨0, _⟩ => show win0_5.index t (0 : Fin 1) * 128 + 1 * f.val = f.val; omega

theorem w2blk_apply (c : Dev nD) (t : Fin cfg0.N) (g f : Fin 128) :
    (iblk m c 6 t : S128x128.Idx → EReal) (ix2 g f) = (V m c main_arg4 : S128x128.Idx → EReal) (ix2 g f) := by
  obtain ⟨e0, e1, e2, e3, e4, e5, e6, e7, e8, e9, e10, e11, e12, e13, e14, e15, e16, e17, e18, e19⟩ := idx_facts t
  show (V m c main_arg4 : S128x128.Idx → EReal) (((cfg0.win 6).blk t).view.emb (ix2 g f)) = _
  refine congrArg _ (funext fun a => Fin.ext ?_)
  match a with
  | ⟨0, _⟩ => show win0_6.index t (0 : Fin 2) * 128 + 1 * g.val = g.val; omega
  | ⟨1, _⟩ => show win0_6.index t (1 : Fin 2) * 128 + 1 * f.val = f.val; omega

theorem b2blk_apply (c : Dev nD) (t : Fin cfg0.N) (g : Fin 128) :
    (iblk m c 7 t : S128.Idx → EReal) (ix1 g) = (V m c main_arg5 : S128.Idx → EReal) (ix1 g) := by
  obtain ⟨e0, e1, e2, e3, e4, e5, e6, e7, e8, e9, e10, e11, e12, e13, e14, e15, e16, e17, e18, e19⟩ := idx_facts t
  show (V m c main_arg5 : S128.Idx → EReal) (((cfg0.win 7).blk t).view.emb (ix1 g)) = _
  refine congrArg _ (funext fun a => Fin.ext ?_)
  match a with
  | ⟨0, _⟩ => show win0_7.index t (0 : Fin 1) * 128 + 1 * g.val = g.val; omega

/-! ## What a point writes back -/

/-- The feature array of the region-entry contents, its queries taken from `qa`. -/
abbrev featOf (c : Dev nD) (qa : S256x512.Idx → BitVec 32) : S256x512x128.Idx → EReal :=
  Cert.Appear.featureArr qa (V m c main_arg0) (V m c main_arg1) (m ((c : Thread nD τ).loc main_arg2)) (V m c main_arg3) (V m c main_arg4) (V m c main_arg5)

/-- One entry of a block the body leaves, against the feature array at the entry's place in the array: the body's
    features of the point's blocks are the features of the arrays' rows and positions the blocks show. -/
theorem feature_blocks (c : Dev nD) (t : Fin cfg0.N) (w : Fin cfg0.W) (qa : S256x512.Idx → BitVec 32) (qb : S16x128.Idx → BitVec 32)
    (hq : ∀ p l, qb (ix2 p l) = qa (ix2 (brow t p) (bpos t l))) (p : Fin 16) (l g : Fin 128) :
    Cert.Appear.feature (qb (ix2 p l)) (fun k => (iblk m c 2 t : S16x512.Idx → BitVec 32) (ix2 p k)) (fun k => (iblk m c 3 t : S16x512.Idx → BitVec 32) (ix2 p k))
        (fun f => (iblk m c 4 t : S1x128.Idx → EReal) (ix2 (0 : Fin 1) f)) (fun f => (iblk m c 5 t : S128.Idx → EReal) (ix1 f))
        (fun g' f => (iblk m c 6 t : S128x128.Idx → EReal) (ix2 g' f)) (fun g' => (iblk m c 7 t : S128.Idx → EReal) (ix1 g')) g
      = featOf m c qa (ix3 (brow t p) (bpos t l) g) := by
  refine Eq.trans ?_ (Cert.Appear.featureArr_apply _ _ _ _ _ _ _ _ _ _).symm
  unfold Cert.Appear.featureAt
  simp only [hq, rblk0_apply, rblk1_apply, w1blk_apply, b1blk_apply, w2blk_apply, b2blk_apply]

/-- WHAT POINT `t` WRITES BACK to the first result is block `t` of the feature array with the first id array's queries, -/
theorem flushed_src (c : Dev nD) (t : Fin cfg0.N) :
    (dats m 0 c).flushed 8 t = ((cfg0.win 8).blk t).view.read (Elt Ideal) (featOf m c (V m c main_arg0)) := by
  show (cfg0.win 8).cut (grid0.coords t) ((dats m 0 c).after 8 t) = _
  rw [after8]
  unfold srcFeatBlk
  rw [View.canon_unit_zero hz3]
  simp only [View.ld_unit_zero (S := S16x128) hz2, View.ld_unit_zero (S := S16x512) hz2, View.ld_unit_zero (S := S1x128) hz2,
    View.ld_unit_zero (S := S128) hz1, View.ld_unit_zero (S := S128x128) hz2]
  funext j
  obtain ⟨p, l, g, rfl⟩ : ∃ (p : Fin 16) (l : Fin 128) (g : Fin 128), j = ix3 p l g := ⟨j 0, j 1, j 2, eq_ix3 j⟩
  refine (Cert.KernelIdeal.Block.srcFeat_apply (iblk m c 0 t) (iblk m c 2 t) (iblk m c 3 t) (iblk m c 4 t) (iblk m c 5 t) (iblk m c 6 t) (iblk m c 7 t) p l g).trans ?_
  refine (feature_blocks m c t 8 (V m c main_arg0) (iblk m c 0 t) (qblk0_apply m c t) p l g).trans ?_
  show _ = featOf m c (V m c main_arg0) (((cfg0.win 8).blk t).view.emb (ix3 p l g))
  rw [emb_out0]

/-- and to the second result, with the second id array's queries. -/
theorem flushed_dst (c : Dev nD) (t : Fin cfg0.N) :
    (dats m 0 c).flushed 9 t = ((cfg0.win 9).blk t).view.read (Elt Ideal) (featOf m c (V m c main_arg1)) := by
  show (cfg0.win 9).cut (grid0.coords t) ((dats m 0 c).after 9 t) = _
  rw [after9]
  unfold dstFeatBlk
  rw [View.canon_unit_zero hz3]
  simp only [View.ld_unit_zero (S := S16x128) hz2, View.ld_unit_zero (S := S16x512) hz2, View.ld_unit_zero (S := S1x128) hz2,
    View.ld_unit_zero (S := S128) hz1, View.ld_unit_zero (S := S128x128) hz2]
  funext j
  obtain ⟨p, l, g, rfl⟩ : ∃ (p : Fin 16) (l : Fin 128) (g : Fin 128), j = ix3 p l g := ⟨j 0, j 1, j 2, eq_ix3 j⟩
  refine (Cert.KernelIdeal.Block.dstFeat_apply (iblk m c 1 t) (iblk m c 2 t) (iblk m c 3 t) (iblk m c 4 t) (iblk m c 5 t) (iblk m c 6 t) (iblk m c 7 t) p l g).trans ?_
  refine (feature_blocks m c t 9 (V m c main_arg1) (iblk m c 1 t) (qblk1_apply m c t) p l g).trans ?_
  show _ = featOf m c (V m c main_arg1) (((cfg0.win 9).blk t).view.emb (ix3 p l g))
  rw [emb_out1]

/-! ## The 64 blocks tile the results -/

theorem mem_blk_src (t : Fin cfg0.N) (i : S256x512x128.Idx) :
    i ∈ ((cfg0.win 8).blk t).view.set ↔ ∀ a : Fin 3, win0_8.index t a * S16x128x128.size a ≤ (i a).val ∧ (i a).val < win0_8.index t a * S16x128x128.size a + S16x128x128.size a := by
  show i ∈ ((View.whole main_v1_0).slice (win0_8.rect t)).set ↔ _
  rw [View.set_slice_whole, Rect.mem_set_unit]
  exact Iff.rfl

theorem mem_blk_dst (t : Fin cfg0.N) (i : S256x512x128.Idx) :
    i ∈ ((cfg0.win 9).blk t).view.set ↔ ∀ a : Fin 3, win0_9.index t a * S16x128x128.size a ≤ (i a).val ∧ (i a).val < win0_9.index t a * S16x128x128.size a + S16x128x128.size a := by
  show i ∈ ((View.whole main_v1_1).slice (win0_9.rect t)).set ↔ _
  rw [View.set_slice_whole, Rect.mem_set_unit]
  exact Iff.rfl

/-- Entry (b, l, g) lies in the block of the point with coordinates (b / 16, l / 128). -/
theorem covered (i : S256x512x128.Idx) :
    (∃ t : Fin cfg0.N, (cfg0.win 8).flush t = true ∧ i ∈ ((cfg0.win 8).blk t).view.set)
    ∧ (∃ t : Fin cfg0.N, (cfg0.win 9).flush t = true ∧ i ∈ ((cfg0.win 9).blk t).view.set) := by
  have hi0 : (i 0).val < 256 := (i 0).isLt
  have hi1 : (i 1).val < 512 := (i 1).isLt
  have hi2 : (i 2).val < 128 := (i 2).isLt
  obtain ⟨t, ht8, ht9⟩ := idx_onto ⟨(i 0).val / 16, by omega⟩ ⟨(i 1).val / 128, by omega⟩
  have q0 : win0_8.index t (0 : Fin 3) = (i 0).val / 16 := congrFun ht8 0
  have q1 : win0_8.index t (1 : Fin 3) = (i 1).val / 128 := congrFun ht8 1
  have q2 : win0_8.index t (2 : Fin 3) = 0 := congrFun ht8 2
  have r0 : win0_9.index t (0 : Fin 3) = (i 0).val / 16 := congrFun ht9 0
  have r1 : win0_9.index t (1 : Fin 3) = (i 1).val / 128 := congrFun ht9 1
  have r2 : win0_9.index t (2 : Fin 3) = 0 := congrFun ht9 2
  refine ⟨⟨t, flush0_8 t, ?_⟩, ⟨t, flush0_9 t, ?_⟩⟩
  · rw [mem_blk_src]
    intro a
    match a with
    | ⟨0, _⟩ => show win0_8.index t (0 : Fin 3) * 16 ≤ (i 0).val ∧ (i 0).val < win0_8.index t (0 : Fin 3) * 16 + 16; omega
    | ⟨1, _⟩ => show win0_8.index t (1 : Fin 3) * 128 ≤ (i 1).val ∧ (i 1).val < win0_8.index t (1 : Fin 3) * 128 + 128; omega
    | ⟨2, _⟩ => show win0_8.index t (2 : Fin 3) * 128 ≤ (i 2).val ∧ (i 2).val < win0_8.index t (2 : Fin 3) * 128 + 128; omega
  · rw [mem_blk_dst]
    intro a
    match a with
    | ⟨0, _⟩ => show win0_9.index t (0 : Fin 3) * 16 ≤ (i 0).val ∧ (i 0).val < win0_9.index t (0 : Fin 3) * 16 + 16; omega
    | ⟨1, _⟩ => show win0_9.index t (1 : Fin 3) * 128 ≤ (i 1).val ∧ (i 1).val < win0_9.index t (1 : Fin 3) * 128 + 128; omega
    | ⟨2, _⟩ => show win0_9.index t (2 : Fin 3) * 128 ≤ (i 2).val ∧ (i 2).val < win0_9.index t (2 : Fin 3) * 128 + 128; omega

/-! ## The results after the run -/

/-- The feature array of the ARGUMENT arrays: the region finds every argument as passed. -/
theorem featOf_args (c : Dev nD) :
    featOf m c (V m c main_arg0) = Cert.Appear.featureArr (m ((c : Thread nD τ).loc main_arg0)) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
    ∧ featOf m c (V m c main_arg1) = Cert.Appear.featureArr (m ((c : Thread nD τ).loc main_arg1)) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  unfold featOf
  rw [V_main_arg0, V_main_arg1, V_main_arg3, V_main_arg4, V_main_arg5]
  exact ⟨rfl, rfl⟩

theorem final_src (c : Dev nD) : (dats m 0 c).arrAt 8 cfg0.N
    = Cert.Appear.featureArr (m ((c : Thread nD τ).loc main_arg0)) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) :=
  ((dats m 0 c).arrAt_eq_of_cover 8 (featOf m c (V m c main_arg0)) (fun t _ => flushed_src m c t) (fun i => (covered i).1)).trans (featOf_args m c).1

theorem final_dst (c : Dev nD) : (dats m 0 c).arrAt 9 cfg0.N
    = Cert.Appear.featureArr (m ((c : Thread nD τ).loc main_arg1)) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) :=
  ((dats m 0 c).arrAt_eq_of_cover 9 (featOf m c (V m c main_arg1)) (fun t _ => flushed_dst m c t) (fun i => (covered i).2)).trans (featOf_args m c).2

/-- The idealized kernel's run, read: both results at the feature arrays of the arguments, the arguments unchanged. -/
theorem run : θ_run (defs (F := Ideal)) (onTc (τ := τ) (main (F := Ideal))) ⟨m, fun _ => 0, ρ⟩ (fun r => ∀ c : Dev nD,
      r.2.mem ((c.tc : Thread nD τ).loc main_v1_0)
          = Cert.Appear.featureArr (m ((c : Thread nD τ).loc main_arg0)) (m ((c : Thread nD τ).loc main_arg0)) (m ((c : Thread nD τ).loc main_arg1))
              (m ((c : Thread nD τ).loc main_arg2)) (m ((c : Thread nD τ).loc main_arg3)) (m ((c : Thread nD τ).loc main_arg4)) (m ((c : Thread nD τ).loc main_arg5))
      ∧ r.2.mem ((c.tc : Thread nD τ).loc main_v1_1)
          = Cert.Appear.featureArr (m ((c : Thread nD τ).loc main_arg1)) (m ((c : Thread nD τ).loc main_arg0)) (m ((c : Thread nD τ).loc main_arg1))
              (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_src m c), (h c).2.1.trans (final_dst m c), (h c).2.2⟩) (run_results m ρ)

end Cert.KernelIdeal.Whole

end
-- ==== Proof.RefRunCut.lean ====
/-
  The reference's run. @main is a straight line of 96 host operations; every weakly fair execution terminates
  with each buffer at the fold of the operations' results over the launch contents. The two result buffers are
  read back one stretch of the line at a time: operations 0 to 19 (the first result's two counts, each as a
  column), 20 to 40 (their join into two channels; the second result's two counts), 41 to 59 (that join; the two
  padding masks), 60 to 77 and 78 to 95 (the two-layer map and the sum over the channels, once for each result).
  Each stretch is read over an arbitrary valuation of the buffers before it, so no step handles a term longer
  than the stretch; composed outermost first the readings give each result as one term of the arguments' launch
  contents, and the arguments unchanged.
-/
import proofs.«425663_j45260365365904_3_alg».proof.Proof.Gen.ReferenceIdeal
import Idealize.ShloMosaic.Lib.StableHlo.Run
import Idealize.ShloMosaic.Lib.Pipeline.Frame

noncomputable section

namespace Cert.ReferenceIdeal.ValueQ

open Cert.ReferenceIdeal Cert.ReferenceIdeal.Gen Idealize.ShloMosaic Idealize.ShloMosaic.TcCoe Idealize.SL.Sem Idealize.ShloMosaic.StableHlo

variable {F : FTy → Type} [FloatOps F]

/-- @main's 96 operations, in order (a called function's operations stand in its call's place, spelt `TRef.…`). -/
abbrev ops : List (HloOp τ sig (Elt F)) :=
  [ unary main_arg0 main_v0 (broadcastInDim S256x512x1 ![0, 1] bcast_S256x512_S256x512x1_0_1 : (⟨S256x512, .i32⟩ : BufTy).Contents (Elt F) → (⟨S256x512x1, .i32⟩ : BufTy).Contents (Elt F)),
    unary main_arg0 main_v1 (broadcastInDim S256x1x512 ![0, 2] bcast_S256x512_S256x1x512_0_2 : (⟨S256x512, .i32⟩ : BufTy).Contents (Elt F) → (⟨S256x1x512, .i32⟩ : BufTy).Contents (Elt F)),
    unary main_v0 main_v2 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v1 main_v3 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v2 main_v3 main_v4 (cmpi .eq : (⟨S256x512x512, .i32⟩ : BufTy).Contents (Elt F) → (⟨S256x512x512, .i32⟩ : BufTy).Contents (Elt F) → (⟨S256x512x512, .i1⟩ : BufTy).Contents (Elt F)),
    unary main_v4 main_v5 ((extui 32 · natLt_1_32) : (⟨S256x512x512, .i1⟩ : BufTy).Contents (Elt F) → (⟨S256x512x512, .i32⟩ : BufTy).Contents (Elt F)),
    nullary main_c (constantI S_ 32 0#32),
    binary main_v5 main_c main_v6 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v6 main_v7 (sitofp .f32 : (⟨S256x512, .i32⟩ : BufTy).Contents (Elt F) → (⟨S256x512, .f32⟩ : BufTy).Contents (Elt F)),
    unary main_arg0 main_v8 (broadcastInDim S256x512x1 ![0, 1] bcast_S256x512_S256x512x1_0_1 : (⟨S256x512, .i32⟩ : BufTy).Contents (Elt F) → (⟨S256x512x1, .i32⟩ : BufTy).Contents (Elt F)),
    unary main_arg1 main_v9 (broadcastInDim S256x1x512 ![0, 2] bcast_S256x512_S256x1x512_0_2 : (⟨S256x512, .i32⟩ : BufTy).Contents (Elt F) → (⟨S256x1x512, .i32⟩ : BufTy).Contents (Elt F)),
    unary main_v8 main_v10 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v9 main_v11 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v10 main_v11 main_v12 (cmpi .eq : (⟨S256x512x512, .i32⟩ : BufTy).Contents (Elt F) → (⟨S256x512x512, .i32⟩ : BufTy).Contents (Elt F) → (⟨S256x512x512, .i1⟩ : BufTy).Contents (Elt F)),
    unary main_v12 main_v13 ((extui 32 · natLt_1_32) : (⟨S256x512x512, .i1⟩ : BufTy).Contents (Elt F) → (⟨S256x512x512, .i32⟩ : BufTy).Contents (Elt F)),
    nullary main_c_0 (constantI S_ 32 0#32),
    binary main_v13 main_c_0 main_v14 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v14 main_v15 (sitofp .f32 : (⟨S256x512, .i32⟩ : BufTy).Contents (Elt F) → (⟨S256x512, .f32⟩ : BufTy).Contents (Elt F)),
    unary main_v7 main_v16 (broadcastInDim S256x512x1 ![0, 1] bcast_S256x512_S256x512x1_0_1 : (⟨S256x512, .f32⟩ : BufTy).Contents (Elt F) → (⟨S256x512x1, .f32⟩ : BufTy).Contents (Elt F)),
    unary main_v15 main_v17 (broadcastInDim S256x512x1 ![0, 1] bcast_S256x512_S256x512x1_0_1 : (⟨S256x512, .f32⟩ : BufTy).Contents (Elt F) → (⟨S256x512x1, .f32⟩ : BufTy).Contents (Elt F)),
    binary main_v16 main_v17 main_v18 ((fun a b => concatenate S256x512x2 2 [⟨S256x512x1, a⟩, ⟨S256x512x1, b⟩] concatenates_S256x512x1_S256x512x1_S256x512x2_d2) : (⟨S256x512x1, .f32⟩ : BufTy).Contents (Elt F) → (⟨S256x512x1, .f32⟩ : BufTy).Contents (Elt F) → (⟨S256x512x2, .f32⟩ : BufTy).Contents (Elt F)),
    unary main_arg1 main_v19 (broadcastInDim S256x512x1 ![0, 1] bcast_S256x512_S256x512x1_0_1 : (⟨S256x512, .i32⟩ : BufTy).Contents (Elt F) → (⟨S256x512x1, .i32⟩ : BufTy).Contents (Elt F)),
    unary main_arg0 main_v20 (broadcastInDim S256x1x512 ![0, 2] bcast_S256x512_S256x1x512_0_2 : (⟨S256x512, .i32⟩ : BufTy).Contents (Elt F) → (⟨S256x1x512, .i32⟩ : BufTy).Contents (Elt F)),
    unary main_v19 main_v21 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v20 main_v22 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v21 main_v22 main_v23 (cmpi .eq : (⟨S256x512x512, .i32⟩ : BufTy).Contents (Elt F) → (⟨S256x512x512, .i32⟩ : BufTy).Contents (Elt F) → (⟨S256x512x512, .i1⟩ : BufTy).Contents (Elt F)),
    unary main_v23 main_v24 ((extui 32 · natLt_1_32) : (⟨S256x512x512, .i1⟩ : BufTy).Contents (Elt F) → (⟨S256x512x512, .i32⟩ : BufTy).Contents (Elt F)),
    nullary main_c_1 (constantI S_ 32 0#32),
    binary main_v24 main_c_1 main_v25 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v25 main_v26 (sitofp .f32 : (⟨S256x512, .i32⟩ : BufTy).Contents (Elt F) → (⟨S256x512, .f32⟩ : BufTy).Contents (Elt F)),
    unary main_arg1 main_v27 (broadcastInDim S256x512x1 ![0, 1] bcast_S256x512_S256x512x1_0_1 : (⟨S256x512, .i32⟩ : BufTy).Contents (Elt F) → (⟨S256x512x1, .i32⟩ : BufTy).Contents (Elt F)),
    unary main_arg1 main_v28 (broadcastInDim S256x1x512 ![0, 2] bcast_S256x512_S256x1x512_0_2 : (⟨S256x512, .i32⟩ : BufTy).Contents (Elt F) → (⟨S256x1x512, .i32⟩ : BufTy).Contents (Elt F)),
    unary main_v27 main_v29 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v28 main_v30 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v29 main_v30 main_v31 (cmpi .eq : (⟨S256x512x512, .i32⟩ : BufTy).Contents (Elt F) → (⟨S256x512x512, .i32⟩ : BufTy).Contents (Elt F) → (⟨S256x512x512, .i1⟩ : BufTy).Contents (Elt F)),
    unary main_v31 main_v32 ((extui 32 · natLt_1_32) : (⟨S256x512x512, .i1⟩ : BufTy).Contents (Elt F) → (⟨S256x512x512, .i32⟩ : BufTy).Contents (Elt F)),
    nullary main_c_2 (constantI S_ 32 0#32),
    binary main_v32 main_c_2 main_v33 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v33 main_v34 (sitofp .f32 : (⟨S256x512, .i32⟩ : BufTy).Contents (Elt F) → (⟨S256x512, .f32⟩ : BufTy).Contents (Elt F)),
    unary main_v26 main_v35 (broadcastInDim S256x512x1 ![0, 1] bcast_S256x512_S256x512x1_0_1 : (⟨S256x512, .f32⟩ : BufTy).Contents (Elt F) → (⟨S256x512x1, .f32⟩ : BufTy).Contents (Elt F)),
    unary main_v34 main_v36 (broadcastInDim S256x512x1 ![0, 1] bcast_S256x512_S256x512x1_0_1 : (⟨S256x512, .f32⟩ : BufTy).Contents (Elt F) → (⟨S256x512x1, .f32⟩ : BufTy).Contents (Elt F)),
    binary main_v35 main_v36 main_v37 ((fun a b => concatenate S256x512x2 2 [⟨S256x512x1, a⟩, ⟨S256x512x1, b⟩] concatenates_S256x512x1_S256x512x1_S256x512x2_d2) : (⟨S256x512x1, .f32⟩ : BufTy).Contents (Elt F) → (⟨S256x512x1, .f32⟩ : BufTy).Contents (Elt F) → (⟨S256x512x2, .f32⟩ : BufTy).Contents (Elt F)),
    nullary main_c_3 (constantI S_ 32 0#32),
    unary main_c_3 main_v38 (broadcastInDim S256x512 ![] bcast_S_S256x512 : (⟨S_, .i32⟩ : BufTy).Contents (Elt F) → (⟨S256x512, .i32⟩ : BufTy).Contents (Elt F)),
    binary main_arg0 main_v38 main_v39 (cmpi .ne : (⟨S256x512, .i32⟩ : BufTy).Contents (Elt F) → (⟨S256x512, .i32⟩ : BufTy).Contents (Elt F) → (⟨S256x512, .i1⟩ : BufTy).Contents (Elt F)),
    unary main_v39 main_v40 (broadcastInDim S256x512x1 ![0, 1] bcast_S256x512_S256x512x1_0_1 : (⟨S256x512, .i1⟩ : BufTy).Contents (Elt F) → (⟨S256x512x1, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S256x512x1, .i1⟩) main_v40) (TRef.of (T := ⟨S256x512x2, .i1⟩) main_call0_v1) (broadcastInDim S256x512x2 ![0, 1, 2] bcast_S256x512x1_S256x512x2_0_1_2),
    TRef.unary (TRef.of (T := ⟨S_, .f32⟩) main_call0_v0) (TRef.of (T := ⟨S256x512x2, .f32⟩) main_call0_v2) (broadcastInDim S256x512x2 ![] bcast_S_S256x512x2),
    TRef.ternary (TRef.of (T := ⟨S256x512x2, .i1⟩) main_call0_v1) (TRef.of (T := ⟨S256x512x2, .f32⟩) main_v18) (TRef.of (T := ⟨S256x512x2, .f32⟩) main_call0_v2) (TRef.of (T := ⟨S256x512x2, .f32⟩) main_v41) select,
    nullary main_c_4 (constantI S_ 32 0#32),
    unary main_c_4 main_v42 (broadcastInDim S256x512 ![] bcast_S_S256x512 : (⟨S_, .i32⟩ : BufTy).Contents (Elt F) → (⟨S256x512, .i32⟩ : BufTy).Contents (Elt F)),
    binary main_arg1 main_v42 main_v43 (cmpi .ne : (⟨S256x512, .i32⟩ : BufTy).Contents (Elt F) → (⟨S256x512, .i32⟩ : BufTy).Contents (Elt F) → (⟨S256x512, .i1⟩ : BufTy).Contents (Elt F)),
    unary main_v43 main_v44 (broadcastInDim S256x512x1 ![0, 1] bcast_S256x512_S256x512x1_0_1 : (⟨S256x512, .i1⟩ : BufTy).Contents (Elt F) → (⟨S256x512x1, .i1⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S256x512x1, .i1⟩) main_v44) (TRef.of (T := ⟨S256x512x2, .i1⟩) main_call1_v1) (broadcastInDim S256x512x2 ![0, 1, 2] bcast_S256x512x1_S256x512x2_0_1_2),
    TRef.unary (TRef.of (T := ⟨S_, .f32⟩) main_call1_v0) (TRef.of (T := ⟨S256x512x2, .f32⟩) main_call1_v2) (broadcastInDim S256x512x2 ![] bcast_S_S256x512x2),
    TRef.ternary (TRef.of (T := ⟨S256x512x2, .i1⟩) main_call1_v1) (TRef.of (T := ⟨S256x512x2, .f32⟩) main_v37) (TRef.of (T := ⟨S256x512x2, .f32⟩) main_call1_v2) (TRef.of (T := ⟨S256x512x2, .f32⟩) main_v45) select,
    unary main_v41 main_v46 (broadcastInDim S256x512x2x1 ![0, 1, 2] bcast_S256x512x2_S256x512x2x1_0_1_2 : (⟨S256x512x2, .f32⟩ : BufTy).Contents (Elt F) → (⟨S256x512x2x1, .f32⟩ : BufTy).Contents (Elt F)),
    reshape main_arg2 main_v47 rfl shapeCasts_S128x1_S128,
    unary main_v47 main_v48 (broadcastInDim S1x1x1x128 ![3] bcast_S128_S1x1x1x128_3 : (⟨S128, .f32⟩ : BufTy).Contents (Elt F) → (⟨S1x1x1x128, .f32⟩ : BufTy).Contents (Elt F)),
    unary main_v46 main_v49 (broadcastInDim S256x512x2x128 ![0, 1, 2, 3] bcast_S256x512x2x1_S256x512x2x128_0_1_2_3 : (⟨S256x512x2x1, .f32⟩ : BufTy).Contents (Elt F) → (⟨S256x512x2x128, .f32⟩ : BufTy).Contents (Elt F)),
    unary main_v48 main_v50 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v49 main_v50 main_v51 (mulf : (⟨S256x512x2x128, .f32⟩ : BufTy).Contents (Elt F) → (⟨S256x512x2x128, .f32⟩ : BufTy).Contents (Elt F) → (⟨S256x512x2x128, .f32⟩ : BufTy).Contents (Elt F)),
    unary main_arg3 main_v52 (broadcastInDim S1x1x1x128 ![3] bcast_S128_S1x1x1x128_3 : (⟨S128, .f32⟩ : BufTy).Contents (Elt F) → (⟨S1x1x1x128, .f32⟩ : BufTy).Contents (Elt F)),
    unary main_v52 main_v53 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v51 main_v53 main_v54 (addf : (⟨S256x512x2x128, .f32⟩ : BufTy).Contents (Elt F) → (⟨S256x512x2x128, .f32⟩ : BufTy).Contents (Elt F) → (⟨S256x512x2x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S256x512x2x128, .f32⟩) main_call2_v0) (broadcastInDim S256x512x2x128 ![] bcast_S_S256x512x2x128),
    TRef.binary (TRef.of (T := ⟨S256x512x2x128, .f32⟩) main_v54) (TRef.of (T := ⟨S256x512x2x128, .f32⟩) main_call2_v0) (TRef.of (T := ⟨S256x512x2x128, .f32⟩) main_v55) maximumf,
    binary main_v55 main_arg4 main_v56 ((fun l r => Host.dotGeneral dot_S256x512x2x128_S128x128_S256x512x2x128_3_1_012_0_n_n none l r) : (⟨S256x512x2x128, .f32⟩ : BufTy).Contents (Elt F) → (⟨S128x128, .f32⟩ : BufTy).Contents (Elt F) → (⟨S256x512x2x128, .f32⟩ : BufTy).Contents (Elt F)),
    unary main_arg5 main_v57 (broadcastInDim S1x1x1x128 ![3] bcast_S128_S1x1x1x128_3 : (⟨S128, .f32⟩ : BufTy).Contents (Elt F) → (⟨S1x1x1x128, .f32⟩ : BufTy).Contents (Elt F)),
    unary main_v57 main_v58 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v56 main_v58 main_v59 (addf : (⟨S256x512x2x128, .f32⟩ : BufTy).Contents (Elt F) → (⟨S256x512x2x128, .f32⟩ : BufTy).Contents (Elt F) → (⟨S256x512x2x128, .f32⟩ : BufTy).Contents (Elt F)),
    nullary main_cst_6 (constant S_ .f32 0x00000000#32),
    binary main_v59 main_cst_6 main_v60 ((fun x v => Host.reduceAdd x v reducesTo_S256x512x2x128_S256x512x128_d2 h_S_) : (⟨S256x512x2x128, .f32⟩ : BufTy).Contents (Elt F) → (⟨S_, .f32⟩ : BufTy).Contents (Elt F) → (⟨S256x512x128, .f32⟩ : BufTy).Contents (Elt F)),
    unary main_v45 main_v61 (broadcastInDim S256x512x2x1 ![0, 1, 2] bcast_S256x512x2_S256x512x2x1_0_1_2 : (⟨S256x512x2, .f32⟩ : BufTy).Contents (Elt F) → (⟨S256x512x2x1, .f32⟩ : BufTy).Contents (Elt F)),
    reshape main_arg2 main_v62 rfl shapeCasts_S128x1_S128,
    unary main_v62 main_v63 (broadcastInDim S1x1x1x128 ![3] bcast_S128_S1x1x1x128_3 : (⟨S128, .f32⟩ : BufTy).Contents (Elt F) → (⟨S1x1x1x128, .f32⟩ : BufTy).Contents (Elt F)),
    unary main_v61 main_v64 (broadcastInDim S256x512x2x128 ![0, 1, 2, 3] bcast_S256x512x2x1_S256x512x2x128_0_1_2_3 : (⟨S256x512x2x1, .f32⟩ : BufTy).Contents (Elt F) → (⟨S256x512x2x128, .f32⟩ : BufTy).Contents (Elt F)),
    unary main_v63 main_v65 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v64 main_v65 main_v66 (mulf : (⟨S256x512x2x128, .f32⟩ : BufTy).Contents (Elt F) → (⟨S256x512x2x128, .f32⟩ : BufTy).Contents (Elt F) → (⟨S256x512x2x128, .f32⟩ : BufTy).Contents (Elt F)),
    unary main_arg3 main_v67 (broadcastInDim S1x1x1x128 ![3] bcast_S128_S1x1x1x128_3 : (⟨S128, .f32⟩ : BufTy).Contents (Elt F) → (⟨S1x1x1x128, .f32⟩ : BufTy).Contents (Elt F)),
    unary main_v67 main_v68 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v66 main_v68 main_v69 (addf : (⟨S256x512x2x128, .f32⟩ : BufTy).Contents (Elt F) → (⟨S256x512x2x128, .f32⟩ : BufTy).Contents (Elt F) → (⟨S256x512x2x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S256x512x2x128, .f32⟩) main_call3_v0) (broadcastInDim S256x512x2x128 ![] bcast_S_S256x512x2x128),
    TRef.binary (TRef.of (T := ⟨S256x512x2x128, .f32⟩) main_v69) (TRef.of (T := ⟨S256x512x2x128, .f32⟩) main_call3_v0) (TRef.of (T := ⟨S256x512x2x128, .f32⟩) main_v70) maximumf,
    binary main_v70 main_arg4 main_v71 ((fun l r => Host.dotGeneral dot_S256x512x2x128_S128x128_S256x512x2x128_3_1_012_0_n_n none l r) : (⟨S256x512x2x128, .f32⟩ : BufTy).Contents (Elt F) → (⟨S128x128, .f32⟩ : BufTy).Contents (Elt F) → (⟨S256x512x2x128, .f32⟩ : BufTy).Contents (Elt F)),
    unary main_arg5 main_v72 (broadcastInDim S1x1x1x128 ![3] bcast_S128_S1x1x1x128_3 : (⟨S128, .f32⟩ : BufTy).Contents (Elt F) → (⟨S1x1x1x128, .f32⟩ : BufTy).Contents (Elt F)),
    unary main_v72 main_v73 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v71 main_v73 main_v74 (addf : (⟨S256x512x2x128, .f32⟩ : BufTy).Contents (Elt F) → (⟨S256x512x2x128, .f32⟩ : BufTy).Contents (Elt F) → (⟨S256x512x2x128, .f32⟩ : BufTy).Contents (Elt F)),
    nullary main_cst_7 (constant S_ .f32 0x00000000#32),
    binary main_v74 main_cst_7 main_v75 ((fun x v => Host.reduceAdd x v reducesTo_S256x512x2x128_S256x512x128_d2 h_S_) : (⟨S256x512x2x128, .f32⟩ : BufTy).Contents (Elt F) → (⟨S_, .f32⟩ : BufTy).Contents (Elt F) → (⟨S256x512x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., unary_bufs_sub .., binary_bufs_sub .., unary_bufs_sub .., nullary_bufs_sub .., unary_bufs_sub .., unary_bufs_sub .., unary_bufs_sub .., ternary_bufs_sub .., unary_bufs_sub .., reshape_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., reshape_bufs_sub .., unary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub ..⟩

/-! ## The list in five stretches

The results are read one stretch at a time, over an arbitrary valuation `W` of the buffers before the stretch:
what a stretch leaves in a buffer it writes is the composed term of what `W` holds in the buffers the stretch
reads, and a buffer it does not write keeps what `W` holds. The stretches end before each join of two computed
columns, so that no step compares terms longer than some twenty operations. -/

/-- Operations 0 to 19 of the list. -/
def ops1 : List (HloOp τ sig (Elt F)) :=
  [ unary main_arg0 main_v0 (broadcastInDim S256x512x1 ![0, 1] bcast_S256x512_S256x512x1_0_1 : (⟨S256x512, .i32⟩ : BufTy).Contents (Elt F) → (⟨S256x512x1, .i32⟩ : BufTy).Contents (Elt F)),
    unary main_arg0 main_v1 (broadcastInDim S256x1x512 ![0, 2] bcast_S256x512_S256x1x512_0_2 : (⟨S256x512, .i32⟩ : BufTy).Contents (Elt F) → (⟨S256x1x512, .i32⟩ : BufTy).Contents (Elt F)),
    unary main_v0 main_v2 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v1 main_v3 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v2 main_v3 main_v4 (cmpi .eq : (⟨S256x512x512, .i32⟩ : BufTy).Contents (Elt F) → (⟨S256x512x512, .i32⟩ : BufTy).Contents (Elt F) → (⟨S256x512x512, .i1⟩ : BufTy).Contents (Elt F)),
    unary main_v4 main_v5 ((extui 32 · natLt_1_32) : (⟨S256x512x512, .i1⟩ : BufTy).Contents (Elt F) → (⟨S256x512x512, .i32⟩ : BufTy).Contents (Elt F)),
    nullary main_c (constantI S_ 32 0#32),
    binary main_v5 main_c main_v6 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v6 main_v7 (sitofp .f32 : (⟨S256x512, .i32⟩ : BufTy).Contents (Elt F) → (⟨S256x512, .f32⟩ : BufTy).Contents (Elt F)),
    unary main_arg0 main_v8 (broadcastInDim S256x512x1 ![0, 1] bcast_S256x512_S256x512x1_0_1 : (⟨S256x512, .i32⟩ : BufTy).Contents (Elt F) → (⟨S256x512x1, .i32⟩ : BufTy).Contents (Elt F)),
    unary main_arg1 main_v9 (broadcastInDim S256x1x512 ![0, 2] bcast_S256x512_S256x1x512_0_2 : (⟨S256x512, .i32⟩ : BufTy).Contents (Elt F) → (⟨S256x1x512, .i32⟩ : BufTy).Contents (Elt F)),
    unary main_v8 main_v10 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v9 main_v11 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v10 main_v11 main_v12 (cmpi .eq : (⟨S256x512x512, .i32⟩ : BufTy).Contents (Elt F) → (⟨S256x512x512, .i32⟩ : BufTy).Contents (Elt F) → (⟨S256x512x512, .i1⟩ : BufTy).Contents (Elt F)),
    unary main_v12 main_v13 ((extui 32 · natLt_1_32) : (⟨S256x512x512, .i1⟩ : BufTy).Contents (Elt F) → (⟨S256x512x512, .i32⟩ : BufTy).Contents (Elt F)),
    nullary main_c_0 (constantI S_ 32 0#32),
    binary main_v13 main_c_0 main_v14 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v14 main_v15 (sitofp .f32 : (⟨S256x512, .i32⟩ : BufTy).Contents (Elt F) → (⟨S256x512, .f32⟩ : BufTy).Contents (Elt F)),
    unary main_v7 main_v16 (broadcastInDim S256x512x1 ![0, 1] bcast_S256x512_S256x512x1_0_1 : (⟨S256x512, .f32⟩ : BufTy).Contents (Elt F) → (⟨S256x512x1, .f32⟩ : BufTy).Contents (Elt F)),
    unary main_v15 main_v17 (broadcastInDim S256x512x1 ![0, 1] bcast_S256x512_S256x512x1_0_1 : (⟨S256x512, .f32⟩ : BufTy).Contents (Elt F) → (⟨S256x512x1, .f32⟩ : BufTy).Contents (Elt F)) ]

/-- Operations 20 to 40 of the list. -/
def ops2 : List (HloOp τ sig (Elt F)) :=
  [ binary main_v16 main_v17 main_v18 ((fun a b => concatenate S256x512x2 2 [⟨S256x512x1, a⟩, ⟨S256x512x1, b⟩] concatenates_S256x512x1_S256x512x1_S256x512x2_d2) : (⟨S256x512x1, .f32⟩ : BufTy).Contents (Elt F) → (⟨S256x512x1, .f32⟩ : BufTy).Contents (Elt F) → (⟨S256x512x2, .f32⟩ : BufTy).Contents (Elt F)),
    unary main_arg1 main_v19 (broadcastInDim S256x512x1 ![0, 1] bcast_S256x512_S256x512x1_0_1 : (⟨S256x512, .i32⟩ : BufTy).Contents (Elt F) → (⟨S256x512x1, .i32⟩ : BufTy).Contents (Elt F)),
    unary main_arg0 main_v20 (broadcastInDim S256x1x512 ![0, 2] bcast_S256x512_S256x1x512_0_2 : (⟨S256x512, .i32⟩ : BufTy).Contents (Elt F) → (⟨S256x1x512, .i32⟩ : BufTy).Contents (Elt F)),
    unary main_v19 main_v21 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v20 main_v22 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v21 main_v22 main_v23 (cmpi .eq : (⟨S256x512x512, .i32⟩ : BufTy).Contents (Elt F) → (⟨S256x512x512, .i32⟩ : BufTy).Contents (Elt F) → (⟨S256x512x512, .i1⟩ : BufTy).Contents (Elt F)),
    unary main_v23 main_v24 ((extui 32 · natLt_1_32) : (⟨S256x512x512, .i1⟩ : BufTy).Contents (Elt F) → (⟨S256x512x512, .i32⟩ : BufTy).Contents (Elt F)),
    nullary main_c_1 (constantI S_ 32 0#32),
    binary main_v24 main_c_1 main_v25 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v25 main_v26 (sitofp .f32 : (⟨S256x512, .i32⟩ : BufTy).Contents (Elt F) → (⟨S256x512, .f32⟩ : BufTy).Contents (Elt F)),
    unary main_arg1 main_v27 (broadcastInDim S256x512x1 ![0, 1] bcast_S256x512_S256x512x1_0_1 : (⟨S256x512, .i32⟩ : BufTy).Contents (Elt F) → (⟨S256x512x1, .i32⟩ : BufTy).Contents (Elt F)),
    unary main_arg1 main_v28 (broadcastInDim S256x1x512 ![0, 2] bcast_S256x512_S256x1x512_0_2 : (⟨S256x512, .i32⟩ : BufTy).Contents (Elt F) → (⟨S256x1x512, .i32⟩ : BufTy).Contents (Elt F)),
    unary main_v27 main_v29 (broadcastInDim S256x512x512 ![0, 1, 2] bcast_S256x512x1_S256x512x512_0_1_2 : (⟨S256x512x1, .i32⟩ : BufTy).Contents (Elt F) → (⟨S256x512x512, .i32⟩ : BufTy).Contents (Elt F)),
    unary main_v28 main_v30 (broadcastInDim S256x512x512 ![0, 1, 2] bcast_S256x1x512_S256x512x512_0_1_2 : (⟨S256x1x512, .i32⟩ : BufTy).Contents (Elt F) → (⟨S256x512x512, .i32⟩ : BufTy).Contents (Elt F)),
    binary main_v29 main_v30 main_v31 (cmpi .eq : (⟨S256x512x512, .i32⟩ : BufTy).Contents (Elt F) → (⟨S256x512x512, .i32⟩ : BufTy).Contents (Elt F) → (⟨S256x512x512, .i1⟩ : BufTy).Contents (Elt F)),
    unary main_v31 main_v32 ((extui 32 · natLt_1_32) : (⟨S256x512x512, .i1⟩ : BufTy).Contents (Elt F) → (⟨S256x512x512, .i32⟩ : BufTy).Contents (Elt F)),
    nullary main_c_2 (constantI S_ 32 0#32),
    binary main_v32 main_c_2 main_v33 ((fun x v => Host.reduce IntOp.addi x v reducesTo_S256x512x512_S256x512_d2 h_S_) : (⟨S256x512x512, .i32⟩ : BufTy).Contents (Elt F) → (⟨S_, .i32⟩ : BufTy).Contents (Elt F) → (⟨S256x512, .i32⟩ : BufTy).Contents (Elt F)),
    unary main_v33 main_v34 (sitofp .f32 : (⟨S256x512, .i32⟩ : BufTy).Contents (Elt F) → (⟨S256x512, .f32⟩ : BufTy).Contents (Elt F)),
    unary main_v26 main_v35 (broadcastInDim S256x512x1 ![0, 1] bcast_S256x512_S256x512x1_0_1 : (⟨S256x512, .f32⟩ : BufTy).Contents (Elt F) → (⟨S256x512x1, .f32⟩ : BufTy).Contents (Elt F)),
    unary main_v34 main_v36 (broadcastInDim S256x512x1 ![0, 1] bcast_S256x512_S256x512x1_0_1 : (⟨S256x512, .f32⟩ : BufTy).Contents (Elt F) → (⟨S256x512x1, .f32⟩ : BufTy).Contents (Elt F)) ]

/-- Operations 41 to 59 of the list. -/
def ops3 : List (HloOp τ sig (Elt F)) :=
  [ binary main_v35 main_v36 main_v37 ((fun a b => concatenate S256x512x2 2 [⟨S256x512x1, a⟩, ⟨S256x512x1, b⟩] concatenates_S256x512x1_S256x512x1_S256x512x2_d2) : (⟨S256x512x1, .f32⟩ : BufTy).Contents (Elt F) → (⟨S256x512x1, .f32⟩ : BufTy).Contents (Elt F) → (⟨S256x512x2, .f32⟩ : BufTy).Contents (Elt F)),
    nullary main_c_3 (constantI S_ 32 0#32),
    unary main_c_3 main_v38 (broadcastInDim S256x512 ![] bcast_S_S256x512 : (⟨S_, .i32⟩ : BufTy).Contents (Elt F) → (⟨S256x512, .i32⟩ : BufTy).Contents (Elt F)),
    binary main_arg0 main_v38 main_v39 (cmpi .ne : (⟨S256x512, .i32⟩ : BufTy).Contents (Elt F) → (⟨S256x512, .i32⟩ : BufTy).Contents (Elt F) → (⟨S256x512, .i1⟩ : BufTy).Contents (Elt F)),
    unary main_v39 main_v40 (broadcastInDim S256x512x1 ![0, 1] bcast_S256x512_S256x512x1_0_1 : (⟨S256x512, .i1⟩ : BufTy).Contents (Elt F) → (⟨S256x512x1, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S256x512x1, .i1⟩) main_v40) (TRef.of (T := ⟨S256x512x2, .i1⟩) main_call0_v1) (broadcastInDim S256x512x2 ![0, 1, 2] bcast_S256x512x1_S256x512x2_0_1_2),
    TRef.unary (TRef.of (T := ⟨S_, .f32⟩) main_call0_v0) (TRef.of (T := ⟨S256x512x2, .f32⟩) main_call0_v2) (broadcastInDim S256x512x2 ![] bcast_S_S256x512x2),
    TRef.ternary (TRef.of (T := ⟨S256x512x2, .i1⟩) main_call0_v1) (TRef.of (T := ⟨S256x512x2, .f32⟩) main_v18) (TRef.of (T := ⟨S256x512x2, .f32⟩) main_call0_v2) (TRef.of (T := ⟨S256x512x2, .f32⟩) main_v41) select,
    nullary main_c_4 (constantI S_ 32 0#32),
    unary main_c_4 main_v42 (broadcastInDim S256x512 ![] bcast_S_S256x512 : (⟨S_, .i32⟩ : BufTy).Contents (Elt F) → (⟨S256x512, .i32⟩ : BufTy).Contents (Elt F)),
    binary main_arg1 main_v42 main_v43 (cmpi .ne : (⟨S256x512, .i32⟩ : BufTy).Contents (Elt F) → (⟨S256x512, .i32⟩ : BufTy).Contents (Elt F) → (⟨S256x512, .i1⟩ : BufTy).Contents (Elt F)),
    unary main_v43 main_v44 (broadcastInDim S256x512x1 ![0, 1] bcast_S256x512_S256x512x1_0_1 : (⟨S256x512, .i1⟩ : BufTy).Contents (Elt F) → (⟨S256x512x1, .i1⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S256x512x1, .i1⟩) main_v44) (TRef.of (T := ⟨S256x512x2, .i1⟩) main_call1_v1) (broadcastInDim S256x512x2 ![0, 1, 2] bcast_S256x512x1_S256x512x2_0_1_2),
    TRef.unary (TRef.of (T := ⟨S_, .f32⟩) main_call1_v0) (TRef.of (T := ⟨S256x512x2, .f32⟩) main_call1_v2) (broadcastInDim S256x512x2 ![] bcast_S_S256x512x2),
    TRef.ternary (TRef.of (T := ⟨S256x512x2, .i1⟩) main_call1_v1) (TRef.of (T := ⟨S256x512x2, .f32⟩) main_v37) (TRef.of (T := ⟨S256x512x2, .f32⟩) main_call1_v2) (TRef.of (T := ⟨S256x512x2, .f32⟩) main_v45) select ]

/-- Operations 60 to 77 of the list. -/
def ops4 : List (HloOp τ sig (Elt F)) :=
  [ unary main_v41 main_v46 (broadcastInDim S256x512x2x1 ![0, 1, 2] bcast_S256x512x2_S256x512x2x1_0_1_2 : (⟨S256x512x2, .f32⟩ : BufTy).Contents (Elt F) → (⟨S256x512x2x1, .f32⟩ : BufTy).Contents (Elt F)),
    reshape main_arg2 main_v47 rfl shapeCasts_S128x1_S128,
    unary main_v47 main_v48 (broadcastInDim S1x1x1x128 ![3] bcast_S128_S1x1x1x128_3 : (⟨S128, .f32⟩ : BufTy).Contents (Elt F) → (⟨S1x1x1x128, .f32⟩ : BufTy).Contents (Elt F)),
    unary main_v46 main_v49 (broadcastInDim S256x512x2x128 ![0, 1, 2, 3] bcast_S256x512x2x1_S256x512x2x128_0_1_2_3 : (⟨S256x512x2x1, .f32⟩ : BufTy).Contents (Elt F) → (⟨S256x512x2x128, .f32⟩ : BufTy).Contents (Elt F)),
    unary main_v48 main_v50 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v49 main_v50 main_v51 (mulf : (⟨S256x512x2x128, .f32⟩ : BufTy).Contents (Elt F) → (⟨S256x512x2x128, .f32⟩ : BufTy).Contents (Elt F) → (⟨S256x512x2x128, .f32⟩ : BufTy).Contents (Elt F)),
    unary main_arg3 main_v52 (broadcastInDim S1x1x1x128 ![3] bcast_S128_S1x1x1x128_3 : (⟨S128, .f32⟩ : BufTy).Contents (Elt F) → (⟨S1x1x1x128, .f32⟩ : BufTy).Contents (Elt F)),
    unary main_v52 main_v53 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v51 main_v53 main_v54 (addf : (⟨S256x512x2x128, .f32⟩ : BufTy).Contents (Elt F) → (⟨S256x512x2x128, .f32⟩ : BufTy).Contents (Elt F) → (⟨S256x512x2x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S256x512x2x128, .f32⟩) main_call2_v0) (broadcastInDim S256x512x2x128 ![] bcast_S_S256x512x2x128),
    TRef.binary (TRef.of (T := ⟨S256x512x2x128, .f32⟩) main_v54) (TRef.of (T := ⟨S256x512x2x128, .f32⟩) main_call2_v0) (TRef.of (T := ⟨S256x512x2x128, .f32⟩) main_v55) maximumf,
    binary main_v55 main_arg4 main_v56 ((fun l r => Host.dotGeneral dot_S256x512x2x128_S128x128_S256x512x2x128_3_1_012_0_n_n none l r) : (⟨S256x512x2x128, .f32⟩ : BufTy).Contents (Elt F) → (⟨S128x128, .f32⟩ : BufTy).Contents (Elt F) → (⟨S256x512x2x128, .f32⟩ : BufTy).Contents (Elt F)),
    unary main_arg5 main_v57 (broadcastInDim S1x1x1x128 ![3] bcast_S128_S1x1x1x128_3 : (⟨S128, .f32⟩ : BufTy).Contents (Elt F) → (⟨S1x1x1x128, .f32⟩ : BufTy).Contents (Elt F)),
    unary main_v57 main_v58 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v56 main_v58 main_v59 (addf : (⟨S256x512x2x128, .f32⟩ : BufTy).Contents (Elt F) → (⟨S256x512x2x128, .f32⟩ : BufTy).Contents (Elt F) → (⟨S256x512x2x128, .f32⟩ : BufTy).Contents (Elt F)),
    nullary main_cst_6 (constant S_ .f32 0x00000000#32),
    binary main_v59 main_cst_6 main_v60 ((fun x v => Host.reduceAdd x v reducesTo_S256x512x2x128_S256x512x128_d2 h_S_) : (⟨S256x512x2x128, .f32⟩ : BufTy).Contents (Elt F) → (⟨S_, .f32⟩ : BufTy).Contents (Elt F) → (⟨S256x512x128, .f32⟩ : BufTy).Contents (Elt F)) ]

/-- Operations 78 to 95 of the list. -/
def ops5 : List (HloOp τ sig (Elt F)) :=
  [ unary main_v45 main_v61 (broadcastInDim S256x512x2x1 ![0, 1, 2] bcast_S256x512x2_S256x512x2x1_0_1_2 : (⟨S256x512x2, .f32⟩ : BufTy).Contents (Elt F) → (⟨S256x512x2x1, .f32⟩ : BufTy).Contents (Elt F)),
    reshape main_arg2 main_v62 rfl shapeCasts_S128x1_S128,
    unary main_v62 main_v63 (broadcastInDim S1x1x1x128 ![3] bcast_S128_S1x1x1x128_3 : (⟨S128, .f32⟩ : BufTy).Contents (Elt F) → (⟨S1x1x1x128, .f32⟩ : BufTy).Contents (Elt F)),
    unary main_v61 main_v64 (broadcastInDim S256x512x2x128 ![0, 1, 2, 3] bcast_S256x512x2x1_S256x512x2x128_0_1_2_3 : (⟨S256x512x2x1, .f32⟩ : BufTy).Contents (Elt F) → (⟨S256x512x2x128, .f32⟩ : BufTy).Contents (Elt F)),
    unary main_v63 main_v65 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v64 main_v65 main_v66 (mulf : (⟨S256x512x2x128, .f32⟩ : BufTy).Contents (Elt F) → (⟨S256x512x2x128, .f32⟩ : BufTy).Contents (Elt F) → (⟨S256x512x2x128, .f32⟩ : BufTy).Contents (Elt F)),
    unary main_arg3 main_v67 (broadcastInDim S1x1x1x128 ![3] bcast_S128_S1x1x1x128_3 : (⟨S128, .f32⟩ : BufTy).Contents (Elt F) → (⟨S1x1x1x128, .f32⟩ : BufTy).Contents (Elt F)),
    unary main_v67 main_v68 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v66 main_v68 main_v69 (addf : (⟨S256x512x2x128, .f32⟩ : BufTy).Contents (Elt F) → (⟨S256x512x2x128, .f32⟩ : BufTy).Contents (Elt F) → (⟨S256x512x2x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S256x512x2x128, .f32⟩) main_call3_v0) (broadcastInDim S256x512x2x128 ![] bcast_S_S256x512x2x128),
    TRef.binary (TRef.of (T := ⟨S256x512x2x128, .f32⟩) main_v69) (TRef.of (T := ⟨S256x512x2x128, .f32⟩) main_call3_v0) (TRef.of (T := ⟨S256x512x2x128, .f32⟩) main_v70) maximumf,
    binary main_v70 main_arg4 main_v71 ((fun l r => Host.dotGeneral dot_S256x512x2x128_S128x128_S256x512x2x128_3_1_012_0_n_n none l r) : (⟨S256x512x2x128, .f32⟩ : BufTy).Contents (Elt F) → (⟨S128x128, .f32⟩ : BufTy).Contents (Elt F) → (⟨S256x512x2x128, .f32⟩ : BufTy).Contents (Elt F)),
    unary main_arg5 main_v72 (broadcastInDim S1x1x1x128 ![3] bcast_S128_S1x1x1x128_3 : (⟨S128, .f32⟩ : BufTy).Contents (Elt F) → (⟨S1x1x1x128, .f32⟩ : BufTy).Contents (Elt F)),
    unary main_v72 main_v73 (broadcastInDim S256x512x2x128 ![0, 1, 2, 3] bcast_S1x1x1x128_S256x512x2x128_0_1_2_3 : (⟨S1x1x1x128, .f32⟩ : BufTy).Contents (Elt F) → (⟨S256x512x2x128, .f32⟩ : BufTy).Contents (Elt F)),
    binary main_v71 main_v73 main_v74 (addf : (⟨S256x512x2x128, .f32⟩ : BufTy).Contents (Elt F) → (⟨S256x512x2x128, .f32⟩ : BufTy).Contents (Elt F) → (⟨S256x512x2x128, .f32⟩ : BufTy).Contents (Elt F)),
    nullary main_cst_7 (constant S_ .f32 0x00000000#32),
    binary main_v74 main_cst_7 main_v75 ((fun x v => Host.reduceAdd x v reducesTo_S256x512x2x128_S256x512x128_d2 h_S_) : (⟨S256x512x2x128, .f32⟩ : BufTy).Contents (Elt F) → (⟨S_, .f32⟩ : BufTy).Contents (Elt F) → (⟨S256x512x128, .f32⟩ : BufTy).Contents (Elt F)) ]

theorem ops_split : (ops : List (HloOp τ sig (Elt F))) = ops1 ++ ops2 ++ ops3 ++ ops4 ++ ops5 := rfl

/-! ### Operations 0 to 19: the two counts of the first result, each as a [256, 512, 1] column -/

theorem at1_v16 (W : Valuation τ sig (Elt F)) :
    after (ops1 (F := F)) W (Proc.devRef .tc main_v16) = (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (W (Proc.devRef .tc main_arg0)))) (broadcastInDim S256x512x512 ![0, 1, 2] bcast_S256x1x512_S256x512x512_0_1_2 (broadcastInDim S256x1x512 ![0, 2] bcast_S256x512_S256x1x512_0_2 (W (Proc.devRef .tc main_arg0))))) natLt_1_32) (constantI S_ 32 0#32) reducesTo_S256x512x512_S256x512_d2 h_S_))) := by
  unfold ops1; after_results_simp <;> (try simp only [TRef.ofBuf, TRef.toBuf, cast_eq]) <;> rfl

theorem at1_v17 (W : Valuation τ sig (Elt F)) :
    after (ops1 (F := F)) W (Proc.devRef .tc main_v17) = (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (W (Proc.devRef .tc main_arg0)))) (broadcastInDim S256x512x512 ![0, 1, 2] bcast_S256x1x512_S256x512x512_0_1_2 (broadcastInDim S256x1x512 ![0, 2] bcast_S256x512_S256x1x512_0_2 (W (Proc.devRef .tc main_arg1))))) natLt_1_32) (constantI S_ 32 0#32) reducesTo_S256x512x512_S256x512_d2 h_S_))) := by
  unfold ops1; after_results_simp <;> (try simp only [TRef.ofBuf, TRef.toBuf, cast_eq]) <;> rfl

theorem at1_arg0 (W : Valuation τ sig (Elt F)) :
    after (ops1 (F := F)) W (Proc.devRef .tc main_arg0) = W (Proc.devRef .tc main_arg0) := by
  unfold ops1; after_results_simp <;> (try simp only [TRef.ofBuf, TRef.toBuf, cast_eq]) <;> rfl

theorem at1_arg1 (W : Valuation τ sig (Elt F)) :
    after (ops1 (F := F)) W (Proc.devRef .tc main_arg1) = W (Proc.devRef .tc main_arg1) := by
  unfold ops1; after_results_simp <;> (try simp only [TRef.ofBuf, TRef.toBuf, cast_eq]) <;> rfl

theorem at1_arg2 (W : Valuation τ sig (Elt F)) :
    after (ops1 (F := F)) W (Proc.devRef .tc main_arg2) = W (Proc.devRef .tc main_arg2) := by
  unfold ops1; after_results_simp <;> (try simp only [TRef.ofBuf, TRef.toBuf, cast_eq]) <;> rfl

theorem at1_arg3 (W : Valuation τ sig (Elt F)) :
    after (ops1 (F := F)) W (Proc.devRef .tc main_arg3) = W (Proc.devRef .tc main_arg3) := by
  unfold ops1; after_results_simp <;> (try simp only [TRef.ofBuf, TRef.toBuf, cast_eq]) <;> rfl

theorem at1_arg4 (W : Valuation τ sig (Elt F)) :
    after (ops1 (F := F)) W (Proc.devRef .tc main_arg4) = W (Proc.devRef .tc main_arg4) := by
  unfold ops1; after_results_simp <;> (try simp only [TRef.ofBuf, TRef.toBuf, cast_eq]) <;> rfl

theorem at1_arg5 (W : Valuation τ sig (Elt F)) :
    after (ops1 (F := F)) W (Proc.devRef .tc main_arg5) = W (Proc.devRef .tc main_arg5) := by
  unfold ops1; after_results_simp <;> (try simp only [TRef.ofBuf, TRef.toBuf, cast_eq]) <;> rfl

/-! ### Operations 20 to 40: the first result's two-channel array, and the second result's two counts -/

theorem at2_v18 (W : Valuation τ sig (Elt F)) :
    after (ops2 (F := F)) W (Proc.devRef .tc main_v18) = (concatenate S256x512x2 2 [⟨S256x512x1, (W (Proc.devRef .tc main_v16))⟩, ⟨S256x512x1, (W (Proc.devRef .tc main_v17))⟩] concatenates_S256x512x1_S256x512x1_S256x512x2_d2) := by
  unfold ops2; after_results_simp <;> (try simp only [TRef.ofBuf, TRef.toBuf, cast_eq]) <;> rfl

theorem at2_v35 (W : Valuation τ sig (Elt F)) :
    after (ops2 (F := F)) W (Proc.devRef .tc main_v35) = (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (W (Proc.devRef .tc main_arg1)))) (broadcastInDim S256x512x512 ![0, 1, 2] bcast_S256x1x512_S256x512x512_0_1_2 (broadcastInDim S256x1x512 ![0, 2] bcast_S256x512_S256x1x512_0_2 (W (Proc.devRef .tc main_arg0))))) natLt_1_32) (constantI S_ 32 0#32) reducesTo_S256x512x512_S256x512_d2 h_S_))) := by
  unfold ops2; after_results_simp <;> (try simp only [TRef.ofBuf, TRef.toBuf, cast_eq]) <;> rfl

theorem at2_v36 (W : Valuation τ sig (Elt F)) :
    after (ops2 (F := F)) W (Proc.devRef .tc main_v36) = (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (W (Proc.devRef .tc main_arg1)))) (broadcastInDim S256x512x512 ![0, 1, 2] bcast_S256x1x512_S256x512x512_0_1_2 (broadcastInDim S256x1x512 ![0, 2] bcast_S256x512_S256x1x512_0_2 (W (Proc.devRef .tc main_arg1))))) natLt_1_32) (constantI S_ 32 0#32) reducesTo_S256x512x512_S256x512_d2 h_S_))) := by
  unfold ops2; after_results_simp <;> (try simp only [TRef.ofBuf, TRef.toBuf, cast_eq]) <;> rfl

theorem at2_arg0 (W : Valuation τ sig (Elt F)) :
    after (ops2 (F := F)) W (Proc.devRef .tc main_arg0) = W (Proc.devRef .tc main_arg0) := by
  unfold ops2; after_results_simp <;> (try simp only [TRef.ofBuf, TRef.toBuf, cast_eq]) <;> rfl

theorem at2_arg1 (W : Valuation τ sig (Elt F)) :
    after (ops2 (F := F)) W (Proc.devRef .tc main_arg1) = W (Proc.devRef .tc main_arg1) := by
  unfold ops2; after_results_simp <;> (try simp only [TRef.ofBuf, TRef.toBuf, cast_eq]) <;> rfl

theorem at2_arg2 (W : Valuation τ sig (Elt F)) :
    after (ops2 (F := F)) W (Proc.devRef .tc main_arg2) = W (Proc.devRef .tc main_arg2) := by
  unfold ops2; after_results_simp <;> (try simp only [TRef.ofBuf, TRef.toBuf, cast_eq]) <;> rfl

theorem at2_arg3 (W : Valuation τ sig (Elt F)) :
    after (ops2 (F := F)) W (Proc.devRef .tc main_arg3) = W (Proc.devRef .tc main_arg3) := by
  unfold ops2; after_results_simp <;> (try simp only [TRef.ofBuf, TRef.toBuf, cast_eq]) <;> rfl

theorem at2_arg4 (W : Valuation τ sig (Elt F)) :
    after (ops2 (F := F)) W (Proc.devRef .tc main_arg4) = W (Proc.devRef .tc main_arg4) := by
  unfold ops2; after_results_simp <;> (try simp only [TRef.ofBuf, TRef.toBuf, cast_eq]) <;> rfl

theorem at2_arg5 (W : Valuation τ sig (Elt F)) :
    after (ops2 (F := F)) W (Proc.devRef .tc main_arg5) = W (Proc.devRef .tc main_arg5) := by
  unfold ops2; after_results_simp <;> (try simp only [TRef.ofBuf, TRef.toBuf, cast_eq]) <;> rfl

/-! ### Operations 41 to 59: the second result's two-channel array, and the two padding masks -/

theorem at3_v41 (W : Valuation τ sig (Elt F)) :
    after (ops3 (F := F)) W (Proc.devRef .tc main_v41) = (select (broadcastInDim S256x512x2 ![0, 1, 2] bcast_S256x512x1_S256x512x2_0_1_2 (broadcastInDim S256x512x1 ![0, 1] bcast_S256x512_S256x512x1_0_1 (cmpi .ne (W (Proc.devRef .tc main_arg0)) (broadcastInDim S256x512 ![] bcast_S_S256x512 (constantI S_ 32 0#32))))) (W (Proc.devRef .tc main_v18)) (broadcastInDim S256x512x2 ![] bcast_S_S256x512x2 (id (constant S_ .f32 0x00000000#32)))) := by
  unfold ops3; after_results_simp <;> (try simp only [TRef.ofBuf, TRef.toBuf, cast_eq]) <;> rfl

theorem at3_v45 (W : Valuation τ sig (Elt F)) :
    after (ops3 (F := F)) W (Proc.devRef .tc main_v45) = (select (broadcastInDim S256x512x2 ![0, 1, 2] bcast_S256x512x1_S256x512x2_0_1_2 (broadcastInDim S256x512x1 ![0, 1] bcast_S256x512_S256x512x1_0_1 (cmpi .ne (W (Proc.devRef .tc main_arg1)) (broadcastInDim S256x512 ![] bcast_S_S256x512 (constantI S_ 32 0#32))))) (concatenate S256x512x2 2 [⟨S256x512x1, (W (Proc.devRef .tc main_v35))⟩, ⟨S256x512x1, (W (Proc.devRef .tc main_v36))⟩] concatenates_S256x512x1_S256x512x1_S256x512x2_d2) (broadcastInDim S256x512x2 ![] bcast_S_S256x512x2 (id (constant S_ .f32 0x00000000#32)))) := by
  unfold ops3; after_results_simp <;> (try simp only [TRef.ofBuf, TRef.toBuf, cast_eq]) <;> rfl

theorem at3_arg0 (W : Valuation τ sig (Elt F)) :
    after (ops3 (F := F)) W (Proc.devRef .tc main_arg0) = W (Proc.devRef .tc main_arg0) := by
  unfold ops3; after_results_simp <;> (try simp only [TRef.ofBuf, TRef.toBuf, cast_eq]) <;> rfl

theorem at3_arg1 (W : Valuation τ sig (Elt F)) :
    after (ops3 (F := F)) W (Proc.devRef .tc main_arg1) = W (Proc.devRef .tc main_arg1) := by
  unfold ops3; after_results_simp <;> (try simp only [TRef.ofBuf, TRef.toBuf, cast_eq]) <;> rfl

theorem at3_arg2 (W : Valuation τ sig (Elt F)) :
    after (ops3 (F := F)) W (Proc.devRef .tc main_arg2) = W (Proc.devRef .tc main_arg2) := by
  unfold ops3; after_results_simp <;> (try simp only [TRef.ofBuf, TRef.toBuf, cast_eq]) <;> rfl

theorem at3_arg3 (W : Valuation τ sig (Elt F)) :
    after (ops3 (F := F)) W (Proc.devRef .tc main_arg3) = W (Proc.devRef .tc main_arg3) := by
  unfold ops3; after_results_simp <;> (try simp only [TRef.ofBuf, TRef.toBuf, cast_eq]) <;> rfl

theorem at3_arg4 (W : Valuation τ sig (Elt F)) :
    after (ops3 (F := F)) W (Proc.devRef .tc main_arg4) = W (Proc.devRef .tc main_arg4) := by
  unfold ops3; after_results_simp <;> (try simp only [TRef.ofBuf, TRef.toBuf, cast_eq]) <;> rfl

theorem at3_arg5 (W : Valuation τ sig (Elt F)) :
    after (ops3 (F := F)) W (Proc.devRef .tc main_arg5) = W (Proc.devRef .tc main_arg5) := by
  unfold ops3; after_results_simp <;> (try simp only [TRef.ofBuf, TRef.toBuf, cast_eq]) <;> rfl

/-! ### Operations 60 to 77: the first result's two-layer map and channel sum -/

theorem at4_v60 (W : Valuation τ sig (Elt F)) :
    after (ops4 (F := F)) W (Proc.devRef .tc main_v60) = Host.reduceAdd (addf (Host.dotGeneral dot_S256x512x2x128_S128x128_S256x512x2x128_3_1_012_0_n_n none (maximumf (addf (mulf (broadcastInDim S256x512x2x128 ![0, 1, 2, 3] bcast_S256x512x2x1_S256x512x2x128_0_1_2_3 (broadcastInDim S256x512x2x1 ![0, 1, 2] bcast_S256x512x2_S256x512x2x1_0_1_2 (W (Proc.devRef .tc main_v41)))) (broadcastInDim S256x512x2x128 ![0, 1, 2, 3] bcast_S1x1x1x128_S256x512x2x128_0_1_2_3 (broadcastInDim S1x1x1x128 ![3] bcast_S128_S1x1x1x128_3 (shapeCast _ (W (Proc.devRef .tc main_arg2)) shapeCasts_S128x1_S128)))) (broadcastInDim S256x512x2x128 ![0, 1, 2, 3] bcast_S1x1x1x128_S256x512x2x128_0_1_2_3 (broadcastInDim S1x1x1x128 ![3] bcast_S128_S1x1x1x128_3 (W (Proc.devRef .tc main_arg3))))) (broadcastInDim S256x512x2x128 ![] bcast_S_S256x512x2x128 (constant S_ .f32 0x00000000#32))) (W (Proc.devRef .tc main_arg4))) (broadcastInDim S256x512x2x128 ![0, 1, 2, 3] bcast_S1x1x1x128_S256x512x2x128_0_1_2_3 (broadcastInDim S1x1x1x128 ![3] bcast_S128_S1x1x1x128_3 (W (Proc.devRef .tc main_arg5))))) (constant S_ .f32 0x00000000#32) reducesTo_S256x512x2x128_S256x512x128_d2 h_S_ := by
  unfold ops4; after_results_simp <;> (try simp only [TRef.ofBuf, TRef.toBuf, cast_eq]) <;> rfl

theorem at4_v45 (W : Valuation τ sig (Elt F)) :
    after (ops4 (F := F)) W (Proc.devRef .tc main_v45) = W (Proc.devRef .tc main_v45) := by
  unfold ops4; after_results_simp <;> (try simp only [TRef.ofBuf, TRef.toBuf, cast_eq]) <;> rfl

theorem at4_arg0 (W : Valuation τ sig (Elt F)) :
    after (ops4 (F := F)) W (Proc.devRef .tc main_arg0) = W (Proc.devRef .tc main_arg0) := by
  unfold ops4; after_results_simp <;> (try simp only [TRef.ofBuf, TRef.toBuf, cast_eq]) <;> rfl

theorem at4_arg1 (W : Valuation τ sig (Elt F)) :
    after (ops4 (F := F)) W (Proc.devRef .tc main_arg1) = W (Proc.devRef .tc main_arg1) := by
  unfold ops4; after_results_simp <;> (try simp only [TRef.ofBuf, TRef.toBuf, cast_eq]) <;> rfl

theorem at4_arg2 (W : Valuation τ sig (Elt F)) :
    after (ops4 (F := F)) W (Proc.devRef .tc main_arg2) = W (Proc.devRef .tc main_arg2) := by
  unfold ops4; after_results_simp <;> (try simp only [TRef.ofBuf, TRef.toBuf, cast_eq]) <;> rfl

theorem at4_arg3 (W : Valuation τ sig (Elt F)) :
    after (ops4 (F := F)) W (Proc.devRef .tc main_arg3) = W (Proc.devRef .tc main_arg3) := by
  unfold ops4; after_results_simp <;> (try simp only [TRef.ofBuf, TRef.toBuf, cast_eq]) <;> rfl

theorem at4_arg4 (W : Valuation τ sig (Elt F)) :
    after (ops4 (F := F)) W (Proc.devRef .tc main_arg4) = W (Proc.devRef .tc main_arg4) := by
  unfold ops4; after_results_simp <;> (try simp only [TRef.ofBuf, TRef.toBuf, cast_eq]) <;> rfl

theorem at4_arg5 (W : Valuation τ sig (Elt F)) :
    after (ops4 (F := F)) W (Proc.devRef .tc main_arg5) = W (Proc.devRef .tc main_arg5) := by
  unfold ops4; after_results_simp <;> (try simp only [TRef.ofBuf, TRef.toBuf, cast_eq]) <;> rfl

/-! ### Operations 78 to 95: the second result's -/

theorem at5_v75 (W : Valuation τ sig (Elt F)) :
    after (ops5 (F := F)) W (Proc.devRef .tc main_v75) = Host.reduceAdd (addf (Host.dotGeneral dot_S256x512x2x128_S128x128_S256x512x2x128_3_1_012_0_n_n none (maximumf (addf (mulf (broadcastInDim S256x512x2x128 ![0, 1, 2, 3] bcast_S256x512x2x1_S256x512x2x128_0_1_2_3 (broadcastInDim S256x512x2x1 ![0, 1, 2] bcast_S256x512x2_S256x512x2x1_0_1_2 (W (Proc.devRef .tc main_v45)))) (broadcastInDim S256x512x2x128 ![0, 1, 2, 3] bcast_S1x1x1x128_S256x512x2x128_0_1_2_3 (broadcastInDim S1x1x1x128 ![3] bcast_S128_S1x1x1x128_3 (shapeCast _ (W (Proc.devRef .tc main_arg2)) shapeCasts_S128x1_S128)))) (broadcastInDim S256x512x2x128 ![0, 1, 2, 3] bcast_S1x1x1x128_S256x512x2x128_0_1_2_3 (broadcastInDim S1x1x1x128 ![3] bcast_S128_S1x1x1x128_3 (W (Proc.devRef .tc main_arg3))))) (broadcastInDim S256x512x2x128 ![] bcast_S_S256x512x2x128 (constant S_ .f32 0x00000000#32))) (W (Proc.devRef .tc main_arg4))) (broadcastInDim S256x512x2x128 ![0, 1, 2, 3] bcast_S1x1x1x128_S256x512x2x128_0_1_2_3 (broadcastInDim S1x1x1x128 ![3] bcast_S128_S1x1x1x128_3 (W (Proc.devRef .tc main_arg5))))) (constant S_ .f32 0x00000000#32) reducesTo_S256x512x2x128_S256x512x128_d2 h_S_ := by
  unfold ops5; after_results_simp <;> (try simp only [TRef.ofBuf, TRef.toBuf, cast_eq]) <;> rfl

theorem at5_v60 (W : Valuation τ sig (Elt F)) :
    after (ops5 (F := F)) W (Proc.devRef .tc main_v60) = W (Proc.devRef .tc main_v60) := by
  unfold ops5; after_results_simp <;> (try simp only [TRef.ofBuf, TRef.toBuf, cast_eq]) <;> rfl

theorem at5_arg0 (W : Valuation τ sig (Elt F)) :
    after (ops5 (F := F)) W (Proc.devRef .tc main_arg0) = W (Proc.devRef .tc main_arg0) := by
  unfold ops5; after_results_simp <;> (try simp only [TRef.ofBuf, TRef.toBuf, cast_eq]) <;> rfl

theorem at5_arg1 (W : Valuation τ sig (Elt F)) :
    after (ops5 (F := F)) W (Proc.devRef .tc main_arg1) = W (Proc.devRef .tc main_arg1) := by
  unfold ops5; after_results_simp <;> (try simp only [TRef.ofBuf, TRef.toBuf, cast_eq]) <;> rfl

theorem at5_arg2 (W : Valuation τ sig (Elt F)) :
    after (ops5 (F := F)) W (Proc.devRef .tc main_arg2) = W (Proc.devRef .tc main_arg2) := by
  unfold ops5; after_results_simp <;> (try simp only [TRef.ofBuf, TRef.toBuf, cast_eq]) <;> rfl

theorem at5_arg3 (W : Valuation τ sig (Elt F)) :
    after (ops5 (F := F)) W (Proc.devRef .tc main_arg3) = W (Proc.devRef .tc main_arg3) := by
  unfold ops5; after_results_simp <;> (try simp only [TRef.ofBuf, TRef.toBuf, cast_eq]) <;> rfl

theorem at5_arg4 (W : Valuation τ sig (Elt F)) :
    after (ops5 (F := F)) W (Proc.devRef .tc main_arg4) = W (Proc.devRef .tc main_arg4) := by
  unfold ops5; after_results_simp <;> (try simp only [TRef.ofBuf, TRef.toBuf, cast_eq]) <;> rfl

theorem at5_arg5 (W : Valuation τ sig (Elt F)) :
    after (ops5 (F := F)) W (Proc.devRef .tc main_arg5) = W (Proc.devRef .tc main_arg5) := by
  unfold ops5; after_results_simp <;> (try simp only [TRef.ofBuf, TRef.toBuf, cast_eq]) <;> rfl

/-! ## The whole list: the stretches' readings composed, outermost first -/

theorem res_v60 (V : Valuation τ sig (Elt F)) :
    after (ops (F := F)) V (Proc.devRef .tc main_v60) = Host.reduceAdd (addf (Host.dotGeneral dot_S256x512x2x128_S128x128_S256x512x2x128_3_1_012_0_n_n none (maximumf (addf (mulf (broadcastInDim S256x512x2x128 ![0, 1, 2, 3] bcast_S256x512x2x1_S256x512x2x128_0_1_2_3 (broadcastInDim S256x512x2x1 ![0, 1, 2] bcast_S256x512x2_S256x512x2x1_0_1_2 (select (broadcastInDim S256x512x2 ![0, 1, 2] bcast_S256x512x1_S256x512x2_0_1_2 (broadcastInDim S256x512x1 ![0, 1] bcast_S256x512_S256x512x1_0_1 (cmpi .ne (V (Proc.devRef .tc main_arg0)) (broadcastInDim S256x512 ![] bcast_S_S256x512 (constantI S_ 32 0#32))))) (concatenate S256x512x2 2 [⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (V (Proc.devRef .tc main_arg0)))) (broadcastInDim S256x512x512 ![0, 1, 2] bcast_S256x1x512_S256x512x512_0_1_2 (broadcastInDim S256x1x512 ![0, 2] bcast_S256x512_S256x1x512_0_2 (V (Proc.devRef .tc main_arg0))))) natLt_1_32) (constantI S_ 32 0#32) reducesTo_S256x512x512_S256x512_d2 h_S_)))⟩, ⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (V (Proc.devRef .tc main_arg0)))) (broadcastInDim S256x512x512 ![0, 1, 2] bcast_S256x1x512_S256x512x512_0_1_2 (broadcastInDim S256x1x512 ![0, 2] bcast_S256x512_S256x1x512_0_2 (V (Proc.devRef .tc main_arg1))))) natLt_1_32) (constantI S_ 32 0#32) reducesTo_S256x512x512_S256x512_d2 h_S_)))⟩] concatenates_S256x512x1_S256x512x1_S256x512x2_d2) (broadcastInDim S256x512x2 ![] bcast_S_S256x512x2 (id (constant S_ .f32 0x00000000#32)))))) (broadcastInDim S256x512x2x128 ![0, 1, 2, 3] bcast_S1x1x1x128_S256x512x2x128_0_1_2_3 (broadcastInDim S1x1x1x128 ![3] bcast_S128_S1x1x1x128_3 (shapeCast _ (V (Proc.devRef .tc main_arg2)) shapeCasts_S128x1_S128)))) (broadcastInDim S256x512x2x128 ![0, 1, 2, 3] bcast_S1x1x1x128_S256x512x2x128_0_1_2_3 (broadcastInDim S1x1x1x128 ![3] bcast_S128_S1x1x1x128_3 (V (Proc.devRef .tc main_arg3))))) (broadcastInDim S256x512x2x128 ![] bcast_S_S256x512x2x128 (constant S_ .f32 0x00000000#32))) (V (Proc.devRef .tc main_arg4))) (broadcastInDim S256x512x2x128 ![0, 1, 2, 3] bcast_S1x1x1x128_S256x512x2x128_0_1_2_3 (broadcastInDim S1x1x1x128 ![3] bcast_S128_S1x1x1x128_3 (V (Proc.devRef .tc main_arg5))))) (constant S_ .f32 0x00000000#32) reducesTo_S256x512x2x128_S256x512x128_d2 h_S_ := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_v75 (V : Valuation τ sig (Elt F)) :
    after (ops (F := F)) V (Proc.devRef .tc main_v75) = Host.reduceAdd (addf (Host.dotGeneral dot_S256x512x2x128_S128x128_S256x512x2x128_3_1_012_0_n_n none (maximumf (addf (mulf (broadcastInDim S256x512x2x128 ![0, 1, 2, 3] bcast_S256x512x2x1_S256x512x2x128_0_1_2_3 (broadcastInDim S256x512x2x1 ![0, 1, 2] bcast_S256x512x2_S256x512x2x1_0_1_2 (select (broadcastInDim S256x512x2 ![0, 1, 2] bcast_S256x512x1_S256x512x2_0_1_2 (broadcastInDim S256x512x1 ![0, 1] bcast_S256x512_S256x512x1_0_1 (cmpi .ne (V (Proc.devRef .tc main_arg1)) (broadcastInDim S256x512 ![] bcast_S_S256x512 (constantI S_ 32 0#32))))) (concatenate S256x512x2 2 [⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (V (Proc.devRef .tc main_arg1)))) (broadcastInDim S256x512x512 ![0, 1, 2] bcast_S256x1x512_S256x512x512_0_1_2 (broadcastInDim S256x1x512 ![0, 2] bcast_S256x512_S256x1x512_0_2 (V (Proc.devRef .tc main_arg0))))) natLt_1_32) (constantI S_ 32 0#32) reducesTo_S256x512x512_S256x512_d2 h_S_)))⟩, ⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (V (Proc.devRef .tc main_arg1)))) (broadcastInDim S256x512x512 ![0, 1, 2] bcast_S256x1x512_S256x512x512_0_1_2 (broadcastInDim S256x1x512 ![0, 2] bcast_S256x512_S256x1x512_0_2 (V (Proc.devRef .tc main_arg1))))) natLt_1_32) (constantI S_ 32 0#32) reducesTo_S256x512x512_S256x512_d2 h_S_)))⟩] concatenates_S256x512x1_S256x512x1_S256x512x2_d2) (broadcastInDim S256x512x2 ![] bcast_S_S256x512x2 (id (constant S_ .f32 0x00000000#32)))))) (broadcastInDim S256x512x2x128 ![0, 1, 2, 3] bcast_S1x1x1x128_S256x512x2x128_0_1_2_3 (broadcastInDim S1x1x1x128 ![3] bcast_S128_S1x1x1x128_3 (shapeCast _ (V (Proc.devRef .tc main_arg2)) shapeCasts_S128x1_S128)))) (broadcastInDim S256x512x2x128 ![0, 1, 2, 3] bcast_S1x1x1x128_S256x512x2x128_0_1_2_3 (broadcastInDim S1x1x1x128 ![3] bcast_S128_S1x1x1x128_3 (V (Proc.devRef .tc main_arg3))))) (broadcastInDim S256x512x2x128 ![] bcast_S_S256x512x2x128 (constant S_ .f32 0x00000000#32))) (V (Proc.devRef .tc main_arg4))) (broadcastInDim S256x512x2x128 ![0, 1, 2, 3] bcast_S1x1x1x128_S256x512x2x128_0_1_2_3 (broadcastInDim S1x1x1x128 ![3] bcast_S128_S1x1x1x128_3 (V (Proc.devRef .tc main_arg5))))) (constant S_ .f32 0x00000000#32) reducesTo_S256x512x2x128_S256x512x128_d2 h_S_ := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_arg0 (V : Valuation τ sig (Elt F)) :
    after (ops (F := F)) V (Proc.devRef .tc main_arg0) = V (Proc.devRef .tc main_arg0) := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_arg1 (V : Valuation τ sig (Elt F)) :
    after (ops (F := F)) V (Proc.devRef .tc main_arg1) = V (Proc.devRef .tc main_arg1) := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_arg2 (V : Valuation τ sig (Elt F)) :
    after (ops (F := F)) V (Proc.devRef .tc main_arg2) = V (Proc.devRef .tc main_arg2) := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_arg3 (V : Valuation τ sig (Elt F)) :
    after (ops (F := F)) V (Proc.devRef .tc main_arg3) = V (Proc.devRef .tc main_arg3) := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_arg4 (V : Valuation τ sig (Elt F)) :
    after (ops (F := F)) V (Proc.devRef .tc main_arg4) = V (Proc.devRef .tc main_arg4) := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

theorem res_arg5 (V : Valuation τ sig (Elt F)) :
    after (ops (F := F)) V (Proc.devRef .tc main_arg5) = V (Proc.devRef .tc main_arg5) := by
  rw [ops_split, StableHlo.after_append, StableHlo.after_append, StableHlo.after_append, StableHlo.after_append]
  repeat (first | rw [at1_v16] | rw [at1_v17] | rw [at1_arg0] | rw [at1_arg1] | rw [at1_arg2] | rw [at1_arg3] | rw [at1_arg4] | rw [at1_arg5] | rw [at2_v18] | rw [at2_v35] | rw [at2_v36] | rw [at2_arg0] | rw [at2_arg1] | rw [at2_arg2] | rw [at2_arg3] | rw [at2_arg4] | rw [at2_arg5] | rw [at3_v41] | rw [at3_v45] | rw [at3_arg0] | rw [at3_arg1] | rw [at3_arg2] | rw [at3_arg3] | rw [at3_arg4] | rw [at3_arg5] | rw [at4_v60] | rw [at4_v45] | rw [at4_arg0] | rw [at4_arg1] | rw [at4_arg2] | rw [at4_arg3] | rw [at4_arg4] | rw [at4_arg5] | rw [at5_v75] | rw [at5_v60] | rw [at5_arg0] | rw [at5_arg1] | rw [at5_arg2] | rw [at5_arg3] | rw [at5_arg4] | rw [at5_arg5])

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = Host.reduceAdd (addf (Host.dotGeneral dot_S256x512x2x128_S128x128_S256x512x2x128_3_1_012_0_n_n none (maximumf (addf (mulf (broadcastInDim S256x512x2x128 ![0, 1, 2, 3] bcast_S256x512x2x1_S256x512x2x128_0_1_2_3 (broadcastInDim S256x512x2x1 ![0, 1, 2] bcast_S256x512x2_S256x512x2x1_0_1_2 (select (broadcastInDim S256x512x2 ![0, 1, 2] bcast_S256x512x1_S256x512x2_0_1_2 (broadcastInDim S256x512x1 ![0, 1] bcast_S256x512_S256x512x1_0_1 (cmpi .ne (m ((c.tc : Thread nD τ).loc main_arg0)) (broadcastInDim S256x512 ![] bcast_S_S256x512 (constantI S_ 32 0#32))))) (concatenate S256x512x2 2 [⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (m ((c.tc : Thread nD τ).loc main_arg0)))) (broadcastInDim S256x512x512 ![0, 1, 2] bcast_S256x1x512_S256x512x512_0_1_2 (broadcastInDim S256x1x512 ![0, 2] bcast_S256x512_S256x1x512_0_2 (m ((c.tc : Thread nD τ).loc main_arg0))))) natLt_1_32) (constantI S_ 32 0#32) reducesTo_S256x512x512_S256x512_d2 h_S_)))⟩, ⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (m ((c.tc : Thread nD τ).loc main_arg0)))) (broadcastInDim S256x512x512 ![0, 1, 2] bcast_S256x1x512_S256x512x512_0_1_2 (broadcastInDim S256x1x512 ![0, 2] bcast_S256x512_S256x1x512_0_2 (m ((c.tc : Thread nD τ).loc main_arg1))))) natLt_1_32) (constantI S_ 32 0#32) reducesTo_S256x512x512_S256x512_d2 h_S_)))⟩] concatenates_S256x512x1_S256x512x1_S256x512x2_d2) (broadcastInDim S256x512x2 ![] bcast_S_S256x512x2 (id (constant S_ .f32 0x00000000#32)))))) (broadcastInDim S256x512x2x128 ![0, 1, 2, 3] bcast_S1x1x1x128_S256x512x2x128_0_1_2_3 (broadcastInDim S1x1x1x128 ![3] bcast_S128_S1x1x1x128_3 (shapeCast _ (m ((c.tc : Thread nD τ).loc main_arg2)) shapeCasts_S128x1_S128)))) (broadcastInDim S256x512x2x128 ![0, 1, 2, 3] bcast_S1x1x1x128_S256x512x2x128_0_1_2_3 (broadcastInDim S1x1x1x128 ![3] bcast_S128_S1x1x1x128_3 (m ((c.tc : Thread nD τ).loc main_arg3))))) (broadcastInDim S256x512x2x128 ![] bcast_S_S256x512x2x128 (constant S_ .f32 0x00000000#32))) (m ((c.tc : Thread nD τ).loc main_arg4))) (broadcastInDim S256x512x2x128 ![0, 1, 2, 3] bcast_S1x1x1x128_S256x512x2x128_0_1_2_3 (broadcastInDim S1x1x1x128 ![3] bcast_S128_S1x1x1x128_3 (m ((c.tc : Thread nD τ).loc main_arg5))))) (constant S_ .f32 0x00000000#32) reducesTo_S256x512x2x128_S256x512x128_d2 h_S_
      ∧ r.2.mem ((c.tc : Thread nD τ).loc main_v75) = Host.reduceAdd (addf (Host.dotGeneral dot_S256x512x2x128_S128x128_S256x512x2x128_3_1_012_0_n_n none (maximumf (addf (mulf (broadcastInDim S256x512x2x128 ![0, 1, 2, 3] bcast_S256x512x2x1_S256x512x2x128_0_1_2_3 (broadcastInDim S256x512x2x1 ![0, 1, 2] bcast_S256x512x2_S256x512x2x1_0_1_2 (select (broadcastInDim S256x512x2 ![0, 1, 2] bcast_S256x512x1_S256x512x2_0_1_2 (broadcastInDim S256x512x1 ![0, 1] bcast_S256x512_S256x512x1_0_1 (cmpi .ne (m ((c.tc : Thread nD τ).loc main_arg1)) (broadcastInDim S256x512 ![] bcast_S_S256x512 (constantI S_ 32 0#32))))) (concatenate S256x512x2 2 [⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (m ((c.tc : Thread nD τ).loc main_arg1)))) (broadcastInDim S256x512x512 ![0, 1, 2] bcast_S256x1x512_S256x512x512_0_1_2 (broadcastInDim S256x1x512 ![0, 2] bcast_S256x512_S256x1x512_0_2 (m ((c.tc : Thread nD τ).loc main_arg0))))) natLt_1_32) (constantI S_ 32 0#32) reducesTo_S256x512x512_S256x512_d2 h_S_)))⟩, ⟨S256x512x1, (broadcastInDim S256x512x1 ![0, 1] bcast_S256x512_S256x512x1_0_1 (sitofp .f32 (Host.reduce IntOp.addi (extui 32 (cmpi .eq (broadcastInDim S256x512x512 ![0, 1, 2] bcast_S256x512x1_S256x512x512_0_1_2 (broadcastInDim S256x512x1 ![0, 1] bcast_S256x512_S256x512x1_0_1 (m ((c.tc : Thread nD τ).loc main_arg1)))) (broadcastInDim S256x512x512 ![0, 1, 2] bcast_S256x1x512_S256x512x512_0_1_2 (broadcastInDim S256x1x512 ![0, 2] bcast_S256x512_S256x1x512_0_2 (m ((c.tc : Thread nD τ).loc main_arg1))))) natLt_1_32) (constantI S_ 32 0#32) reducesTo_S256x512x512_S256x512_d2 h_S_)))⟩] concatenates_S256x512x1_S256x512x1_S256x512x2_d2) (broadcastInDim S256x512x2 ![] bcast_S_S256x512x2 (id (constant S_ .f32 0x00000000#32)))))) (broadcastInDim S256x512x2x128 ![0, 1, 2, 3] bcast_S1x1x1x128_S256x512x2x128_0_1_2_3 (broadcastInDim S1x1x1x128 ![3] bcast_S128_S1x1x1x128_3 (shapeCast _ (m ((c.tc : Thread nD τ).loc main_arg2)) shapeCasts_S128x1_S128)))) (broadcastInDim S256x512x2x128 ![0, 1, 2, 3] bcast_S1x1x1x128_S256x512x2x128_0_1_2_3 (broadcastInDim S1x1x1x128 ![3] bcast_S128_S1x1x1x128_3 (m ((c.tc : Thread nD τ).loc main_arg3))))) (broadcastInDim S256x512x2x128 ![] bcast_S_S256x512x2x128 (constant S_ .f32 0x00000000#32))) (m ((c.tc : Thread nD τ).loc main_arg4))) (broadcastInDim S256x512x2x128 ![0, 1, 2, 3] bcast_S1x1x1x128_S256x512x2x128_0_1_2_3 (broadcastInDim S1x1x1x128 ![3] bcast_S128_S1x1x1x128_3 (m ((c.tc : Thread nD τ).loc main_arg5))))) (constant S_ .f32 0x00000000#32) reducesTo_S256x512x2x128_S256x512x128_d2 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v60).trans (res_v60 _), (h c main_v75).trans (res_v75 _),
      (h c main_arg0).trans (res_arg0 _), (h c main_arg1).trans (res_arg1 _), (h c main_arg2).trans (res_arg2 _),
      (h c main_arg3).trans (res_arg3 _), (h c main_arg4).trans (res_arg4 _), (h c main_arg5).trans (res_arg5 _)⟩)
    (run_seq scopedRefs_eq scopedSems_eq defs main (fun _ => ops) main_eq (fun _ => ops_sub) m ρ)

end Cert.ReferenceIdeal.ValueQ

end
-- ==== Proof.RefCount.lean ====
/-
  Two readings of the reference's arrays that the one-element-at-a-time lemmas do not give.

  The count. The reference compares a query id with every id of a row, widens each one-bit answer to a
  32-bit word (0 or 1) and adds the 512 words of the row from 0. The sum of 512 words each 0 or 1 does not
  wrap, so its unsigned value is the number of positions whose answer is 1, that is, the number of positions
  of the row that hold the query id; the number is at most 512 < 2^31, so the signed reading agrees, and the
  conversion to a float gives that number exactly: `Cert.Appear.occ`.

  The two-channel array. Joining two [256, 512, 1] arrays along the last axis gives at channel 0 the first
  array's entry and at channel 1 the second's.

  The padding mask. Selecting by "the id is not 0" between a value and 0 is 0 at id 0, else the value.
-/
import proofs.«425663_j45260365365904_3_alg».proof.Proof.Gen.ReferenceIdeal
import proofs.«425663_j45260365365904_3_alg».proof.Proof.Spec
import Idealize.ShloMosaic.Lib.StableHlo.Predicate
import Idealize.ShloMosaic.Lib.Affine
import Idealize.ShloMosaic.PureOps.Reduce
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx Idealize.ShloMosaic.StableHlo

/-- Dropping the last axis of [256, 512, 512] leaves [256, 512]. -/
theorem reduces_d2 : S256x512x512.Reduces [2] S256x512 := by decide

/-- The source index over (b, l) at position k of the dropped axis is (b, l, k). -/
theorem lift_d2 (j : S256x512.Idx) (k : Fin 512) : reduces_d2.lift j k = ix3 (j 0) (j 1) k := by
  funext a
  match a with
  | ⟨0, _⟩ => rfl
  | ⟨1, _⟩ => rfl
  | ⟨2, _⟩ => rfl

/-- Adding the widened bits of a mask along the last axis, from 0, counts the set bits: 512 words each 0 or 1
    do not wrap. -/
theorem count_toNat (mask : S256x512x512.Idx → BitVec 1) (j : S256x512.Idx) :
    (Host.reduce IntOp.addi (extui 32 mask natLt_1_32) (constantI S_ 32 0#32) reducesTo_S256x512x512_S256x512_d2 h_S_ j).toNat
      = (Finset.univ.filter fun k : Fin 512 => mask (ix3 (j 0) (j 1) k) = 1#1).card := by
  rw [Host.reduce_eq_fold_single IntOp.addi _ _ reducesTo_S256x512x512_S256x512_d2 reduces_d2 h_S_ j]
  have hval : ∀ k : Fin 512, ((extui 32 mask natLt_1_32 ∘ reduces_d2.lift j) k).toNat = if mask (ix3 (j 0) (j 1) k) = 1#1 then 1 else 0 := by
    intro k
    show ((mask (reduces_d2.lift j k)).setWidth 32).toNat = _
    rw [lift_d2]; exact Predicate.toNat_setWidth_bit _
  have hsum : ∑ k : Fin 512, ((extui 32 mask natLt_1_32 ∘ reduces_d2.lift j) k).toNat
      = (Finset.univ.filter fun k : Fin 512 => mask (ix3 (j 0) (j 1) k) = 1#1).card := by
    rw [Finset.card_filter]
    exact Finset.sum_congr rfl fun k _ => hval k
  have hlt : ∑ k : Fin 512, ((extui 32 mask natLt_1_32 ∘ reduces_d2.lift j) k).toNat < 2 ^ 32 := by
    rw [hsum]; exact lt_of_le_of_lt (Finset.card_le_univ _) (by simp)
  exact (Predicate.toNat_fold_addi (ι := Fin 512) Finset.univ _ hlt).trans hsum

/-- The float count at (b, l): when the mask at (b, l, k) is the comparison of the query id `q` with the
    row's id at `k`, the converted sum is the number of positions of the row that hold `q`. -/
theorem count_eq_occ (mask : S256x512x512.Idx → BitVec 1) (q : BitVec 32) (row : Fin 512 → BitVec 32) (b : Fin 256) (l : Fin 512)
    (hm : ∀ k : Fin 512, mask (ix3 b l k) = IntOp.cmpi .eq q (row k)) :
    FloatOps.sitofp (F := Ideal) .f32 (Host.reduce IntOp.addi (extui 32 mask natLt_1_32) (constantI S_ 32 0#32) reducesTo_S256x512x512_S256x512_d2 h_S_ (ix2 b l))
      = Cert.Appear.occ q row := by
  have hn := count_toNat mask (ix2 b l)
  have hset : (Finset.univ.filter fun k : Fin 512 => mask (ix3 ((ix2 b l : S256x512.Idx) 0) ((ix2 b l : S256x512.Idx) 1) k) = 1#1)
      = Finset.univ.filter fun k : Fin 512 => row k = q :=
    Finset.filter_congr fun k _ => by
      show mask (ix3 b l k) = 1#1 ↔ _
      rw [hm k, Predicate.cmpi_eq_iff]; exact eq_comm
  rw [hset] at hn
  have hlt : (Host.reduce IntOp.addi (extui 32 mask natLt_1_32) (constantI S_ 32 0#32) reducesTo_S256x512x512_S256x512_d2 h_S_ (ix2 b l)).toNat < 2 ^ 31 := by
    rw [hn]; exact lt_of_le_of_lt (Finset.card_le_univ _) (by simp)
  show (((Host.reduce IntOp.addi (extui 32 mask natLt_1_32) (constantI S_ 32 0#32) reducesTo_S256x512x512_S256x512_d2 h_S_ (ix2 b l)).toInt : ℝ) : EReal) = _
  rw [Predicate.toInt_eq_toNat_of_lt hlt, hn]
  unfold Cert.Appear.occ
  simp only [Int.cast_natCast]

/-- Channel 0 of the join of two [256, 512, 1] arrays along the last axis is the first array. -/
theorem concat_ch0 {α : Type} (x y : S256x512x1.Idx → α) (b : Fin 256) (l : Fin 512) :
    concatenate S256x512x2 2 [⟨S256x512x1, x⟩, ⟨S256x512x1, y⟩] concatenates_S256x512x1_S256x512x1_S256x512x2_d2 (ix3 b l (0 : Fin 2))
      = x (ix3 b l (0 : Fin 1)) :=
  concatenate_pair_apply_left 2 x y concatenates_S256x512x1_S256x512x1_S256x512x2_d2 _ rfl _ (fun a => by
    match a with
    | ⟨0, _⟩ => rfl
    | ⟨1, _⟩ => rfl
    | ⟨2, _⟩ => rfl)

/-- Channel 1 of the join is the second array. -/
theorem concat_ch1 {α : Type} (x y : S256x512x1.Idx → α) (b : Fin 256) (l : Fin 512) :
    concatenate S256x512x2 2 [⟨S256x512x1, x⟩, ⟨S256x512x1, y⟩] concatenates_S256x512x1_S256x512x1_S256x512x2_d2 (ix3 b l (1 : Fin 2))
      = y (ix3 b l (0 : Fin 1)) :=
  concatenate_pair_apply_right 2 x y concatenates_S256x512x1_S256x512x1_S256x512x2_d2 _ rfl rfl _ (fun a ha => by
    match a, ha with
    | ⟨0, _⟩, _ => rfl
    | ⟨1, _⟩, _ => rfl
    | ⟨2, _⟩, ha => exact absurd rfl ha) rfl

/-- Selecting by "the id is not 0" between a value and 0: 0 at the padding id, else the value. -/
theorem select_ne_zero (q : BitVec 32) (A : EReal) :
    Scalar.select (IntOp.cmpi .ne q 0#32) A (0 : EReal) = if q = 0#32 then 0 else A := by
  by_cases h : q = 0#32
  · have hc : ¬ IntOp.cmpi .ne q 0#32 = 1#1 := fun e => (IntOp.cmpi_ne.1 e) h
    rw [if_pos h, eq_zero_of_ne_one hc, select_zero]
  · rw [if_neg h, IntOp.cmpi_ne.2 h, select_one]

end Cert.RefSide

end
-- ==== Proof.RefValue.lean ====
/-
  The reference's two results are the feature arrays of the specification.

  Entry (b, l, g) of a result is read back one operation at a time. The count of the query id q = Q[b, l] in a
  row is the converted integer sum of the 512 comparison bits of that row (the number of positions holding q);
  the two counts, in the first row array and in the second, are the two channels of a [256, 512, 2] array; the
  padding mask replaces both by 0 when q = 0; each channel x goes through the same two-layer map
  g ↦ (∑ f, max (x · W1[f, 0] + b1[f]) 0 · W2[g, f]) + b2[g]; and the sum over the two channels from 0 is
  0 + (channel 0 + channel 1), the feature of q. The first result takes its queries from the first id array,
  the second from the second; the rows are the same.
-/
import proofs.«425663_j45260365365904_3_alg».proof.Proof.RefRead
import proofs.«425663_j45260365365904_3_alg».proof.Proof.RefCount

noncomputable section

namespace Cert.RefSide

open Cert.ReferenceIdeal Cert.ReferenceIdeal.Gen Cert.ReferenceIdeal.Read Cert.Appear
open Idealize.ShloMosaic Idealize.ShloMosaic.ValueIdx Idealize.ShloMosaic.TcCoe Idealize.SL.Sem Idealize.ShloMosaic.StableHlo

variable (a0 a1 : S256x512.Idx → BitVec 32) (a2 : S128x1.Idx → EReal) (a3 : S128.Idx → EReal)
  (a4 : S128x128.Idx → EReal) (a5 : S128.Idx → EReal)

/-! ## The comparison bits at (b, l, k): query id at (b, l) against the row's id at (b, k) -/

theorem mask_v4 (b : Fin 256) (l k : Fin 512) :
    val_main_v4 (F := Ideal) a0 (ix3 b l k) = IntOp.cmpi .eq (a0 (ix2 b l)) (a0 (ix2 b k)) := by
  rw [val_main_v4_apply, val_main_v2_apply, val_main_v0_apply, val_main_v3_apply, val_main_v1_apply]
  have e1 : idx_main_v0 (idx_main_v2 (ix3 b l k)) = ix2 b l := by
    funext a; match a with | ⟨0, _⟩ => rfl | ⟨1, _⟩ => rfl
  have e2 : idx_main_v1 (idx_main_v3 (ix3 b l k)) = ix2 b k := by
    funext a; match a with | ⟨0, _⟩ => rfl | ⟨1, _⟩ => rfl
  rw [e1, e2]

theorem mask_v12 (b : Fin 256) (l k : Fin 512) :
    val_main_v12 (F := Ideal) a0 a1 (ix3 b l k) = IntOp.cmpi .eq (a0 (ix2 b l)) (a1 (ix2 b k)) := by
  rw [val_main_v12_apply, val_main_v10_apply, val_main_v8_apply, val_main_v11_apply, val_main_v9_apply]
  have e1 : idx_main_v8 (idx_main_v10 (ix3 b l k)) = ix2 b l := by
    funext a; match a with | ⟨0, _⟩ => rfl | ⟨1, _⟩ => rfl
  have e2 : idx_main_v9 (idx_main_v11 (ix3 b l k)) = ix2 b k := by
    funext a; match a with | ⟨0, _⟩ => rfl | ⟨1, _⟩ => rfl
  rw [e1, e2]

theorem mask_v23 (b : Fin 256) (l k : Fin 512) :
    val_main_v23 (F := Ideal) a0 a1 (ix3 b l k) = IntOp.cmpi .eq (a1 (ix2 b l)) (a0 (ix2 b k)) := by
  rw [val_main_v23_apply, val_main_v21_apply, val_main_v19_apply, val_main_v22_apply, val_main_v20_apply]
  have e1 : idx_main_v19 (idx_main_v21 (ix3 b l k)) = ix2 b l := by
    funext a; match a with | ⟨0, _⟩ => rfl | ⟨1, _⟩ => rfl
  have e2 : idx_main_v20 (idx_main_v22 (ix3 b l k)) = ix2 b k := by
    funext a; match a with | ⟨0, _⟩ => rfl | ⟨1, _⟩ => rfl
  rw [e1, e2]

theorem mask_v31 (b : Fin 256) (l k : Fin 512) :
    val_main_v31 (F := Ideal) a1 (ix3 b l k) = IntOp.cmpi .eq (a1 (ix2 b l)) (a1 (ix2 b k)) := by
  rw [val_main_v31_apply, val_main_v29_apply, val_main_v27_apply, val_main_v30_apply, val_main_v28_apply]
  have e1 : idx_main_v27 (idx_main_v29 (ix3 b l k)) = ix2 b l := by
    funext a; match a with | ⟨0, _⟩ => rfl | ⟨1, _⟩ => rfl
  have e2 : idx_main_v28 (idx_main_v30 (ix3 b l k)) = ix2 b k := by
    funext a; match a with | ⟨0, _⟩ => rfl | ⟨1, _⟩ => rfl
  rw [e1, e2]

/-! ## The four float counts -/

theorem count_v7 (b : Fin 256) (l : Fin 512) :
    val_main_v7 (F := Ideal) a0 (ix2 b l) = occ (a0 (ix2 b l)) (fun k => a0 (ix2 b k)) :=
  count_eq_occ (val_main_v4 (F := Ideal) a0) _ _ b l (fun k => mask_v4 a0 b l k)

theorem count_v15 (b : Fin 256) (l : Fin 512) :
    val_main_v15 (F := Ideal) a0 a1 (ix2 b l) = occ (a0 (ix2 b l)) (fun k => a1 (ix2 b k)) :=
  count_eq_occ (val_main_v12 (F := Ideal) a0 a1) _ _ b l (fun k => mask_v12 a0 a1 b l k)

theorem count_v26 (b : Fin 256) (l : Fin 512) :
    val_main_v26 (F := Ideal) a0 a1 (ix2 b l) = occ (a1 (ix2 b l)) (fun k => a0 (ix2 b k)) :=
  count_eq_occ (val_main_v23 (F := Ideal) a0 a1) _ _ b l (fun k => mask_v23 a0 a1 b l k)

theorem count_v34 (b : Fin 256) (l : Fin 512) :
    val_main_v34 (F := Ideal) a1 (ix2 b l) = occ (a1 (ix2 b l)) (fun k => a1 (ix2 b k)) :=
  count_eq_occ (val_main_v31 (F := Ideal) a1) _ _ b l (fun k => mask_v31 a1 b l k)

/-! ## The two-channel count arrays -/

theorem pair_v18_ch0 (b : Fin 256) (l : Fin 512) :
    val_main_v18 (F := Ideal) a0 a1 (ix3 b l (0 : Fin 2)) = occ (a0 (ix2 b l)) (fun k => a0 (ix2 b k)) := by
  unfold val_main_v18
  rw [concat_ch0, val_main_v16_apply]
  have e : idx_main_v16 (ix3 b l (0 : Fin 1)) = ix2 b l := by
    funext a; match a with | ⟨0, _⟩ => rfl | ⟨1, _⟩ => rfl
  rw [e, count_v7]

theorem pair_v18_ch1 (b : Fin 256) (l : Fin 512) :
    val_main_v18 (F := Ideal) a0 a1 (ix3 b l (1 : Fin 2)) = occ (a0 (ix2 b l)) (fun k => a1 (ix2 b k)) := by
  unfold val_main_v18
  rw [concat_ch1, val_main_v17_apply]
  have e : idx_main_v17 (ix3 b l (0 : Fin 1)) = ix2 b l := by
    funext a; match a with | ⟨0, _⟩ => rfl | ⟨1, _⟩ => rfl
  rw [e, count_v15]

theorem pair_v37_ch0 (b : Fin 256) (l : Fin 512) :
    val_main_v37 (F := Ideal) a0 a1 (ix3 b l (0 : Fin 2)) = occ (a1 (ix2 b l)) (fun k => a0 (ix2 b k)) := by
  unfold val_main_v37
  rw [concat_ch0, val_main_v35_apply]
  have e : idx_main_v35 (ix3 b l (0 : Fin 1)) = ix2 b l := by
    funext a; match a with | ⟨0, _⟩ => rfl | ⟨1, _⟩ => rfl
  rw [e, count_v26]

theorem pair_v37_ch1 (b : Fin 256) (l : Fin 512) :
    val_main_v37 (F := Ideal) a0 a1 (ix3 b l (1 : Fin 2)) = occ (a1 (ix2 b l)) (fun k => a1 (ix2 b k)) := by
  unfold val_main_v37
  rw [concat_ch1, val_main_v36_apply]
  have e : idx_main_v36 (ix3 b l (0 : Fin 1)) = ix2 b l := by
    funext a; match a with | ⟨0, _⟩ => rfl | ⟨1, _⟩ => rfl
  rw [e, count_v34]

/-! ## The padding mask -/

theorem pad_v41 (b : Fin 256) (l : Fin 512) (c : Fin 2) :
    val_main_call0_v1 (F := Ideal) a0 (ix3 b l c) = IntOp.cmpi .ne (a0 (ix2 b l)) 0#32 := by
  rw [val_main_call0_v1_apply, val_main_v40_apply, val_main_v39_apply, val_main_v38_apply, val_main_c_3_apply]
  have e : idx_main_v40 (idx_main_call0_v1 (ix3 b l c)) = ix2 b l := by
    funext a; match a with | ⟨0, _⟩ => rfl | ⟨1, _⟩ => rfl
  rw [e]

theorem pad_v45 (b : Fin 256) (l : Fin 512) (c : Fin 2) :
    val_main_call1_v1 (F := Ideal) a1 (ix3 b l c) = IntOp.cmpi .ne (a1 (ix2 b l)) 0#32 := by
  rw [val_main_call1_v1_apply, val_main_v44_apply, val_main_v43_apply, val_main_v42_apply, val_main_c_4_apply]
  have e : idx_main_v44 (idx_main_call1_v1 (ix3 b l c)) = ix2 b l := by
    funext a; match a with | ⟨0, _⟩ => rfl | ⟨1, _⟩ => rfl
  rw [e]

theorem zero_v41 (i : S256x512x2.Idx) : val_main_call0_v2 (F := Ideal) i = (0 : EReal) := by
  rw [val_main_call0_v2_apply, val_main_call0_v0_apply, val_main_cst_apply]
  exact Ideal.ofBits_zero_f32

theorem zero_v45 (i : S256x512x2.Idx) : val_main_call1_v2 (F := Ideal) i = (0 : EReal) := by
  rw [val_main_call1_v2_apply, val_main_call1_v0_apply, val_main_cst_5_apply]
  exact Ideal.ofBits_zero_f32

theorem masked_v41_ch0 (b : Fin 256) (l : Fin 512) :
    val_main_v41 (F := Ideal) a0 a1 (ix3 b l (0 : Fin 2)) = maskedOcc (a0 (ix2 b l)) (fun k => a0 (ix2 b k)) := by
  rw [val_main_v41_apply, pad_v41, zero_v41, pair_v18_ch0, select_ne_zero]
  rfl

theorem masked_v41_ch1 (b : Fin 256) (l : Fin 512) :
    val_main_v41 (F := Ideal) a0 a1 (ix3 b l (1 : Fin 2)) = maskedOcc (a0 (ix2 b l)) (fun k => a1 (ix2 b k)) := by
  rw [val_main_v41_apply, pad_v41, zero_v41, pair_v18_ch1, select_ne_zero]
  rfl

theorem masked_v45_ch0 (b : Fin 256) (l : Fin 512) :
    val_main_v45 (F := Ideal) a0 a1 (ix3 b l (0 : Fin 2)) = maskedOcc (a1 (ix2 b l)) (fun k => a0 (ix2 b k)) := by
  rw [val_main_v45_apply, pad_v45, zero_v45, pair_v37_ch0, select_ne_zero]
  rfl

theorem masked_v45_ch1 (b : Fin 256) (l : Fin 512) :
    val_main_v45 (F := Ideal) a0 a1 (ix3 b l (1 : Fin 2)) = maskedOcc (a1 (ix2 b l)) (fun k => a1 (ix2 b k)) := by
  rw [val_main_v45_apply, pad_v45, zero_v45, pair_v37_ch1, select_ne_zero]
  rfl

/-! ## The two-layer map on channel c of the first masked count array -/

theorem hidden_v55 (b : Fin 256) (l : Fin 512) (c : Fin 2) (f : Fin 128) :
    val_main_v55 (F := Ideal) a0 a1 a2 a3 (ix4 b l c f)
      = max (val_main_v41 (F := Ideal) a0 a1 (ix3 b l c) * a2 (ix2 f (0 : Fin 1)) + a3 (ix1 f)) 0 := by
  rw [val_main_v55_apply, val_main_v54_apply, val_main_v51_apply, val_main_v49_apply, val_main_v46_apply,
    val_main_v50_apply, val_main_v48_apply, val_main_v47_apply, val_main_v53_apply, val_main_v52_apply,
    val_main_call2_v0_apply, val_main_call2_cst_apply]
  have e1 : idx_main_v46 (idx_main_v49 (ix4 b l c f)) = ix3 b l c := by
    funext a; match a with | ⟨0, _⟩ => rfl | ⟨1, _⟩ => rfl | ⟨2, _⟩ => rfl
  have e2 : idx_main_v47 (idx_main_v48 (idx_main_v50 (ix4 b l c f))) = ix2 f (0 : Fin 1) := by
    funext a; match a with | ⟨0, _⟩ => exact Fin.ext (Nat.div_one _) | ⟨1, _⟩ => rfl
  have e3 : idx_main_v52 (idx_main_v53 (ix4 b l c f)) = ix1 f := by
    funext a; match a with | ⟨0, _⟩ => rfl
  rw [e1, e2, e3]
  show max (_ * _ + _) (Ideal.ofBits .f32 0x00000000#32) = _
  rw [Ideal.ofBits_zero_f32]

theorem encode_v59 (b : Fin 256) (l : Fin 512) (c : Fin 2) (g : Fin 128) :
    val_main_v59 (F := Ideal) a0 a1 a2 a3 a4 a5 (ix4 b l c g)
      = encode (val_main_v41 (F := Ideal) a0 a1 (ix3 b l c)) (fun f => a2 (ix2 f (0 : Fin 1))) (fun f => a3 (ix1 f))
          (fun g' f => a4 (ix2 g' f)) (fun g' => a5 (ix1 g')) g := by
  rw [val_main_v59_apply, val_main_v56_apply, val_main_v58_apply, val_main_v57_apply]
  have e : idx_main_v57 (idx_main_v58 (ix4 b l c g)) = ix1 g := by
    funext a; match a with | ⟨0, _⟩ => rfl
  rw [e]
  unfold encode
  show (∑ k : Fin 128, _) + _ = _
  refine congrArg (· + a5 (ix1 g)) (Finset.sum_congr rfl fun f _ => ?_)
  have el : lidx_main_v56 (ix4 b l c g) f = ix4 b l c f := by
    funext a; match a with | ⟨0, _⟩ => rfl | ⟨1, _⟩ => rfl | ⟨2, _⟩ => rfl | ⟨3, _⟩ => rfl
  have er : ridx_main_v56 (ix4 b l c g) f = ix2 g f := by
    funext a; match a with | ⟨0, _⟩ => rfl | ⟨1, _⟩ => rfl
  rw [el, er, hidden_v55]

/-- Entry (b, l, g) of the first result: 0 + (channel 0 + channel 1) is the feature of the query id. -/
theorem feature_v60 (b : Fin 256) (l : Fin 512) (g : Fin 128) :
    val_main_v60 (F := Ideal) a0 a1 a2 a3 a4 a5 (ix3 b l g) = featureAt a0 a0 a1 a2 a3 a4 a5 b l g := by
  rw [val_main_v60_apply, val_main_cst_6_apply, Fin.sum_univ_two]
  have e0 : idx_main_v60 (ix3 b l g) (0 : Fin 2) = ix4 b l (0 : Fin 2) g := by
    funext a; match a with | ⟨0, _⟩ => rfl | ⟨1, _⟩ => rfl | ⟨2, _⟩ => rfl | ⟨3, _⟩ => rfl
  have e1 : idx_main_v60 (ix3 b l g) (1 : Fin 2) = ix4 b l (1 : Fin 2) g := by
    funext a; match a with | ⟨0, _⟩ => rfl | ⟨1, _⟩ => rfl | ⟨2, _⟩ => rfl | ⟨3, _⟩ => rfl
  rw [e0, e1, encode_v59, encode_v59, masked_v41_ch0, masked_v41_ch1]
  show Ideal.ofBits .f32 0x00000000#32 + _ = _
  rw [Ideal.ofBits_zero_f32, zero_add]
  rfl

theorem ref_v60 :
    val_main_v60 (F := Ideal) a0 a1 a2 a3 a4 a5 = featureArr a0 a0 a1 a2 a3 a4 a5 := by
  funext i
  rw [eq_ix3 i]
  exact feature_v60 a0 a1 a2 a3 a4 a5 _ _ _

/-! ## The two-layer map on channel c of the second masked count array -/

theorem hidden_v70 (b : Fin 256) (l : Fin 512) (c : Fin 2) (f : Fin 128) :
    val_main_v70 (F := Ideal) a0 a1 a2 a3 (ix4 b l c f)
      = max (val_main_v45 (F := Ideal) a0 a1 (ix3 b l c) * a2 (ix2 f (0 : Fin 1)) + a3 (ix1 f)) 0 := by
  rw [val_main_v70_apply, val_main_v69_apply, val_main_v66_apply, val_main_v64_apply, val_main_v61_apply,
    val_main_v65_apply, val_main_v63_apply, val_main_v62_apply, val_main_v68_apply, val_main_v67_apply,
    val_main_call3_v0_apply, val_main_call3_cst_apply]
  have e1 : idx_main_v61 (idx_main_v64 (ix4 b l c f)) = ix3 b l c := by
    funext a; match a with | ⟨0, _⟩ => rfl | ⟨1, _⟩ => rfl | ⟨2, _⟩ => rfl
  have e2 : idx_main_v62 (idx_main_v63 (idx_main_v65 (ix4 b l c f))) = ix2 f (0 : Fin 1) := by
    funext a; match a with | ⟨0, _⟩ => exact Fin.ext (Nat.div_one _) | ⟨1, _⟩ => rfl
  have e3 : idx_main_v67 (idx_main_v68 (ix4 b l c f)) = ix1 f := by
    funext a; match a with | ⟨0, _⟩ => rfl
  rw [e1, e2, e3]
  show max (_ * _ + _) (Ideal.ofBits .f32 0x00000000#32) = _
  rw [Ideal.ofBits_zero_f32]

theorem encode_v74 (b : Fin 256) (l : Fin 512) (c : Fin 2) (g : Fin 128) :
    val_main_v74 (F := Ideal) a0 a1 a2 a3 a4 a5 (ix4 b l c g)
      = encode (val_main_v45 (F := Ideal) a0 a1 (ix3 b l c)) (fun f => a2 (ix2 f (0 : Fin 1))) (fun f => a3 (ix1 f))
          (fun g' f => a4 (ix2 g' f)) (fun g' => a5 (ix1 g')) g := by
  rw [val_main_v74_apply, val_main_v71_apply, val_main_v73_apply, val_main_v72_apply]
  have e : idx_main_v72 (idx_main_v73 (ix4 b l c g)) = ix1 g := by
    funext a; match a with | ⟨0, _⟩ => rfl
  rw [e]
  unfold encode
  show (∑ k : Fin 128, _) + _ = _
  refine congrArg (· + a5 (ix1 g)) (Finset.sum_congr rfl fun f _ => ?_)
  have el : lidx_main_v71 (ix4 b l c g) f = ix4 b l c f := by
    funext a; match a with | ⟨0, _⟩ => rfl | ⟨1, _⟩ => rfl | ⟨2, _⟩ => rfl | ⟨3, _⟩ => rfl
  have er : ridx_main_v71 (ix4 b l c g) f = ix2 g f := by
    funext a; match a with | ⟨0, _⟩ => rfl | ⟨1, _⟩ => rfl
  rw [el, er, hidden_v70]

/-- Entry (b, l, g) of the second result: 0 + (channel 0 + channel 1) is the feature of the query id. -/
theorem feature_v75 (b : Fin 256) (l : Fin 512) (g : Fin 128) :
    val_main_v75 (F := Ideal) a0 a1 a2 a3 a4 a5 (ix3 b l g) = featureAt a1 a0 a1 a2 a3 a4 a5 b l g := by
  rw [val_main_v75_apply, val_main_cst_7_apply, Fin.sum_univ_two]
  have e0 : idx_main_v75 (ix3 b l g) (0 : Fin 2) = ix4 b l (0 : Fin 2) g := by
    funext a; match a with | ⟨0, _⟩ => rfl | ⟨1, _⟩ => rfl | ⟨2, _⟩ => rfl | ⟨3, _⟩ => rfl
  have e1 : idx_main_v75 (ix3 b l g) (1 : Fin 2) = ix4 b l (1 : Fin 2) g := by
    funext a; match a with | ⟨0, _⟩ => rfl | ⟨1, _⟩ => rfl | ⟨2, _⟩ => rfl | ⟨3, _⟩ => rfl
  rw [e0, e1, encode_v74, encode_v74, masked_v45_ch0, masked_v45_ch1]
  show Ideal.ofBits .f32 0x00000000#32 + _ = _
  rw [Ideal.ofBits_zero_f32, zero_add]
  rfl

theorem ref_v75 :
    val_main_v75 (F := Ideal) a0 a1 a2 a3 a4 a5 = featureArr a1 a0 a1 a2 a3 a4 a5 := by
  funext i
  rw [eq_ix3 i]
  exact feature_v75 a0 a1 a2 a3 a4 a5 _ _ _

/-! ## The run -/

/-- Every weakly fair execution of the reference terminates with its two results at the specification's
    feature arrays of the launch contents (queries from the first id array, then from the second) and the
    arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v60)
          = Cert.Appear.featureArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_v75)
          = Cert.Appear.featureArr (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run Cert.ReferenceIdeal.defs _ _).mono (fun _ h c =>
    ⟨(h c).1.trans ((val_main_v60_eq (F := Ideal) _ _ _ _ _ _).trans (ref_v60 _ _ _ _ _ _)),
      (h c).2.1.trans ((val_main_v75_eq (F := Ideal) _ _ _ _ _ _).trans (ref_v75 _ _ _ _ _ _)),
      (h c).2.2⟩) (Cert.ReferenceIdeal.ValueQ.run (F := Ideal) m' ρ')

end Cert.RefSide

end
-- ==== Proof.lean ====
/-
  The certificate's five claims for the appearance-count encoder.

  Both programs compute, for two id arrays [256, 512] and a two-layer encoder, two feature arrays [256, 512, 128]:
  entry (b, l, g) of the first is  encode (count of src[b, l] in src[b, ·]) g + encode (count of src[b, l] in dst[b, ·]) g,
  counts of the padding id 0 taken as 0, and the second is the same with dst[b, l] as the query (Proof/Spec.lean).
  The kernel counts with a float sum of indicator values over 512 lanes and encodes by a [2048, 128] × [128, 128]
  matrix product per count channel; the reference counts with an integer sum converted afterwards and encodes both
  channels by one contraction, then adds the two channels. On the extended reals these are the same numbers: a sum of
  512 ones and zeros is the count either way, a change of float format is the identity, and the two matrix products
  are the same sums over the hidden feature; the only algebra is commutativity and associativity of + and the unit 0.

  The frames: the kernel's launch hands each id array to two windows, so its run is read against the launch theorem
  for windows that share arrays (Proof/LaunchIdeal.lean, generic in the float family; Proof/LaunchWord.lean is the
  same text in the word-level program's namespace). The reference's frame is its run with the results dropped.
  Nothing the ideal pass rewrote: `preserves` has no conjunct.
-/
import proofs.«425663_j45260365365904_3_alg».proof.Defs
import proofs.«425663_j45260365365904_3_alg».proof.Proof.Gen.Kernel
import proofs.«425663_j45260365365904_3_alg».proof.Proof.Gen.KernelIdeal
import proofs.«425663_j45260365365904_3_alg».proof.Proof.Gen.ReferenceIdeal
import proofs.«425663_j45260365365904_3_alg».proof.Proof.Gen.Pre_finite_inputs
import proofs.«425663_j45260365365904_3_alg».proof.Proof.LaunchWord
import proofs.«425663_j45260365365904_3_alg».proof.Proof.LaunchIdeal
import proofs.«425663_j45260365365904_3_alg».proof.Proof.KernelValue
import proofs.«425663_j45260365365904_3_alg».proof.Proof.RefValue
import Idealize.ShloMosaic.Adequacy
import Idealize.ShloMosaic.Init

noncomputable section

namespace Cert.Proof

open Idealize.ShloMosaic Idealize.SL.Sem

/-- The word-level kernel runs to the end, faults nowhere and leaves its six arguments as passed. -/
theorem frame_p : Cert.frame_Kernel (hKernel := Cert.Kernel.Gen.facts) (hPre_finite_inputs := Cert.Pre_finite_inputs.Gen.facts) :=
  fun m ρ _ => Cert.Kernel.Launch10.frame m ρ

/-- So does the kernel read at the extended reals. -/
theorem frame_pi : Cert.frame_KernelIdeal (hKernelIdeal := Cert.KernelIdeal.Gen.facts) (hPre_finite_inputs := Cert.Pre_finite_inputs.Gen.facts) :=
  fun m ρ _ => Cert.KernelIdeal.Launch10.frame m ρ

/-- The reference is host operations only: its frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.RefSide.ref_run m ρ)

/-- From memories that agree on the arguments both programs end with the two feature arrays of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.RefSide.ref_run m' ρ')
  · rw [(hagree c).1, (hagree c).2.1, (hagree c).2.2.1, (hagree c).2.2.2.1, (hagree c).2.2.2.2.1, (hagree c).2.2.2.2.2]
  · rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
